-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S400000x128 : Shape := ⟨2, ![400000, 128]⟩
abbrev S400000 : Shape := ⟨1, ![400000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  bcast_S_S400000 : S_.BroadcastsInDim S400000 (![] : Fin 0 → Fin S400000.rank)
  reducesTo_S400000_S_d0 : S400000.ReducesTo [0] S_

variable [Facts]

def fn_part6 {F : FTy → Type} [FloatOps F] (main_arg3 : IVec S400000 32) (main_v100 : IVec S_ 1) (main_c_40 : IVec S_ 32) : IVec S_ 1 :=
  let main_v101 : IVec S400000 32 := broadcastInDim S400000 ![] bcast_S_S400000 main_c_40
  let main_v102 : IVec S400000 1 := cmpi .slt main_arg3 main_v101
  let main_c_41 : IVec S_ 1 := constantI S_ 1 1#1
  let main_v103 : IVec S_ 1 := (fun x v => Host.reduce IntOp.andi x v reducesTo_S400000_S_d0 h_S_) main_v102 main_c_41
  let main_v104 : IVec S_ 1 := andi main_v100 main_v103
  main_v104

def fn_part5 {F : FTy → Type} [FloatOps F] (main_arg2 : IVec S400000 32) (main_arg3 : IVec S400000 32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_c_34 : IVec S_ 32 := constantI S_ 32 0#32
  let main_v89 : IVec S400000 32 := broadcastInDim S400000 ![] bcast_S_S400000 main_c_34
  let main_v90 : IVec S400000 1 := cmpi .sge main_arg2 main_v89
  let main_c_35 : IVec S_ 1 := constantI S_ 1 1#1
  let main_v91 : IVec S_ 1 := (fun x v => Host.reduce IntOp.andi x v reducesTo_S400000_S_d0 h_S_) main_v90 main_c_35
  let main_v92 : IVec S_ 1 := andi main_v88 main_v91
  let main_c_36 : IVec S_ 32 := constantI S_ 32 50000#32
  let main_v93 : IVec S400000 32 := broadcastInDim S400000 ![] bcast_S_S400000 main_c_36
  let main_v94 : IVec S400000 1 := cmpi .slt main_arg2 main_v93
  let main_c_37 : IVec S_ 1 := constantI S_ 1 1#1
  let main_v95 : IVec S_ 1 := (fun x v => Host.reduce IntOp.andi x v reducesTo_S400000_S_d0 h_S_) main_v94 main_c_37
  let main_v96 : IVec S_ 1 := andi main_v92 main_v95
  let main_c_38 : IVec S_ 32 := constantI S_ 32 0#32
  let main_v97 : IVec S400000 32 := broadcastInDim S400000 ![] bcast_S_S400000 main_c_38
  let main_v98 : IVec S400000 1 := cmpi .sge main_arg3 main_v97
  let main_c_39 : IVec S_ 1 := constantI S_ 1 1#1
  let main_v99 : IVec S_ 1 := (fun x v => Host.reduce IntOp.andi x v reducesTo_S400000_S_d0 h_S_) main_v98 main_c_39
  let main_v100 : IVec S_ 1 := andi main_v96 main_v99
  let main_c_40 : IVec S_ 32 := constantI S_ 32 50000#32
  fn_part6 (F := F) main_arg3 main_v100 main_c_40

def fn_part4 {F : FTy → Type} [FloatOps F] (main_arg2 : IVec S400000 32) (main_arg3 : IVec S400000 32) (main_arg16 : FVec F S128x128 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg2 main_arg3 main_v83 main_v84 main_cst_32

def fn_part3 {F : FTy → Type} [FloatOps F] (main_arg2 : IVec S400000 32) (main_arg3 : IVec S400000 32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg2 main_arg3 main_arg16 main_arg17 main_arg18 main_arg19 main_v63 main_v67

def fn_part2 {F : FTy → Type} [FloatOps F] (main_arg2 : IVec S400000 32) (main_arg3 : IVec S400000 32) (main_arg9 : FVec F S128 .f32) (main_arg10 : FVec F S128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg12
  let main_cst_18 : FVec F S_ .f32 := constant S_ .f32 0x7F800000#32
  let main_v50 : FVec F S256x128 .f32 := broadcastInDim S256x128 ![] bcast_S_S256x128 main_cst_18
  fn_part3 (F := F) main_arg2 main_arg3 main_arg13 main_arg14 main_arg15 main_arg16 main_arg17 main_arg18 main_arg19 main_v48 main_v49 main_v50

def fn_part1 {F : FTy → Type} [FloatOps F] (main_arg2 : IVec S400000 32) (main_arg3 : IVec S400000 32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg3 main_arg9 main_arg10 main_arg11 main_arg12 main_arg13 main_arg14 main_arg15 main_arg16 main_arg17 main_arg18 main_arg19 main_v33

def fn {F : FTy → Type} [FloatOps F] (main_arg0 : FVec F S50000x128 .f32) (main_arg1 : FVec F S400000x128 .f32) (main_arg2 : IVec S400000 32) (main_arg3 : IVec S400000 32) (main_arg4 : FVec F S384x128 .f32) (main_arg5 : FVec F S128 .f32) (main_arg6 : FVec F S128x128 .f32) (main_arg7 : FVec F S128 .f32) (main_arg8 : FVec F S128x128 .f32) (main_arg9 : FVec F S128 .f32) (main_arg10 : FVec F S128 .f32) (main_arg11 : FVec F S128 .f32) (main_arg12 : FVec F S256x128 .f32) (main_arg13 : FVec F S128 .f32) (main_arg14 : FVec F S128x128 .f32) (main_arg15 : FVec F S128 .f32) (main_arg16 : FVec F S128x128 .f32) (main_arg17 : FVec F S128 .f32) (main_arg18 : FVec F S128 .f32) (main_arg19 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S384x128 .f32 := Host.absf main_arg4
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S400000x128 : Shape := ⟨2, ![400000, 128]⟩
abbrev S400000 : Shape := ⟨1, ![400000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S400000x1 : Shape := ⟨2, ![400000, 1]⟩
abbrev S1 : Shape := ⟨1, ![1]⟩
abbrev S1x1 : Shape := ⟨2, ![1, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 97
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S400000x128, .f32⟩
  | .hbm, ⟨2, _⟩ => ⟨S400000, .i32⟩
  | .hbm, ⟨3, _⟩ => ⟨S400000, .i32⟩
  | .hbm, ⟨4, _⟩ => ⟨S384x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S_, .i32⟩
  | .hbm, ⟨21, _⟩ => ⟨S400000, .i32⟩
  | .hbm, ⟨22, _⟩ => ⟨S400000, .i1⟩
  | .hbm, ⟨23, _⟩ => ⟨S_, .i32⟩
  | .hbm, ⟨24, _⟩ => ⟨S400000, .i32⟩
  | .hbm, ⟨25, _⟩ => ⟨S400000, .i32⟩
  | .hbm, ⟨26, _⟩ => ⟨S400000, .i32⟩
  | .hbm, ⟨27, _⟩ => ⟨S400000x1, .i32⟩
  | .hbm, ⟨28, _⟩ => ⟨S1, .i32⟩
  | .hbm, ⟨29, _⟩ => ⟨S_, .i32⟩
  | .hbm, ⟨30, _⟩ => ⟨S400000x1, .i32⟩
  | .hbm, ⟨31, _⟩ => ⟨S400000x1, .i1⟩
  | .hbm, ⟨32, _⟩ => ⟨S1x1, .i32⟩
  | .hbm, ⟨33, _⟩ => ⟨S400000x1, .i32⟩
  | .hbm, ⟨34, _⟩ => ⟨S400000x1, .i1⟩
  | .hbm, ⟨35, _⟩ => ⟨S400000x1, .i1⟩
  | .hbm, ⟨36, _⟩ => ⟨S_, .i1⟩
  | .hbm, ⟨37, _⟩ => ⟨S400000, .i1⟩
  | .hbm, ⟨38, _⟩ => ⟨S400000x128, .f32⟩
  | .hbm, ⟨39, _⟩ => ⟨S400000x128, .i1⟩
  | .hbm, ⟨40, _⟩ => ⟨S_, .f32⟩
  | .hbm, ⟨41, _⟩ => ⟨S400000x128, .f32⟩
  | .hbm, ⟨42, _⟩ => ⟨S400000x128, .f32⟩
  | .hbm, ⟨43, _⟩ => ⟨S_, .i32⟩
  | .hbm, ⟨44, _⟩ => ⟨S400000, .i32⟩
  | .hbm, ⟨45, _⟩ => ⟨S400000, .i1⟩
  | .hbm, ⟨46, _⟩ => ⟨S_, .i32⟩
  | .hbm, ⟨47, _⟩ => ⟨S400000, .i32⟩
  | .hbm, ⟨48, _⟩ => ⟨S400000, .i32⟩
  | .hbm, ⟨49, _⟩ => ⟨S400000, .i32⟩
  | .hbm, ⟨50, _⟩ => ⟨S400000x1, .i32⟩
  | .hbm, ⟨51, _⟩ => ⟨S1, .i32⟩
  | .hbm, ⟨52, _⟩ => ⟨S_, .i32⟩
  | .hbm, ⟨53, _⟩ => ⟨S400000x1, .i32⟩
  | .hbm, ⟨54, _⟩ => ⟨S400000x1, .i1⟩
  | .hbm, ⟨55, _⟩ => ⟨S1x1, .i32⟩
  | .hbm, ⟨56, _⟩ => ⟨S400000x1, .i32⟩
  | .hbm, ⟨57, _⟩ => ⟨S400000x1, .i1⟩
  | .hbm, ⟨58, _⟩ => ⟨S400000x1, .i1⟩
  | .hbm, ⟨59, _⟩ => ⟨S_, .i1⟩
  | .hbm, ⟨60, _⟩ => ⟨S400000, .i1⟩
  | .hbm, ⟨61, _⟩ => ⟨S400000x128, .f32⟩
  | .hbm, ⟨62, _⟩ => ⟨S400000x128, .i1⟩
  | .hbm, ⟨63, _⟩ => ⟨S_, .f32⟩
  | .hbm, ⟨64, _⟩ => ⟨S400000x128, .f32⟩
  | .hbm, ⟨65, _⟩ => ⟨S400000x128, .f32⟩
  | .hbm, ⟨66, _⟩ => ⟨S128x128, .f32⟩
  | .hbm, ⟨67, _⟩ => ⟨S128x128, .bf16⟩
  | .hbm, ⟨68, _⟩ => ⟨S128x128, .f32⟩
  | .hbm, ⟨69, _⟩ => ⟨S128x128, .bf16⟩
  | .hbm, ⟨70, _⟩ => ⟨S128x128, .f32⟩
  | .hbm, ⟨71, _⟩ => ⟨S128x128, .bf16⟩
  | .hbm, ⟨72, _⟩ => ⟨S128x128, .bf16⟩
  | .hbm, ⟨73, _⟩ => ⟨S128x128, .bf16⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x128, .f32⟩
  | .hbm, ⟨79, _⟩ => ⟨S400000x128, .f32⟩
  | .hbm, ⟨80, _⟩ => ⟨S400000x128, .f32⟩
  | .hbm, ⟨81, _⟩ => ⟨S_, .f32⟩
  | .hbm, ⟨82, _⟩ => ⟨S50000x128, .f32⟩
  | .hbm, ⟨83, _⟩ => ⟨S400000x1, .i32⟩
  | .hbm, ⟨84, _⟩ => ⟨S50000x128, .f32⟩
  | .hbm, ⟨85, _⟩ => ⟨S128x128, .f32⟩
  | .hbm, ⟨86, _⟩ => ⟨S128x128, .bf16⟩
  | .hbm, ⟨87, _⟩ => ⟨S128x128, .f32⟩
  | .hbm, ⟨88, _⟩ => ⟨S128x128, .bf16⟩
  | .hbm, ⟨89, _⟩ => ⟨S128x128, .bf16⟩
  | .hbm, ⟨90, _⟩ => ⟨S128x128, .bf16⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x128, .f32⟩
  | .hbm, ⟨96, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .bf16⟩
  | .local _ .vmem, ⟨25, _⟩ => ⟨S128x128, .bf16⟩
  | .local _ .vmem, ⟨26, _⟩ => ⟨S1x128, .f32⟩
  | .local _ .vmem, ⟨27, _⟩ => ⟨S128x128, .bf16⟩
  | .local _ .vmem, ⟨28, _⟩ => ⟨S1x128, .f32⟩
  | .local _ .vmem, ⟨29, _⟩ => ⟨S128x128, .bf16⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v0 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v1 : Ref sig .tc := ⟨.hbm, 65, rfl⟩
abbrev main_v2 : Ref sig .tc := ⟨.hbm, 66, rfl⟩
abbrev main_v3 : Ref sig .tc := ⟨.hbm, 67, rfl⟩
abbrev main_v4 : Ref sig .tc := ⟨.hbm, 68, rfl⟩
abbrev main_v5 : Ref sig .tc := ⟨.hbm, 69, rfl⟩
abbrev main_v6 : Ref sig .tc := ⟨.hbm, 70, rfl⟩
abbrev main_v7 : Ref sig .tc := ⟨.hbm, 71, rfl⟩
abbrev main_v8 : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_v15_0 : Ref sig .tc := ⟨.hbm, 79, rfl⟩
abbrev main_v15_1 : Ref sig .tc := ⟨.hbm, 80, rfl⟩
abbrev main_cst : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg9_0 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg11_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem9_0 : DmaSem sig := 31
abbrev cc1_sem10_0 : DmaSem sig := 32
abbrev cc1_sem11_0 : DmaSem sig := 33
abbrev cc1_sem11_1 : DmaSem sig := 34

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S5000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1_S1x1_1 : S1.BroadcastsInDim S1x1 (![1] : Fin 1 → Fin S1x1.rank)
  bcast_S1x1_S400000x1_0_1 : S1x1.BroadcastsInDim S400000x1 (![0, 1] : Fin 2 → Fin S400000x1.rank)
  reducesTo_S400000x1_S400000_d1 : S400000x1.ReducesTo [1] S400000
  h_S_ : 0 < S_.numel
  bcast_S400000_S400000x128_0 : S400000.BroadcastsInDim S400000x128 (![0] : Fin 1 → Fin S400000x128.rank)
  bcast_S_S400000x128 : S_.BroadcastsInDim S400000x128 (![] : Fin 0 → Fin S400000x128.rank)
  slices_S384x128_S128x128_0_0 : S384x128.Slices ![0, 0] S128x128
  bitsLt_bf16_f32 : FTy.bits .bf16 < FTy.bits .f32
  slices_S384x128_S128x128_128_0 : S384x128.Slices ![128, 0] S128x128
  slices_S384x128_S128x128_256_0 : S384x128.Slices ![256, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  gather_S50000x128_S400000x1_S400000x128_1_0_n_n_0_1_1128_wf : GatherDims.WF S50000x128 S400000x1 S400000x128 [1] [0] [] [0] [] 1 ![1, 128]
  dot_S5000x128_S128x128_S5000x128_1_0_0_1_n_n_wf : DotDims.WF S5000x128 S128x128 S5000x128 [1] [0] [0] [1] [] []
  scatter_S50000x128_S400000x1_S400000x128_1_0_0_1_wf : ScatterDims.WF S50000x128 S400000x1 S400000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S400000x128.size a
  hwx0_0 : ∀ i : grid0.Coords, EltTy.bits .f32 = 32 ∨ (Rect.block (s := S400000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S400000x128.size a
  hwx0_1 : ∀ i : grid0.Coords, EltTy.bits .f32 = 32 ∨ (Rect.block (s := S400000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S400000x128.size a
  hwx0_2 : ∀ i : grid0.Coords, EltTy.bits .f32 = 32 ∨ (Rect.block (s := S400000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x128.size a ≤ S400000x128.size a
  hwx0_13 : ∀ i : grid0.Coords, EltTy.bits .f32 = 32 ∨ (Rect.block (s := S400000x128) S5000x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S5000x128.size a ≤ S400000x128.size a
  hwx0_14 : ∀ i : grid0.Coords, EltTy.bits .f32 = 32 ∨ (Rect.block (s := S400000x128) S5000x128.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S50000x128.size a
  hwx1_11 : ∀ i : grid1.Coords, EltTy.bits .f32 = 32 ∨ (Rect.block (s := S50000x128) S5000x128.size (cc1_transform_11 i) (hinb1_11 i)).WholeWords (EltTy.packing .f32)

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v15_0) S5000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v15_1) S5000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v29) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v30) S5000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S400000x128 : Shape := ⟨2, ![400000, 128]⟩
abbrev S400000 : Shape := ⟨1, ![400000]⟩
abbrev S384x128 : Shape := ⟨2, ![384, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S400000x1 : Shape := ⟨2, ![400000, 1]⟩
abbrev S400000x384 : Shape := ⟨2, ![400000, 384]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 140
  | .vmem => 0
  | .smem => 0
  | _ => 0

abbrev hbmTy0_0 (i : Nat) : BufTy := match i % 128 with
  | 0 => ⟨S50000x128, .f32⟩
  | 1 => ⟨S400000x128, .f32⟩
  | 2 => ⟨S400000, .i32⟩
  | 3 => ⟨S400000, .i32⟩
  | 4 => ⟨S384x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128, .f32⟩
  | 11 => ⟨S128, .f32⟩
  | 12 => ⟨S256x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128, .f32⟩
  | 19 => ⟨S128, .f32⟩
  | 20 => ⟨S_, .i32⟩
  | 21 => ⟨S400000, .i32⟩
  | 22 => ⟨S400000, .i1⟩
  | 23 => ⟨S_, .i32⟩
  | 24 => ⟨S400000, .i32⟩
  | 25 => ⟨S400000, .i32⟩
  | 26 => ⟨S400000, .i32⟩
  | 27 => ⟨S400000x1, .i32⟩
  | 28 => ⟨S400000x128, .f32⟩
  | 29 => ⟨S_, .i32⟩
  | 30 => ⟨S400000, .i32⟩
  | 31 => ⟨S400000, .i1⟩
  | 32 => ⟨S_, .i32⟩
  | 33 => ⟨S400000, .i32⟩
  | 34 => ⟨S400000, .i32⟩
  | 35 => ⟨S400000, .i32⟩
  | 36 => ⟨S400000x1, .i32⟩
  | 37 => ⟨S400000x128, .f32⟩
  | 38 => ⟨S400000x384, .f32⟩
  | 39 => ⟨S400000x128, .f32⟩
  | 40 => ⟨S1x128, .f32⟩
  | 41 => ⟨S400000x128, .f32⟩
  | 42 => ⟨S400000x128, .f32⟩
  | 43 => ⟨S_, .f32⟩
  | 44 => ⟨S400000x128, .f32⟩
  | 45 => ⟨S400000x128, .f32⟩
  | 46 => ⟨S400000x128, .f32⟩
  | 47 => ⟨S1x128, .f32⟩
  | 48 => ⟨S400000x128, .f32⟩
  | 49 => ⟨S400000x128, .f32⟩
  | 50 => ⟨S_, .f32⟩
  | 51 => ⟨S400000x128, .f32⟩
  | 52 => ⟨S400000x128, .f32⟩
  | 53 => ⟨S400000x128, .f32⟩
  | 54 => ⟨S1x128, .f32⟩
  | 55 => ⟨S400000x128, .f32⟩
  | 56 => ⟨S400000x128, .f32⟩
  | 57 => ⟨S_, .f32⟩
  | 58 => ⟨S400000, .f32⟩
  | 59 => ⟨S400000x1, .f32⟩
  | 60 => ⟨S_, .f32⟩
  | 61 => ⟨S400000x1, .f32⟩
  | 62 => ⟨S400000x1, .f32⟩
  | 63 => ⟨S400000x128, .f32⟩
  | 64 => ⟨S400000x128, .f32⟩
  | 65 => ⟨S400000x128, .f32⟩
  | 66 => ⟨S_, .f32⟩
  | 67 => ⟨S400000, .f32⟩
  | 68 => ⟨S400000x1, .f32⟩
  | 69 => ⟨S_, .f32⟩
  | 70 => ⟨S400000x1, .f32⟩
  | 71 => ⟨S400000x1, .f32⟩
  | 72 => ⟨S400000x128, .f32⟩
  | 73 => ⟨S400000x128, .f32⟩
  | 74 => ⟨S1x128, .f32⟩
  | 75 => ⟨S400000x128, .f32⟩
  | 76 => ⟨S400000x128, .f32⟩
  | 77 => ⟨S_, .f32⟩
  | 78 => ⟨S400000x1, .f32⟩
  | 79 => ⟨S400000x1, .f32⟩
  | 80 => ⟨S400000x1, .f32⟩
  | 81 => ⟨S400000x128, .f32⟩
  | 82 => ⟨S400000x128, .f32⟩
  | 83 => ⟨S1x128, .f32⟩
  | 84 => ⟨S400000x128, .f32⟩
  | 85 => ⟨S400000x128, .f32⟩
  | 86 => ⟨S_, .f32⟩
  | 87 => ⟨S50000x128, .f32⟩
  | 88 => ⟨S400000x1, .i32⟩
  | 89 => ⟨S50000x128, .f32⟩
  | 90 => ⟨S50000x256, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000, .f32⟩
  | 111 => ⟨S50000x1, .f32⟩
  | 112 => ⟨S_, .f32⟩
  | 113 => ⟨S50000x1, .f32⟩
  | 114 => ⟨S50000x1, .f32⟩
  | 115 => ⟨S50000x128, .f32⟩
  | 116 => ⟨S50000x128, .f32⟩
  | 117 => ⟨S50000x128, .f32⟩
  | 118 => ⟨S_, .f32⟩
  | 119 => ⟨S50000, .f32⟩
  | 120 => ⟨S50000x1, .f32⟩
  | 121 => ⟨S_, .f32⟩
  | 122 => ⟨S50000x1, .f32⟩
  | 123 => ⟨S50000x1, .f32⟩
  | 124 => ⟨S50000x128, .f32⟩
  | 125 => ⟨S50000x128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000x1, .f32⟩
  | 3 => ⟨S50000x1, .f32⟩
  | 4 => ⟨S50000x1, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S50000x128, .f32⟩
  | 11 => ⟨S400000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_call0_cst : Ref sig .tc := ⟨.hbm, 43, rfl⟩
abbrev main_call0_v0 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call1_cst : Ref sig .tc := ⟨.hbm, 50, rfl⟩
abbrev main_call1_v0 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_v37 : Ref sig .tc := ⟨.hbm, 68, rfl⟩
abbrev main_cst_5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_6 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_7 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call2_cst : Ref sig .tc := ⟨.hbm, 95, rfl⟩
abbrev main_call2_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_call3_cst : Ref sig .tc := ⟨.hbm, 102, rfl⟩
abbrev main_call3_v0 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_8 : Ref sig .tc := ⟨.hbm, 109, rfl⟩
abbrev main_v71 : Ref sig .tc := ⟨.hbm, 110, rfl⟩
abbrev main_v72 : Ref sig .tc := ⟨.hbm, 111, rfl⟩
abbrev main_cst_9 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_10 : Ref sig .tc := ⟨.hbm, 118, rfl⟩
abbrev main_v78 : Ref sig .tc := ⟨.hbm, 119, rfl⟩
abbrev main_v79 : Ref sig .tc := ⟨.hbm, 120, rfl⟩
abbrev main_cst_11 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_cst_12 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  reducesTo_S400000x128_S400000_d1 : S400000x128.ReducesTo [1] S400000
  h_S_ : 0 < S_.numel
  bcast_S_S400000x1 : S_.BroadcastsInDim S400000x1 (![] : Fin 0 → Fin S400000x1.rank)
  bcast_S400000x1_S400000x128_0_1 : S400000x1.BroadcastsInDim S400000x128 (![0, 1] : Fin 2 → Fin S400000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S400000x1_S400000x128_1_0_n_n_0_1_1128_wf : GatherDims.WF S50000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x128_S400000x128_1_0_0_1_n_n_wf : DotDims.WF S400000x128 S128x128 S400000x128 [1] [0] [0] [1] [] []
  scatter_S50000x128_S400000x1_S400000x128_1_0_0_1_wf : ScatterDims.WF S50000x128 S400000x1 S400000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S400000x1_S400000x128_1_0_n_n_0_1_1128 : GatherDims S50000x128 S400000x1 S400000x128 where
  offsetDims := [1]
  collapsedSliceDims := [0]
  operandBatchingDims := []
  startIndicesBatchingDims := []
  startIndexMap := [0]
  indexVectorDim := 1
  sliceSizes := ![1, 128]
  wf := gather_S50000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def scatter_S50000x128_S400000x1_S400000x128_1_0_0_1 : ScatterDims S50000x128 S400000x1 S400000x128 where
  updateWindowDims := [1]
  insertedWindowDims := [0]
  scatterDimsToOperandDims := [0]
  indexVectorDim := 1
  wf := scatter_S50000x128_S400000x1_S400000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.PreDecode.lean ====
/-
  The two index arrays are in range: the precondition's last four conjuncts say that every sender word and every
  receiver word, read as a signed integer, is at least 0 and below 50000. The precondition is a conjunction (an
  `and` of one-bit words) of reductions by `and` over whole arrays, so it is all ones exactly when every conjunct is
  one, and a reduction by `and` is one exactly when every entry is one.
-/
import proofs.«425903_j37632503447812_1_alg».proof.Pre_finite_inputs
import proofs.«425903_j37632503447812_1_alg».proof.Proof.Gen.Pre_finite_inputs
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs

variable {F : FTy → Type} [FloatOps F]

/-- From the precondition: every sender and receiver word is a signed integer in [0, 50000). -/
theorem index_ranges (a0 : FVec F S50000x128 .f32) (a1 : FVec F S400000x128 .f32) (a2 a3 : IVec S400000 32)
    (a4 : FVec F S384x128 .f32) (a5 : FVec F S128 .f32) (a6 : FVec F S128x128 .f32) (a7 : FVec F S128 .f32)
    (a8 : FVec F S128x128 .f32) (a9 a10 a11 : FVec F S128 .f32) (a12 : FVec F S256x128 .f32) (a13 : FVec F S128 .f32)
    (a14 : FVec F S128x128 .f32) (a15 : FVec F S128 .f32) (a16 : FVec F S128x128 .f32) (a17 a18 a19 : FVec F S128 .f32)
    (h : Cert.Pre_finite_inputs.fn (F := F) a0 a1 a2 a3 a4 a5 a6 a7 a8 a9 a10 a11 a12 a13 a14 a15 a16 a17 a18 a19 = fun _ => 1#1) :
    (∀ i, IntOp.cmpi .sge (a2 i) 0#32 = 1#1) ∧ (∀ i, IntOp.cmpi .slt (a2 i) 50000#32 = 1#1)
      ∧ (∀ i, IntOp.cmpi .sge (a3 i) 0#32 = 1#1) ∧ (∀ i, IntOp.cmpi .slt (a3 i) 50000#32 = 1#1) := by
  -- the scalar shape has exactly one index, so a reduction into it is a reduction over the whole array
  haveI : Subsingleton S_.Idx := ⟨fun _ _ => funext fun d => d.elim0⟩
  -- the precondition at its one index: a conjunction whose outermost right operands are the four index conjuncts
  have h' := congrFun h ValueIdx.ix0
  dsimp only [fn, fn_part1, fn_part2, fn_part3, fn_part4, fn_part5, fn_part6, Idealize.ShloMosaic.andi] at h'
  -- a conjunction of one-bit words is one exactly when both sides are: step past the float conjuncts
  obtain ⟨h', h3hi⟩ := IntOp.andi_eq_one.1 h'
  obtain ⟨h', h3lo⟩ := IntOp.andi_eq_one.1 h'
  obtain ⟨h', h2hi⟩ := IntOp.andi_eq_one.1 h'
  obtain ⟨_, h2lo⟩ := IntOp.andi_eq_one.1 h'
  -- each conjunct is a reduction by `and` over the whole array: every entry of the compared array is one, and
  -- the entry at i compares the word at i with the broadcast scalar
  exact ⟨fun i => Host.reduce_andi_all _ _ _ _ _ h2lo i, fun i => Host.reduce_andi_all _ _ _ _ _ h2hi i,
    fun i => Host.reduce_andi_all _ _ _ _ _ h3lo i, fun i => Host.reduce_andi_all _ _ _ _ _ h3hi i⟩

/-- A word that is a signed integer in [0, 50000) is not negative, … -/
theorem not_neg {x : BitVec 32} (h0 : IntOp.cmpi .sge x 0#32 = 1#1) : IntOp.cmpi .slt x 0#32 = 0#1 := by
  -- 0 ≤ x as integers, so x < 0 fails, and a one-bit word that is not one is zero
  have hge : (0#32 : BitVec 32).toInt ≤ x.toInt := IntOp.cmpi_sge.1 h0
  have hne : ¬ IntOp.cmpi .slt x 0#32 = 1#1 := fun h1 => by
    have hlt : x.toInt < (0#32 : BitVec 32).toInt := IntOp.cmpi_slt.1 h1
    omega
  have bit : ∀ c : BitVec 1, ¬ c = 1#1 → c = 0#1 := by decide
  exact bit _ hne

/-- … and is at most 49999. -/
theorem le_last {x : BitVec 32} (h1 : IntOp.cmpi .slt x 50000#32 = 1#1) : IntOp.cmpi .sle x 49999#32 = 1#1 := by
  -- x < 50000 as integers is x ≤ 49999
  have hlt : x.toInt < (50000#32 : BitVec 32).toInt := IntOp.cmpi_slt.1 h1
  have e1 : (50000#32 : BitVec 32).toInt = 50000 := by decide
  have e2 : (49999#32 : BitVec 32).toInt = 49999 := by decide
  refine IntOp.cmpi_sle.2 ?_
  rw [e2]; rw [e1] at hlt; omega

end Cert.PreDecode

end
-- ==== Proof.Rows.lean ====
/-
  The mathematics both programs compute, one row at a time, on the extended reals.

  A row of 128 features goes through a three-layer perceptron and a layer normalisation:
    h0 = max (a0 + b0) 0,  h1 = max (h0 · W1 + b1) 0,  h2 = h1 · W2 + b2,
    mean = (sum h2) / 128,  var = (sum (h2 - mean)^2) / 128,
    out j = g j * (h2 j - mean) * rsqrt (var + eps) + beta j,
  where a0 is the first layer's product with the row's inputs. The first layer's input is a concatenation
  (sender row, receiver row, edge row: 384 entries; or node row, aggregated row: 256 entries), so its product
  is a sum over 384 (or 256) indices; computed part by part it is the sum of three (or two) sums over 128
  indices against the matching row blocks of the weight. Addition on the extended reals is commutative and
  associative, so the two agree with no finiteness assumption.
  The literal words 0, 128 and eps are kept as the same words on both sides and never evaluated.
-/
import Idealize.ShloMosaic.PureOps.Ideal
import Idealize.ShloMosaic.Lib.ValueIdx
import Mathlib.Algebra.BigOperators.Fin
import Mathlib.Data.Fintype.BigOperators
import Mathlib.Logic.Equiv.Fin.Basic

noncomputable section

namespace Cert.Rows

open Idealize.ShloMosaic Idealize.ShloMosaic.ValueIdx
open scoped BigOperators

/-- A rank-2 array of extended reals. -/
abbrev Mat (n m : ℕ) := (⟨2, ![n, m]⟩ : Shape).Idx → EReal
/-- A rank-1 array of extended reals. -/
abbrev Vec1 (n : ℕ) := (⟨1, ![n]⟩ : Shape).Idx → EReal

/-- The word of the float zero. -/
def c0 : EReal := Ideal.ofBits .f32 0x00000000#32
/-- The word of 128. -/
def c128 : EReal := Ideal.ofBits .f32 0x43000000#32
/-- The word of the variance's guard. -/
def ceps : EReal := Ideal.ofBits .f32 0x3727C5AC#32

/-- A row's mean: its sum over 128. -/
def mean (h : Fin 128 → EReal) : EReal := Ideal.div (∑ k, h k) c128
/-- A row's variance about its mean. -/
def var (h : Fin 128 → EReal) : EReal := Ideal.div (∑ k, (h k - mean h) * (h k - mean h)) c128
/-- Layer normalisation of a row, scaled by `g` and shifted by `β`. -/
def lnRow (h g β : Fin 128 → EReal) (j : Fin 128) : EReal :=
  g j * (h j - mean h) * Ideal.rsqrt (var h + ceps) + β j

/-- The second and third layers and the normalisation, from the first layer's product `a0`. -/
def tail (a0 b0 : Fin 128 → EReal) (W1 : Fin 128 → Fin 128 → EReal) (b1 : Fin 128 → EReal)
    (W2 : Fin 128 → Fin 128 → EReal) (b2 g β : Fin 128 → EReal) (j : Fin 128) : EReal :=
  lnRow (fun j2 => (∑ k, max ((∑ k1, max (a0 k1 + b0 k1) c0 * W1 k1 k) + b1 k) c0 * W2 k j2) + b2 j2) g β j

/-- A sum over 384 indices is the sum of the sums over its three blocks of 128. -/
theorem sum_384 (f : Fin 384 → EReal) :
    ∑ n : Fin 384, f n
      = (∑ r : Fin 128, f ⟨r.val, by omega⟩ + ∑ r : Fin 128, f ⟨128 + r.val, by omega⟩) + ∑ r : Fin 128, f ⟨256 + r.val, by omega⟩ := by
  have h : ∑ b : Fin 3, ∑ r : Fin 128, f ⟨128 * b.val + r.val, by omega⟩ = ∑ n : Fin (3 * 128), f n := by
    rw [← finProdFinEquiv.sum_comp, Fintype.sum_prod_type]
    refine Finset.sum_congr rfl fun b _ => Finset.sum_congr rfl fun r _ => ?_
    exact congrArg f (Fin.ext (Nat.add_comm _ _))
  rw [show (∑ n : Fin 384, f n) = ∑ n : Fin (3 * 128), f n from rfl, ← h, Fin.sum_univ_three]
  rfl

/-- A sum over 256 indices is the sum of the sums over its two blocks of 128. -/
theorem sum_256 (f : Fin 256 → EReal) :
    ∑ n : Fin 256, f n = ∑ r : Fin 128, f ⟨r.val, by omega⟩ + ∑ r : Fin 128, f ⟨128 + r.val, by omega⟩ := by
  have h : ∑ b : Fin 2, ∑ r : Fin 128, f ⟨128 * b.val + r.val, by omega⟩ = ∑ n : Fin (2 * 128), f n := by
    rw [← finProdFinEquiv.sum_comp, Fintype.sum_prod_type]
    refine Finset.sum_congr rfl fun b _ => Finset.sum_congr rfl fun r _ => ?_
    exact congrArg f (Fin.ext (Nat.add_comm _ _))
  rw [show (∑ n : Fin 256, f n) = ∑ n : Fin (2 * 128), f n from rfl, ← h, Fin.sum_univ_two]
  rfl

/-- A rank-2 array from its entries by row and column. -/
def ofRows {n m : ℕ} (f : Fin n → Fin m → EReal) : Mat n m := fun i => f (i 0) (i 1)
theorem ofRows_ix2 {n m : ℕ} (f : Fin n → Fin m → EReal) (p : Fin n) (q : Fin m) : ofRows f (ix2 p q) = f p q := rfl

/-- The perceptron's later layers and the normalisation over every row, the biases and the normalisation's scale and
    shift given as one-row arrays (the form the kernels load them in). -/
def tailK {n : ℕ} (a0 : Fin n → Fin 128 → EReal) (b0 : Mat 1 128) (W1 : Mat 128 128) (b1 : Mat 1 128) (W2 : Mat 128 128)
    (b2 g β : Mat 1 128) (e : Fin n) (j : Fin 128) : EReal :=
  tail (a0 e) (fun q => b0 (ix2 0 q)) (fun a b => W1 (ix2 a b)) (fun q => b1 (ix2 0 q)) (fun a b => W2 (ix2 a b))
    (fun q => b2 (ix2 0 q)) (fun q => g (ix2 0 q)) (fun q => β (ix2 0 q)) j
/-- The first layer's product of three row blocks against three 128×128 weights, summed part by part. -/
def a0K3 {n : ℕ} (x0 x1 x2 : Mat n 128) (w0 w1 w2 : Mat 128 128) (e : Fin n) (q : Fin 128) : EReal :=
  (∑ k : Fin 128, x0 (ix2 e k) * w0 (ix2 k q) + ∑ k : Fin 128, x1 (ix2 e k) * w1 (ix2 k q)) + ∑ k : Fin 128, x2 (ix2 e k) * w2 (ix2 k q)
/-- The first layer's product of two row blocks against two 128×128 weights. -/
def a0K2 {n : ℕ} (x0 x1 : Mat n 128) (w0 w1 : Mat 128 128) (e : Fin n) (q : Fin 128) : EReal :=
  ∑ k : Fin 128, x0 (ix2 e k) * w0 (ix2 k q) + ∑ k : Fin 128, x1 (ix2 e k) * w1 (ix2 k q)

/-- The same over vectors of 128 for the biases, scale and shift (the form the arguments come in). -/
def tailV {n : ℕ} (a0 : Fin n → Fin 128 → EReal) (b0 : Vec1 128) (W1 : Mat 128 128) (b1 : Vec1 128) (W2 : Mat 128 128)
    (b2 g β : Vec1 128) (e : Fin n) (j : Fin 128) : EReal :=
  tail (a0 e) (fun q => b0 (ix1 q)) (fun a b => W1 (ix2 a b)) (fun q => b1 (ix1 q)) (fun a b => W2 (ix2 a b))
    (fun q => b2 (ix1 q)) (fun q => g (ix1 q)) (fun q => β (ix1 q)) j
/-- The edge perceptron's first-layer product: sender, receiver and edge rows against the three row blocks of the
    384×128 weight. -/
def edgeA0 {n : ℕ} (sf rf ef : Mat n 128) (W0 : Mat 384 128) (e : Fin n) (q : Fin 128) : EReal :=
  (∑ k : Fin 128, sf (ix2 e k) * W0 (ix2 (⟨k.val, by omega⟩ : Fin 384) q)
    + ∑ k : Fin 128, rf (ix2 e k) * W0 (ix2 (⟨128 + k.val, by omega⟩ : Fin 384) q))
    + ∑ k : Fin 128, ef (ix2 e k) * W0 (ix2 (⟨256 + k.val, by omega⟩ : Fin 384) q)
/-- The node perceptron's first-layer product: node and aggregated rows against the two row blocks of the 256×128 weight. -/
def nodeA0 {n : ℕ} (nf ss : Mat n 128) (W0 : Mat 256 128) (e : Fin n) (q : Fin 128) : EReal :=
  ∑ k : Fin 128, nf (ix2 e k) * W0 (ix2 (⟨k.val, by omega⟩ : Fin 256) q)
    + ∑ k : Fin 128, ss (ix2 e k) * W0 (ix2 (⟨128 + k.val, by omega⟩ : Fin 256) q)

/-- The updated edge features before the residual. -/
def edgeNew {n : ℕ} (sf rf ef : Mat n 128) (W0 : Mat 384 128) (b0 : Vec1 128) (W1 : Mat 128 128) (b1 : Vec1 128)
    (W2 : Mat 128 128) (b2 g β : Vec1 128) : Mat n 128 :=
  ofRows (tailV (edgeA0 sf rf ef W0) b0 W1 b1 W2 b2 g β)
/-- The edge result: the updated edge features plus the edge features. -/
def edgeOut {n : ℕ} (sf rf ef : Mat n 128) (W0 : Mat 384 128) (b0 : Vec1 128) (W1 : Mat 128 128) (b1 : Vec1 128)
    (W2 : Mat 128 128) (b2 g β : Vec1 128) : Mat n 128 :=
  ofRows fun e j => tailV (edgeA0 sf rf ef W0) b0 W1 b1 W2 b2 g β e j + ef (ix2 e j)
/-- The node result: the node perceptron of node and aggregated rows, plus the node features. -/
def nodeOut {n : ℕ} (nf ss : Mat n 128) (W0 : Mat 256 128) (b0 : Vec1 128) (W1 : Mat 128 128) (b1 : Vec1 128)
    (W2 : Mat 128 128) (b2 g β : Vec1 128) : Mat n 128 :=
  ofRows fun e j => tailV (nodeA0 nf ss W0) b0 W1 b1 W2 b2 g β e j + nf (ix2 e j)

/-- Two rank-2 arrays that agree at every pair of coordinates are equal. -/
theorem ext2 {n m : ℕ} {α : Type} (x y : (⟨2, ![n, m]⟩ : Shape).Idx → α) (h : ∀ (p : Fin n) (q : Fin m), x (ix2 p q) = y (ix2 p q)) : x = y := by
  funext i
  obtain ⟨p, q, rfl⟩ : ∃ (p : Fin n) (q : Fin m), i = ix2 p q := ⟨i 0, i 1, eq_ix2 i⟩
  exact h p q

end Cert.Rows

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.EdgePayload.lean ====
/-
  What the edge kernel's body leaves in its two output blocks, read at a row r and a column j of the block:
  the perceptron and normalisation of row r of the three input blocks (first output), and that plus the edge
  block's entry (second output).
-/
import proofs.«425903_j37632503447812_1_alg».proof.Proof.Gen.KernelIdeal.Frame
import proofs.«425903_j37632503447812_1_alg».proof.Proof.Rows
import proofs.«425903_j37632503447812_1_alg».proof.Proof.LibPlainDot
import proofs.«425903_j37632503447812_1_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.EdgePayload

open Idealize.ShloMosaic Idealize.ShloMosaic.TcCoe Idealize.ShloMosaic.ValueIdx
open Cert.KernelIdeal Cert.KernelIdeal.Gen Cert.Rows
open scoped BigOperators

/-- The record of the block products is the plain one: rows by contraction times contraction by columns. -/
theorem dot_eq_plain : dot_S5000x128_S128x128_S5000x128_1_0_0_1_n_n = DotDims.plain 5000 128 128 :=
  Cert.LibPlainDot.eq_plain _ rfl rfl rfl rfl rfl rfl

/-- A block product into the zero accumulator at (r, j): the sum over k of lhs (r, k) * rhs (k, j). -/
theorem mm_apply {φ₁ φ₂ : FTy} (lhs : FVec Ideal S5000x128 φ₁) (rhs : FVec Ideal S128x128 φ₂) (r : Fin 5000) (j : Fin 128) :
    matmul dot_S5000x128_S128x128_S5000x128_1_0_0_1_n_n none lhs rhs (constant (F := Ideal) S5000x128 .f32 0x00000000#32) (ix2 r j)
      = ∑ k : Fin 128, lhs (ix2 r k) * rhs (ix2 k j) := by
  rw [dot_eq_plain]
  exact (Ideal.matmul_constant_zero_apply _ none lhs rhs (ix2 r j)).trans (Cert.LibPlainDot.plain_sum lhs rhs r j)

/-- The source index over the row index r with lane k inserted is (r, k). -/
theorem lift_eq (r : Fin 5000) (k : Fin 128) :
    Shape.Reduces.lift (s := S5000x128) (t := S5000) (a := 1) reduces_S5000x128_S5000 (ix1 r) k = ix2 r k := by
  funext c
  apply Fin.ext
  match c with
  | ⟨0, _⟩ => rfl
  | ⟨1, _⟩ => rfl

/-- A lane sum at row r: the sum over the 128 lanes of the row. -/
theorem rowsum_apply (v : FVec Ideal S5000x128 .f32) (r : Fin 5000) :
    multiReduction (F := Ideal) .add [1] S5000 v 0x00000000#32 reduces_S5000x128_S5000 (.inl rfl) rfl (ix1 r)
      = ∑ k : Fin 128, v (ix2 r k) :=
  (Ideal.multiReduction_add_single v _ reduces_S5000x128_S5000 _ _ (ix1 r)).trans
    (Finset.sum_congr rfl fun k _ => congrArg v (lift_eq r k))

/-- A reciprocal square root at an index is that of the element. -/
theorem rsqrt_apply {s : Shape} {φ : FTy} (a : FVec Ideal s φ) (i : s.Idx) : rsqrt a i = Ideal.rsqrt (a i) := rfl

/-- Layers one and two at (r, k): the first layer's three block products summed, its bias and the maximum with zero,
    then the second layer's product, its bias and the maximum with zero. -/
theorem pay3_apply (v0 v3 v6 : Vec Ideal S5000x128 .f32) (v8 v11 v15 : Vec Ideal S128x128 .bf16) (v19 : Vec Ideal S1x128 .f32)
    (v26 : Vec Ideal S128x128 .bf16) (v29 : Vec Ideal S1x128 .f32) (r : Fin 5000) (k : Fin 128) :
    k0_pay3 (F := Ideal) v0 v3 v6 v8 v11 v15 v19 v26 v29 (ix2 r k)
      = max ((∑ k1 : Fin 128, max (a0K3 v0 v3 v6 v8 v11 v15 r k1 + v19 (ix2 0 k1)) c0 * v26 (ix2 k1 k)) + v29 (ix2 0 k)) c0 := by
  unfold k0_pay3
  simp only [shapeCast_self, maximumf_apply, addf_apply, truncf_apply, broadcast_apply, mm_apply, broadcastTo_1b_ab_apply]
  rfl

/-- The third layer and the normalisation at (r, j), from the second layer's output: the row of the third layer's
    product plus its bias is normalised (its mean and variance are lane sums over 128 divided by the word of 128),
    scaled and shifted. -/
theorem pay1_apply (v34 : FVec Ideal S5000x128 .f32) (v36 : Vec Ideal S128x128 .bf16) (v39 v54 v65 : Vec Ideal S1x128 .f32)
    (r : Fin 5000) (j : Fin 128) :
    k0_pay1 (F := Ideal) v34 v36 v39 v54 v65 (ix2 r j)
      = lnRow (fun j2 => (∑ k : Fin 128, v34 (ix2 r k) * v36 (ix2 k j2)) + v39 (ix2 0 j2))
          (fun q => v54 (ix2 0 q)) (fun q => v65 (ix2 0 q)) j := by
  unfold k0_pay1
  -- the pointwise operations, the column of row values and the one-row arrays, read at (r, j)
  simp only [shapeCast_self, addf_apply, mulf_apply, subf_apply, divf_apply, rsqrt_apply, truncf_apply, broadcast_apply,
    mm_apply, broadcastTo_1b_ab_apply, Cert.LibColumn.broadcastTo_a1_ab_apply, Cert.LibColumn.shapeCast_a_a1_apply]
  -- the two lane sums of row r
  rw [rowsum_apply, rowsum_apply]
  -- the squared deviations under the second sum, read at (r, k)
  simp only [addf_apply, mulf_apply, subf_apply, divf_apply, truncf_apply, broadcast_apply,
    mm_apply, broadcastTo_1b_ab_apply, Cert.LibColumn.broadcastTo_a1_ab_apply, Cert.LibColumn.shapeCast_a_a1_apply]
  -- the mean's lane sum inside them
  rw [rowsum_apply]
  simp only [addf_apply, truncf_apply, mm_apply, broadcastTo_1b_ab_apply]
  rfl

/-- The zero offsets of the whole-block accesses, as the constant function. -/
theorem hz : (![0, 0] : Fin 2 → Nat) = fun _ => 0 := funext fun a => by fin_cases a <;> rfl

/-- The shared part of the two outputs: the third layer and the normalisation of layers one and two, at (r, j). -/
theorem core_apply (x0 x1 x2 : Vec Ideal S5000x128 .f32) (x3 x4 x5 : Vec Ideal S128x128 .bf16) (x6 : Vec Ideal S1x128 .f32)
    (x7 : Vec Ideal S128x128 .bf16) (x8 : Vec Ideal S1x128 .f32) (x9 : Vec Ideal S128x128 .bf16)
    (x10 x11 x12 : Vec Ideal S1x128 .f32) (r : Fin 5000) (j : Fin 128) :
    k0_pay1 (F := Ideal) (k0_pay3 x0 x1 x2 x3 x4 x5 x6 x7 x8) x9 x10 x11 x12 (ix2 r j)
      = tailK (a0K3 x0 x1 x2 x3 x4 x5) x6 x7 x8 x9 x10 x11 x12 r j := by
  rw [pay1_apply]
  simp only [pay3_apply]
  rfl

/-- The first output block at (r, j). -/
theorem out0_13_apply (x0 x1 x2 : Vec Ideal S5000x128 .f32) (x3 x4 x5 : Vec Ideal S128x128 .bf16) (x6 : Vec Ideal S1x128 .f32)
    (x7 : Vec Ideal S128x128 .bf16) (x8 : Vec Ideal S1x128 .f32) (x9 : Vec Ideal S128x128 .bf16)
    (x10 x11 x12 : Vec Ideal S1x128 .f32) (r : Fin 5000) (j : Fin 128) :
    out0_13 (F := Ideal) x0 x1 x2 x3 x4 x5 x6 x7 x8 x9 x10 x11 x12 (ix2 r j)
      = tailK (a0K3 x0 x1 x2 x3 x4 x5) x6 x7 x8 x9 x10 x11 x12 r j := by
  unfold out0_13
  rw [View.canon_unit_zero hz]
  simp only [View.ld_unit_zero (S := S5000x128) hz, View.ld_unit_zero (S := S128x128) hz, View.ld_unit_zero (S := S1x128) hz]
  exact core_apply x0 x1 x2 x3 x4 x5 x6 x7 x8 x9 x10 x11 x12 r j

/-- The second output block at (r, j): the first plus the edge block's entry. -/
theorem out0_14_apply (x0 x1 x2 : Vec Ideal S5000x128 .f32) (x3 x4 x5 : Vec Ideal S128x128 .bf16) (x6 : Vec Ideal S1x128 .f32)
    (x7 : Vec Ideal S128x128 .bf16) (x8 : Vec Ideal S1x128 .f32) (x9 : Vec Ideal S128x128 .bf16)
    (x10 x11 x12 : Vec Ideal S1x128 .f32) (r : Fin 5000) (j : Fin 128) :
    out0_14 (F := Ideal) x0 x1 x2 x3 x4 x5 x6 x7 x8 x9 x10 x11 x12 (ix2 r j)
      = tailK (a0K3 x0 x1 x2 x3 x4 x5) x6 x7 x8 x9 x10 x11 x12 r j + x2 (ix2 r j) := by
  unfold out0_14
  rw [View.canon_unit_zero hz]
  simp only [View.ld_unit_zero (S := S5000x128) hz, View.ld_unit_zero (S := S128x128) hz, View.ld_unit_zero (S := S1x128) hz]
  unfold k0_pay2
  rw [addf_apply, core_apply]

end Cert.KernelIdeal.EdgePayload

end
-- ==== Proof.EdgeRegion.lean ====
/-
  The edge region's two output arrays after the region, from the arrays the region is entered with: grid point t
  writes rows 5000·t … 5000·t + 4999, the eighty points' blocks cover all 400000 rows, and row e of each output is the
  perceptron and normalisation of row e of the sender, receiver and edge arrays (plus the edge row, for the second).
-/
import proofs.«425903_j37632503447812_1_alg».proof.Proof.Gen.KernelIdeal.Frame
import proofs.«425903_j37632503447812_1_alg».proof.Proof.Rows
import proofs.«425903_j37632503447812_1_alg».proof.Proof.EdgePayload
import Idealize.ShloMosaic.Lib.ValueIdx
import Idealize.ShloMosaic.Lib.Pipeline.Value

set_option maxRecDepth 16384

noncomputable section

namespace Cert.KernelIdeal.EdgeRegion

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Rows
open scoped BigOperators

variable (V : (c : Dev nD) → (b : Ref sig .tc) → Buf (Elt Ideal) ((c : Thread nD τ).loc b))

/-- The index maps of the row-tiled windows, decided over the grid: block t on the row axis, block 0 on the column axis. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- The index maps of the whole-array windows, decided over the grid: block (0, 0) at every point. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-! ## A block read at an entry: a block's coordinate in the array is block index × block size + the coordinate inside the block -/

/-- Row r of the sender window's block at point t is row 5000·t + r of the sender array. -/
theorem blk_rows0 (c : Dev nD) (t : Fin cfg0.N) (r : Fin 5000) (k : Fin 128) (e : Fin 400000) (he : e.val = t.val * 5000 + r.val) :
    (iblk0 (F := Ideal) V c 0 t : Mat 5000 128) (ix2 r k) = (V c main_v0 : Mat 400000 128) (ix2 e k) := by
  show V c main_v0 (((cfg0.win 0).blk t).view.emb (ix2 r k)) = V c main_v0 (ix2 e k)
  congr 1
  funext a
  apply Fin.ext
  obtain ⟨⟨e0, e1⟩, -⟩ := idx_rows t
  match a with
  | ⟨0, _⟩ => show win0_0.index t (0 : Fin 2) * 5000 + 1 * r.val = e.val; rw [e0, he]; omega
  | ⟨1, _⟩ => show win0_0.index t (1 : Fin 2) * 128 + 1 * k.val = k.val; rw [e1]; omega

/-- Row r of the receiver window's block at point t is row 5000·t + r of the receiver array. -/
theorem blk_rows1 (c : Dev nD) (t : Fin cfg0.N) (r : Fin 5000) (k : Fin 128) (e : Fin 400000) (he : e.val = t.val * 5000 + r.val) :
    (iblk0 (F := Ideal) V c 1 t : Mat 5000 128) (ix2 r k) = (V c main_v1 : Mat 400000 128) (ix2 e k) := by
  show V c main_v1 (((cfg0.win 1).blk t).view.emb (ix2 r k)) = V c main_v1 (ix2 e k)
  congr 1
  funext a
  apply Fin.ext
  obtain ⟨-, ⟨e0, e1⟩, -⟩ := idx_rows t
  match a with
  | ⟨0, _⟩ => show win0_1.index t (0 : Fin 2) * 5000 + 1 * r.val = e.val; rw [e0, he]; omega
  | ⟨1, _⟩ => show win0_1.index t (1 : Fin 2) * 128 + 1 * k.val = k.val; rw [e1]; omega

/-- Row r of the edge window's block at point t is row 5000·t + r of the edge array. -/
theorem blk_rows2 (c : Dev nD) (t : Fin cfg0.N) (r : Fin 5000) (k : Fin 128) (e : Fin 400000) (he : e.val = t.val * 5000 + r.val) :
    (iblk0 (F := Ideal) V c 2 t : Mat 5000 128) (ix2 r k) = (V c main_arg1 : Mat 400000 128) (ix2 e k) := by
  show V c main_arg1 (((cfg0.win 2).blk t).view.emb (ix2 r k)) = V c main_arg1 (ix2 e k)
  congr 1
  funext a
  apply Fin.ext
  obtain ⟨-, -, ⟨e0, e1⟩, -⟩ := idx_rows t
  match a with
  | ⟨0, _⟩ => show win0_2.index t (0 : Fin 2) * 5000 + 1 * r.val = e.val; rw [e0, he]; omega
  | ⟨1, _⟩ => show win0_2.index t (1 : Fin 2) * 128 + 1 * k.val = k.val; rw [e1]; omega

/-- The window of the first layer's sender weight stages the whole array at every point: its block is the array. -/
theorem blk_whole3 (c : Dev nD) (t : Fin cfg0.N) : (iblk0 (F := Ideal) V c 3 t : Mat 128 128) = (V c main_v3 : Mat 128 128) := by
  refine ext2 _ _ fun a b => ?_
  show V c main_v3 (((cfg0.win 3).blk t).view.emb (ix2 a b)) = V c main_v3 (ix2 a b)
  congr 1
  funext d
  apply Fin.ext
  obtain ⟨⟨e0, e1⟩, -⟩ := idx_whole t
  match d with
  | ⟨0, _⟩ => show win0_3.index t (0 : Fin 2) * 128 + 1 * a.val = a.val; rw [e0]; omega
  | ⟨1, _⟩ => show win0_3.index t (1 : Fin 2) * 128 + 1 * b.val = b.val; rw [e1]; omega

/-- The window of the first layer's receiver weight stages the whole array at every point: its block is the array. -/
theorem blk_whole4 (c : Dev nD) (t : Fin cfg0.N) : (iblk0 (F := Ideal) V c 4 t : Mat 128 128) = (V c main_v5 : Mat 128 128) := by
  refine ext2 _ _ fun a b => ?_
  show V c main_v5 (((cfg0.win 4).blk t).view.emb (ix2 a b)) = V c main_v5 (ix2 a b)
  congr 1
  funext d
  apply Fin.ext
  obtain ⟨-, ⟨e0, e1⟩, -⟩ := idx_whole t
  match d with
  | ⟨0, _⟩ => show win0_4.index t (0 : Fin 2) * 128 + 1 * a.val = a.val; rw [e0]; omega
  | ⟨1, _⟩ => show win0_4.index t (1 : Fin 2) * 128 + 1 * b.val = b.val; rw [e1]; omega

/-- The window of the first layer's edge weight stages the whole array at every point: its block is the array. -/
theorem blk_whole5 (c : Dev nD) (t : Fin cfg0.N) : (iblk0 (F := Ideal) V c 5 t : Mat 128 128) = (V c main_v7 : Mat 128 128) := by
  refine ext2 _ _ fun a b => ?_
  show V c main_v7 (((cfg0.win 5).blk t).view.emb (ix2 a b)) = V c main_v7 (ix2 a b)
  congr 1
  funext d
  apply Fin.ext
  obtain ⟨-, -, ⟨e0, e1⟩, -⟩ := idx_whole t
  match d with
  | ⟨0, _⟩ => show win0_5.index t (0 : Fin 2) * 128 + 1 * a.val = a.val; rw [e0]; omega
  | ⟨1, _⟩ => show win0_5.index t (1 : Fin 2) * 128 + 1 * b.val = b.val; rw [e1]; omega

/-- The window of the first layer's bias stages the whole array at every point: its block is the array. -/
theorem blk_whole6 (c : Dev nD) (t : Fin cfg0.N) : (iblk0 (F := Ideal) V c 6 t : Mat 1 128) = (V c main_v10 : Mat 1 128) := by
  refine ext2 _ _ fun a b => ?_
  show V c main_v10 (((cfg0.win 6).blk t).view.emb (ix2 a b)) = V c main_v10 (ix2 a b)
  congr 1
  funext d
  apply Fin.ext
  obtain ⟨-, -, -, ⟨e0, e1⟩, -⟩ := idx_whole t
  match d with
  | ⟨0, _⟩ => show win0_6.index t (0 : Fin 2) * 1 + 1 * a.val = a.val; rw [e0]; omega
  | ⟨1, _⟩ => show win0_6.index t (1 : Fin 2) * 128 + 1 * b.val = b.val; rw [e1]; omega

/-- The window of the second layer's weight stages the whole array at every point: its block is the array. -/
theorem blk_whole7 (c : Dev nD) (t : Fin cfg0.N) : (iblk0 (F := Ideal) V c 7 t : Mat 128 128) = (V c main_v8 : Mat 128 128) := by
  refine ext2 _ _ fun a b => ?_
  show V c main_v8 (((cfg0.win 7).blk t).view.emb (ix2 a b)) = V c main_v8 (ix2 a b)
  congr 1
  funext d
  apply Fin.ext
  obtain ⟨-, -, -, -, ⟨e0, e1⟩, -⟩ := idx_whole t
  match d with
  | ⟨0, _⟩ => show win0_7.index t (0 : Fin 2) * 128 + 1 * a.val = a.val; rw [e0]; omega
  | ⟨1, _⟩ => show win0_7.index t (1 : Fin 2) * 128 + 1 * b.val = b.val; rw [e1]; omega

/-- The window of the second layer's bias stages the whole array at every point: its block is the array. -/
theorem blk_whole8 (c : Dev nD) (t : Fin cfg0.N) : (iblk0 (F := Ideal) V c 8 t : Mat 1 128) = (V c main_v11 : Mat 1 128) := by
  refine ext2 _ _ fun a b => ?_
  show V c main_v11 (((cfg0.win 8).blk t).view.emb (ix2 a b)) = V c main_v11 (ix2 a b)
  congr 1
  funext d
  apply Fin.ext
  obtain ⟨-, -, -, -, -, ⟨e0, e1⟩, -⟩ := idx_whole t
  match d with
  | ⟨0, _⟩ => show win0_8.index t (0 : Fin 2) * 1 + 1 * a.val = a.val; rw [e0]; omega
  | ⟨1, _⟩ => show win0_8.index t (1 : Fin 2) * 128 + 1 * b.val = b.val; rw [e1]; omega

/-- The window of the third layer's weight stages the whole array at every point: its block is the array. -/
theorem blk_whole9 (c : Dev nD) (t : Fin cfg0.N) : (iblk0 (F := Ideal) V c 9 t : Mat 128 128) = (V c main_v9 : Mat 128 128) := by
  refine ext2 _ _ fun a b => ?_
  show V c main_v9 (((cfg0.win 9).blk t).view.emb (ix2 a b)) = V c main_v9 (ix2 a b)
  congr 1
  funext d
  apply Fin.ext
  obtain ⟨-, -, -, -, -, -, ⟨e0, e1⟩, -⟩ := idx_whole t
  match d with
  | ⟨0, _⟩ => show win0_9.index t (0 : Fin 2) * 128 + 1 * a.val = a.val; rw [e0]; omega
  | ⟨1, _⟩ => show win0_9.index t (1 : Fin 2) * 128 + 1 * b.val = b.val; rw [e1]; omega

/-- The window of the third layer's bias stages the whole array at every point: its block is the array. -/
theorem blk_whole10 (c : Dev nD) (t : Fin cfg0.N) : (iblk0 (F := Ideal) V c 10 t : Mat 1 128) = (V c main_v12 : Mat 1 128) := by
  refine ext2 _ _ fun a b => ?_
  show V c main_v12 (((cfg0.win 10).blk t).view.emb (ix2 a b)) = V c main_v12 (ix2 a b)
  congr 1
  funext d
  apply Fin.ext
  obtain ⟨-, -, -, -, -, -, -, ⟨e0, e1⟩, -⟩ := idx_whole t
  match d with
  | ⟨0, _⟩ => show win0_10.index t (0 : Fin 2) * 1 + 1 * a.val = a.val; rw [e0]; omega
  | ⟨1, _⟩ => show win0_10.index t (1 : Fin 2) * 128 + 1 * b.val = b.val; rw [e1]; omega

/-- The window of the normalisation's scale stages the whole array at every point: its block is the array. -/
theorem blk_whole11 (c : Dev nD) (t : Fin cfg0.N) : (iblk0 (F := Ideal) V c 11 t : Mat 1 128) = (V c main_v13 : Mat 1 128) := by
  refine ext2 _ _ fun a b => ?_
  show V c main_v13 (((cfg0.win 11).blk t).view.emb (ix2 a b)) = V c main_v13 (ix2 a b)
  congr 1
  funext d
  apply Fin.ext
  obtain ⟨-, -, -, -, -, -, -, -, ⟨e0, e1⟩, -⟩ := idx_whole t
  match d with
  | ⟨0, _⟩ => show win0_11.index t (0 : Fin 2) * 1 + 1 * a.val = a.val; rw [e0]; omega
  | ⟨1, _⟩ => show win0_11.index t (1 : Fin 2) * 128 + 1 * b.val = b.val; rw [e1]; omega

/-- The window of the normalisation's shift stages the whole array at every point: its block is the array. -/
theorem blk_whole12 (c : Dev nD) (t : Fin cfg0.N) : (iblk0 (F := Ideal) V c 12 t : Mat 1 128) = (V c main_v14 : Mat 1 128) := by
  refine ext2 _ _ fun a b => ?_
  show V c main_v14 (((cfg0.win 12).blk t).view.emb (ix2 a b)) = V c main_v14 (ix2 a b)
  congr 1
  funext d
  apply Fin.ext
  obtain ⟨-, -, -, -, -, -, -, -, -, ⟨e0, e1⟩⟩ := idx_whole t
  match d with
  | ⟨0, _⟩ => show win0_12.index t (0 : Fin 2) * 1 + 1 * a.val = a.val; rw [e0]; omega
  | ⟨1, _⟩ => show win0_12.index t (1 : Fin 2) * 128 + 1 * b.val = b.val; rw [e1]; omega

/-! ## Two rows that agree entry by entry in the three inputs have the same perceptron output -/

/-- The perceptron and normalisation of a row read only that row of the three inputs: rows with equal entries, under
    equal weights, biases, scale and shift, give equal outputs. -/
theorem row_congr {n n' : ℕ} {x0 x1 x2 : Mat n 128} {y0 y1 y2 : Mat n' 128} {w0 w1 w2 w0' w1' w2' : Mat 128 128}
    {b0 b0' : Mat 1 128} {W1 W1' : Mat 128 128} {b1 b1' : Mat 1 128} {W2 W2' : Mat 128 128} {b2 b2' g g' β β' : Mat 1 128}
    (r : Fin n) (e : Fin n') (q : Fin 128)
    (h0 : ∀ k, x0 (ix2 r k) = y0 (ix2 e k)) (h1 : ∀ k, x1 (ix2 r k) = y1 (ix2 e k)) (h2 : ∀ k, x2 (ix2 r k) = y2 (ix2 e k))
    (hw0 : w0 = w0') (hw1 : w1 = w1') (hw2 : w2 = w2') (hb0 : b0 = b0') (hW1 : W1 = W1') (hb1 : b1 = b1')
    (hW2 : W2 = W2') (hb2 : b2 = b2') (hg : g = g') (hβ : β = β') :
    tailK (a0K3 x0 x1 x2 w0 w1 w2) b0 W1 b1 W2 b2 g β r q
      = tailK (a0K3 y0 y1 y2 w0' w1' w2') b0' W1' b1' W2' b2' g' β' e q := by
  subst hw0 hw1 hw2 hb0 hW1 hb1 hW2 hb2 hg hβ
  have ha : a0K3 x0 x1 x2 w0 w1 w2 r = a0K3 y0 y1 y2 w0 w1 w2 e := by
    funext p
    unfold a0K3
    simp only [h0, h1, h2]
  unfold tailK
  rw [ha]

/-! ## Output window 13 -/

/-- What point t writes back for the first output is block t of the row-wise function of the arrays the region is entered with. -/
theorem flushed13_eq (c : Dev nD) (t : Fin cfg0.N) :
    (dat0 (F := Ideal) V c).flushed 13 t
      = ((cfg0.win 13).blk t).view.read (Elt Ideal) (ofRows (tailK (a0K3 (V c main_v0) (V c main_v1) (V c main_arg1) (V c main_v3) (V c main_v5) (V c main_v7))
          (V c main_v10) (V c main_v8) (V c main_v11) (V c main_v9) (V c main_v12) (V c main_v13) (V c main_v14))) := by
  funext j
  obtain ⟨r, q, rfl⟩ : ∃ (r : Fin 5000) (q : Fin 128), j = ix2 r q := ⟨j 0, j 1, eq_ix2 j⟩
  show (cfg0.win 13).cut (grid0.coords t) ((dat0 V c).after 13 t) (ix2 r q) = _
  rw [after0_13]
  refine (EdgePayload.out0_13_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) r q).trans ?_
  have hN : cfg0.N = 80 := N_0
  have ht : t.val < 80 := hN ▸ t.isLt
  have hr : r.val < 5000 := r.isLt
  obtain ⟨e, he⟩ : ∃ e : Fin 400000, e.val = t.val * 5000 + r.val := ⟨⟨t.val * 5000 + r.val, by omega⟩, rfl⟩
  have hemb : ((cfg0.win 13).blk t).view.emb (ix2 r q) = ix2 e q := by
    funext a
    apply Fin.ext
    obtain ⟨-, -, -, ⟨e0, e1⟩, -⟩ := idx_rows t
    match a with
    | ⟨0, _⟩ => show win0_13.index t (0 : Fin 2) * 5000 + 1 * r.val = e.val; rw [e0, he]; omega
    | ⟨1, _⟩ => show win0_13.index t (1 : Fin 2) * 128 + 1 * q.val = q.val; rw [e1]; omega
  show _ = (ofRows (tailK (a0K3 (V c main_v0) (V c main_v1) (V c main_arg1) (V c main_v3) (V c main_v5) (V c main_v7))
          (V c main_v10) (V c main_v8) (V c main_v11) (V c main_v9) (V c main_v12) (V c main_v13) (V c main_v14))) (((cfg0.win 13).blk t).view.emb (ix2 r q))
  rw [hemb, ofRows_ix2]
  exact row_congr r e q (fun k => blk_rows0 V c t r k e he) (fun k => blk_rows1 V c t r k e he) (fun k => blk_rows2 V c t r k e he)
      (blk_whole3 V c t) (blk_whole4 V c t) (blk_whole5 V c t) (blk_whole6 V c t) (blk_whole7 V c t) (blk_whole8 V c t)
      (blk_whole9 V c t) (blk_whole10 V c t) (blk_whole11 V c t) (blk_whole12 V c t)

/-- An index of the array is in point t's block iff each coordinate is in the block's range on its axis. -/
theorem mem_blk13 (t : Fin cfg0.N) (i : S400000x128.Idx) :
    i ∈ ((cfg0.win 13).blk t).view.set ↔ ∀ a : Fin 2, win0_13.index t a * S5000x128.size a ≤ (i a).val ∧ (i a).val < win0_13.index t a * S5000x128.size a + S5000x128.size a := by
  show i ∈ ((View.whole main_v15_0).slice (win0_13.rect t)).set ↔ _
  rw [View.set_slice_whole, Rect.mem_set_unit]
  exact Iff.rfl

/-- The eighty blocks of 5000 rows cover all 400000 rows: row e lies in the block of point e / 5000. -/
theorem cover13 (i : S400000x128.Idx) : ∃ t : Fin cfg0.N, (cfg0.win 13).flush t = true ∧ i ∈ ((cfg0.win 13).blk t).view.set := by
  have hi0 : (i 0).val < 400000 := (i 0).isLt
  have hi1 : (i 1).val < 128 := (i 1).isLt
  have hN : cfg0.N = 80 := N_0
  obtain ⟨t, ht⟩ : ∃ t : Fin cfg0.N, t.val = (i 0).val / 5000 := ⟨⟨(i 0).val / 5000, by rw [hN]; omega⟩, rfl⟩
  refine ⟨t, flush0_13 t, ?_⟩
  rw [mem_blk13]
  obtain ⟨-, -, -, ⟨e0, e1⟩, -⟩ := idx_rows t
  intro a
  match a with
  | ⟨0, _⟩ => show win0_13.index t (0 : Fin 2) * 5000 ≤ (i 0).val ∧ (i 0).val < win0_13.index t (0 : Fin 2) * 5000 + 5000; rw [e0, ht]; omega
  | ⟨1, _⟩ => show win0_13.index t (1 : Fin 2) * 128 ≤ (i 1).val ∧ (i 1).val < win0_13.index t (1 : Fin 2) * 128 + 128; rw [e1]; omega

/-! ## Output window 14 -/

/-- What point t writes back for the second output is block t of the row-wise function of the arrays the region is entered with. -/
theorem flushed14_eq (c : Dev nD) (t : Fin cfg0.N) :
    (dat0 (F := Ideal) V c).flushed 14 t
      = ((cfg0.win 14).blk t).view.read (Elt Ideal) (ofRows (fun e j => tailK (a0K3 (V c main_v0) (V c main_v1) (V c main_arg1) (V c main_v3) (V c main_v5) (V c main_v7))
          (V c main_v10) (V c main_v8) (V c main_v11) (V c main_v9) (V c main_v12) (V c main_v13) (V c main_v14) e j
          + (V c main_arg1 : Mat 400000 128) (ix2 e j))) := by
  funext j
  obtain ⟨r, q, rfl⟩ : ∃ (r : Fin 5000) (q : Fin 128), j = ix2 r q := ⟨j 0, j 1, eq_ix2 j⟩
  show (cfg0.win 14).cut (grid0.coords t) ((dat0 V c).after 14 t) (ix2 r q) = _
  rw [after0_14]
  refine (EdgePayload.out0_14_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) r q).trans ?_
  have hN : cfg0.N = 80 := N_0
  have ht : t.val < 80 := hN ▸ t.isLt
  have hr : r.val < 5000 := r.isLt
  obtain ⟨e, he⟩ : ∃ e : Fin 400000, e.val = t.val * 5000 + r.val := ⟨⟨t.val * 5000 + r.val, by omega⟩, rfl⟩
  have hemb : ((cfg0.win 14).blk t).view.emb (ix2 r q) = ix2 e q := by
    funext a
    apply Fin.ext
    obtain ⟨-, -, -, -, ⟨e0, e1⟩⟩ := idx_rows t
    match a with
    | ⟨0, _⟩ => show win0_14.index t (0 : Fin 2) * 5000 + 1 * r.val = e.val; rw [e0, he]; omega
    | ⟨1, _⟩ => show win0_14.index t (1 : Fin 2) * 128 + 1 * q.val = q.val; rw [e1]; omega
  show _ = (ofRows (fun e j => tailK (a0K3 (V c main_v0) (V c main_v1) (V c main_arg1) (V c main_v3) (V c main_v5) (V c main_v7))
          (V c main_v10) (V c main_v8) (V c main_v11) (V c main_v9) (V c main_v12) (V c main_v13) (V c main_v14) e j
          + (V c main_arg1 : Mat 400000 128) (ix2 e j))) (((cfg0.win 14).blk t).view.emb (ix2 r q))
  rw [hemb, ofRows_ix2]
  exact congrArg₂ (· + ·) (row_congr r e q (fun k => blk_rows0 V c t r k e he) (fun k => blk_rows1 V c t r k e he) (fun k => blk_rows2 V c t r k e he)
      (blk_whole3 V c t) (blk_whole4 V c t) (blk_whole5 V c t) (blk_whole6 V c t) (blk_whole7 V c t) (blk_whole8 V c t)
      (blk_whole9 V c t) (blk_whole10 V c t) (blk_whole11 V c t) (blk_whole12 V c t)) (blk_rows2 V c t r q e he)

/-- An index of the array is in point t's block iff each coordinate is in the block's range on its axis. -/
theorem mem_blk14 (t : Fin cfg0.N) (i : S400000x128.Idx) :
    i ∈ ((cfg0.win 14).blk t).view.set ↔ ∀ a : Fin 2, win0_14.index t a * S5000x128.size a ≤ (i a).val ∧ (i a).val < win0_14.index t a * S5000x128.size a + S5000x128.size a := by
  show i ∈ ((View.whole main_v15_1).slice (win0_14.rect t)).set ↔ _
  rw [View.set_slice_whole, Rect.mem_set_unit]
  exact Iff.rfl

/-- The eighty blocks of 5000 rows cover all 400000 rows: row e lies in the block of point e / 5000. -/
theorem cover14 (i : S400000x128.Idx) : ∃ t : Fin cfg0.N, (cfg0.win 14).flush t = true ∧ i ∈ ((cfg0.win 14).blk t).view.set := by
  have hi0 : (i 0).val < 400000 := (i 0).isLt
  have hi1 : (i 1).val < 128 := (i 1).isLt
  have hN : cfg0.N = 80 := N_0
  obtain ⟨t, ht⟩ : ∃ t : Fin cfg0.N, t.val = (i 0).val / 5000 := ⟨⟨(i 0).val / 5000, by rw [hN]; omega⟩, rfl⟩
  refine ⟨t, flush0_14 t, ?_⟩
  rw [mem_blk14]
  obtain ⟨-, -, -, -, ⟨e0, e1⟩⟩ := idx_rows t
  intro a
  match a with
  | ⟨0, _⟩ => show win0_14.index t (0 : Fin 2) * 5000 ≤ (i 0).val ∧ (i 0).val < win0_14.index t (0 : Fin 2) * 5000 + 5000; rw [e0, ht]; omega
  | ⟨1, _⟩ => show win0_14.index t (1 : Fin 2) * 128 ≤ (i 1).val ∧ (i 1).val < win0_14.index t (1 : Fin 2) * 128 + 128; rw [e1]; omega

/-- The first output array (the updated edge features) after the region. -/
theorem arr13 (c : Dev nD) :
    (dat0 (F := Ideal) V c).arrAt 13 cfg0.N
      = ofRows (tailK (a0K3 (V c main_v0) (V c main_v1) (V c main_arg1) (V c main_v3) (V c main_v5) (V c main_v7))
          (V c main_v10) (V c main_v8) (V c main_v11) (V c main_v9) (V c main_v12) (V c main_v13) (V c main_v14)) :=
  (dat0 (F := Ideal) V c).arrAt_eq_of_cover 13 _ (fun t _ => flushed13_eq V c t) cover13

/-- The second output array (the edge result) after the region. -/
theorem arr14 (c : Dev nD) :
    (dat0 (F := Ideal) V c).arrAt 14 cfg0.N
      = ofRows (fun e j => tailK (a0K3 (V c main_v0) (V c main_v1) (V c main_arg1) (V c main_v3) (V c main_v5) (V c main_v7))
          (V c main_v10) (V c main_v8) (V c main_v11) (V c main_v9) (V c main_v12) (V c main_v13) (V c main_v14) e j
          + (V c main_arg1 : Mat 400000 128) (ix2 e j)) :=
  (dat0 (F := Ideal) V c).arrAt_eq_of_cover 14 _ (fun t _ => flushed14_eq V c t) cover14

end Cert.KernelIdeal.EdgeRegion

end
-- ==== Proof.NodePayload.lean ====
/-
  What the node kernel's body leaves in its output block, read at a row r and a column j of the block: the
  perceptron and normalisation of row r of the node block and the aggregated block, plus the node block's entry.
-/
import proofs.«425903_j37632503447812_1_alg».proof.Proof.Gen.KernelIdeal.Frame
import proofs.«425903_j37632503447812_1_alg».proof.Proof.Rows
import proofs.«425903_j37632503447812_1_alg».proof.Proof.LibPlainDot
import proofs.«425903_j37632503447812_1_alg».proof.Proof.LibColumn
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.NodePayload

open Idealize.ShloMosaic Idealize.ShloMosaic.TcCoe Idealize.ShloMosaic.ValueIdx
open Cert.KernelIdeal Cert.KernelIdeal.Gen Cert.Rows
open scoped BigOperators

/-- The product of a 5000×128 block with a 128×128 weight into the zero accumulator, at (r, j): the sum over the
    128 contracted coordinates of block (r, k) times weight (k, j). -/
theorem dot_apply (lhs : FVec Ideal S5000x128 .bf16) (rhs : FVec Ideal S128x128 .bf16) (r : Fin 5000) (j : Fin 128) :
    matmul dot_S5000x128_S128x128_S5000x128_1_0_0_1_n_n none lhs rhs (constant (F := Ideal) S5000x128 .f32 0x00000000#32) (ix2 r j)
      = ∑ k : Fin 128, lhs (ix2 r k) * rhs (ix2 k j) := by
  show FloatOps.matmul dot_S5000x128_S128x128_S5000x128_1_0_0_1_n_n none lhs rhs (constant (F := Ideal) S5000x128 .f32 0x00000000#32) (ix2 r j) = _
  rw [Cert.LibPlainDot.eq_plain dot_S5000x128_S128x128_S5000x128_1_0_0_1_n_n rfl rfl rfl rfl rfl rfl,
    Ideal.matmul_constant_zero_apply]
  exact Cert.LibPlainDot.plain_sum lhs rhs r j

/-- The sum along a row of a 5000×128 block, at row r: the sum over the 128 columns of the entries (r, k). -/
theorem rowSum_apply (v : FVec Ideal S5000x128 .f32) (h : S5000x128.Reduces [1] S5000) (r : Fin 5000) :
    multiReduction (F := Ideal) .add [1] S5000 v 0x00000000#32 h (.inl rfl) rfl (ix1 r) = ∑ k : Fin 128, v (ix2 r k) := by
  refine (Ideal.multiReduction_add_single v 0x00000000#32 h (.inl rfl) rfl (ix1 r)).trans ?_
  refine Finset.sum_congr rfl fun k _ => congrArg v ?_
  funext a
  apply Fin.ext
  match a with
  | ⟨0, _⟩ => rfl
  | ⟨1, _⟩ => rfl

/-- The reciprocal square root of an array, at an index, is that of the entry. -/
theorem rsqrt_apply {s : Shape} (v : FVec Ideal s .f32) (i : s.Idx) : rsqrt v i = Ideal.rsqrt (v i) := rfl

/-- The third layer's bias row spread over the block, at (r, j): the row's entry j. -/
theorem k1_pay3_apply (v32 : Vec Ideal S1x128 .f32) (r : Fin 5000) (j : Fin 128) :
    k1_pay3 (F := Ideal) v32 (ix2 r j) = v32 (ix2 0 j) := by
  unfold k1_pay3
  simp only [broadcastTo_1b_ab_apply, shapeCast_self]

/-- The first two layers and the third layer's product at (r, j): the first layer is the two products summed, its
    bias added and the maximum with 0 taken; the second layer likewise from the first; the third layer's product. -/
theorem k1_pay2_apply (v0 v2 : Vec Ideal S5000x128 .f32) (v5 v8 : Vec Ideal S128x128 .bf16) (v12 : Vec Ideal S1x128 .f32)
    (v19 : Vec Ideal S128x128 .bf16) (v22 : Vec Ideal S1x128 .f32) (v29 : Vec Ideal S128x128 .bf16) (r : Fin 5000) (j : Fin 128) :
    k1_pay2 (F := Ideal) v0 v2 v5 v8 v12 v19 v22 v29 (ix2 r j)
      = ∑ k : Fin 128, max ((∑ k1 : Fin 128, max (a0K2 v0 v2 v5 v8 r k1 + v12 (ix2 0 k1)) c0 * v19 (ix2 k1 k)) + v22 (ix2 0 k)) c0
          * v29 (ix2 k j) := by
  unfold k1_pay2
  simp only [dot_apply, truncf_apply, maximumf_apply, addf_apply, broadcast_apply, broadcastTo_1b_ab_apply, shapeCast_self]
  rfl

/-- The last stage at (r, j): with h the sum of the third layer's product and its bias, the mean of row r of h is its
    sum over the 128 columns divided by 128, the variance the sum of the squared differences from the mean divided by
    128, and the entry is the scale at j times (h (r, j) minus the mean) times the reciprocal square root of the variance
    plus the guard, plus the shift at j, plus the node block's entry. Both lane sums are over the columns of row r; the
    mean inside the second is the first again. -/
theorem k1_pay1_apply (v0 : Vec Ideal S5000x128 .f32) (v31 v34 : FVec Ideal S5000x128 .f32) (v47 v58 : Vec Ideal S1x128 .f32)
    (r : Fin 5000) (j : Fin 128) :
    k1_pay1 (F := Ideal) v0 v31 v34 v47 v58 (ix2 r j)
      = lnRow (fun q => v31 (ix2 r q) + v34 (ix2 r q)) (fun q => v47 (ix2 0 q)) (fun q => v58 (ix2 0 q)) j + v0 (ix2 r j) := by
  unfold k1_pay1
  simp only [addf_apply, mulf_apply, subf_apply, divf_apply, rsqrt_apply, broadcast_apply,
    Cert.LibColumn.broadcastTo_a1_ab_apply, Cert.LibColumn.shapeCast_a_a1_apply,
    broadcastTo_1b_ab_apply, shapeCast_self]
  rw [rowSum_apply (mulf _ _)]
  simp only [addf_apply, mulf_apply, subf_apply, divf_apply, broadcast_apply,
    Cert.LibColumn.broadcastTo_a1_ab_apply, Cert.LibColumn.shapeCast_a_a1_apply]
  rw [rowSum_apply (addf v31 v34)]
  simp only [addf_apply]
  rfl

/-- The output block at (r, j). -/
theorem out1_11_apply (x0 x1 : Vec Ideal S5000x128 .f32) (x2 x3 : Vec Ideal S128x128 .bf16) (x4 : Vec Ideal S1x128 .f32)
    (x5 : Vec Ideal S128x128 .bf16) (x6 : Vec Ideal S1x128 .f32) (x7 : Vec Ideal S128x128 .bf16)
    (x8 x9 x10 : Vec Ideal S1x128 .f32) (r : Fin 5000) (j : Fin 128) :
    out1_11 (F := Ideal) x0 x1 x2 x3 x4 x5 x6 x7 x8 x9 x10 (ix2 r j)
      = tailK (a0K2 x0 x1 x2 x3) x4 x5 x6 x7 x8 x9 x10 r j + x0 (ix2 r j) := by
  have hz : (![0, 0] : Fin 2 → Nat) = fun _ => 0 := funext fun a => by fin_cases a <;> rfl
  unfold out1_11
  rw [View.canon_unit_zero hz]
  simp only [View.ld_unit_zero (S := S5000x128) hz, View.ld_unit_zero (S := S128x128) hz,
    View.ld_unit_zero (S := S1x128) hz]
  rw [k1_pay1_apply]
  simp only [k1_pay2_apply, k1_pay3_apply]
  rfl

end Cert.KernelIdeal.NodePayload

end
-- ==== Proof.NodeRegion.lean ====
/-
  The node region's output array after the region, from the arrays the region is entered with: grid point t writes
  rows 5000·t … 5000·t + 4999, the ten points' blocks cover all 50000 rows, and row n of the output is the perceptron
  and normalisation of row n of the node array and the aggregated array, plus the node row.
-/
import proofs.«425903_j37632503447812_1_alg».proof.Proof.Gen.KernelIdeal.Frame
import proofs.«425903_j37632503447812_1_alg».proof.Proof.Rows
import proofs.«425903_j37632503447812_1_alg».proof.Proof.NodePayload
import Idealize.ShloMosaic.Lib.ValueIdx
import Idealize.ShloMosaic.Lib.Pipeline.Value

set_option maxRecDepth 16384

noncomputable section

namespace Cert.KernelIdeal.NodeRegion

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.Rows
open scoped BigOperators

variable (V : (c : Dev nD) → (b : Ref sig .tc) → Buf (Elt Ideal) ((c : Thread nD τ).loc b))

/-- The grid has ten points. -/
theorem N_eq : cfg1.N = 10 := by decide +kernel

/-- The index maps of the row-tiled windows, decided over the grid: block (t, 0). -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_11.index t (0 : Fin 2) = t.val ∧ win1_11.index t (1 : Fin 2) = 0) :=
  (by decide +kernel : ∀ t : Fin grid1.N, _)

/-- The index maps of the whole-array windows, decided over the grid: block (0, 0). -/
theorem idx_whole : ∀ t : Fin cfg1.N,
    (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0) :=
  (by decide +kernel : ∀ t : Fin grid1.N, _)

/-- Row r of point t's block is row 5000·t + r of the array. -/
theorem row_lt (t : Fin cfg1.N) (r : Fin 5000) : t.val * 5000 + r.val < 50000 := by
  have ht : t.val < 10 := N_eq ▸ t.isLt
  have hr := r.isLt
  omega

/-- The node block at (r, k) is the node array at (5000·t + r, k). -/
theorem blk0 (c : Dev nD) (t : Fin cfg1.N) (r : Fin 5000) (k : Fin 128) :
    (iblk1 (F := Ideal) V c 0 t : Vec Ideal S5000x128 .f32) (ix2 r k)
      = (V c main_arg0 : Mat 50000 128) (ix2 ⟨t.val * 5000 + r.val, row_lt t r⟩ k) := by
  obtain ⟨⟨e0, e1⟩, -, -⟩ := idx_rows t
  show V c main_arg0 (((cfg1.win 0).blk t).view.emb (ix2 r k)) = V c main_arg0 _
  congr 1
  funext a
  apply Fin.ext
  match a with
  | ⟨0, _⟩ => show win1_0.index t (0 : Fin 2) * 5000 + 1 * r.val = t.val * 5000 + r.val; rw [e0]; omega
  | ⟨1, _⟩ => show win1_0.index t (1 : Fin 2) * 128 + 1 * k.val = k.val; rw [e1]; omega

/-- The aggregated block at (r, k) is the aggregated array at (5000·t + r, k). -/
theorem blk1 (c : Dev nD) (t : Fin cfg1.N) (r : Fin 5000) (k : Fin 128) :
    (iblk1 (F := Ideal) V c 1 t : Vec Ideal S5000x128 .f32) (ix2 r k)
      = (V c main_v18 : Mat 50000 128) (ix2 ⟨t.val * 5000 + r.val, row_lt t r⟩ k) := by
  obtain ⟨-, ⟨e0, e1⟩, -⟩ := idx_rows t
  show V c main_v18 (((cfg1.win 1).blk t).view.emb (ix2 r k)) = V c main_v18 _
  congr 1
  funext a
  apply Fin.ext
  match a with
  | ⟨0, _⟩ => show win1_1.index t (0 : Fin 2) * 5000 + 1 * r.val = t.val * 5000 + r.val; rw [e0]; omega
  | ⟨1, _⟩ => show win1_1.index t (1 : Fin 2) * 128 + 1 * k.val = k.val; rw [e1]; omega

/-- Whole-array window 2 (the first-layer weight for the node rows): its block at every point is the array. -/
theorem blk2 (c : Dev nD) (t : Fin cfg1.N) :
    (iblk1 (F := Ideal) V c 2 t : Mat 128 128) = (V c main_v20 : Mat 128 128) := by
  obtain ⟨⟨e0, e1⟩, -⟩ := idx_whole t
  refine ext2 _ _ fun a b => ?_
  show V c main_v20 (((cfg1.win 2).blk t).view.emb (ix2 a b)) = V c main_v20 _
  congr 1
  funext d
  apply Fin.ext
  match d with
  | ⟨0, _⟩ => show win1_2.index t (0 : Fin 2) * 128 + 1 * a.val = a.val; rw [e0]; omega
  | ⟨1, _⟩ => show win1_2.index t (1 : Fin 2) * 128 + 1 * b.val = b.val; rw [e1]; omega

/-- Whole-array window 3 (the first-layer weight for the aggregated rows): its block at every point is the array. -/
theorem blk3 (c : Dev nD) (t : Fin cfg1.N) :
    (iblk1 (F := Ideal) V c 3 t : Mat 128 128) = (V c main_v22 : Mat 128 128) := by
  obtain ⟨-, ⟨e0, e1⟩, -⟩ := idx_whole t
  refine ext2 _ _ fun a b => ?_
  show V c main_v22 (((cfg1.win 3).blk t).view.emb (ix2 a b)) = V c main_v22 _
  congr 1
  funext d
  apply Fin.ext
  match d with
  | ⟨0, _⟩ => show win1_3.index t (0 : Fin 2) * 128 + 1 * a.val = a.val; rw [e0]; omega
  | ⟨1, _⟩ => show win1_3.index t (1 : Fin 2) * 128 + 1 * b.val = b.val; rw [e1]; omega

/-- Whole-array window 4 (the first-layer bias): its block at every point is the array. -/
theorem blk4 (c : Dev nD) (t : Fin cfg1.N) :
    (iblk1 (F := Ideal) V c 4 t : Mat 1 128) = (V c main_v25 : Mat 1 128) := by
  obtain ⟨-, -, ⟨e0, e1⟩, -⟩ := idx_whole t
  refine ext2 _ _ fun a b => ?_
  show V c main_v25 (((cfg1.win 4).blk t).view.emb (ix2 a b)) = V c main_v25 _
  congr 1
  funext d
  apply Fin.ext
  match d with
  | ⟨0, _⟩ => show win1_4.index t (0 : Fin 2) * 1 + 1 * a.val = a.val; rw [e0]; omega
  | ⟨1, _⟩ => show win1_4.index t (1 : Fin 2) * 128 + 1 * b.val = b.val; rw [e1]; omega

/-- Whole-array window 5 (the second-layer weight): its block at every point is the array. -/
theorem blk5 (c : Dev nD) (t : Fin cfg1.N) :
    (iblk1 (F := Ideal) V c 5 t : Mat 128 128) = (V c main_v23 : Mat 128 128) := by
  obtain ⟨-, -, -, ⟨e0, e1⟩, -⟩ := idx_whole t
  refine ext2 _ _ fun a b => ?_
  show V c main_v23 (((cfg1.win 5).blk t).view.emb (ix2 a b)) = V c main_v23 _
  congr 1
  funext d
  apply Fin.ext
  match d with
  | ⟨0, _⟩ => show win1_5.index t (0 : Fin 2) * 128 + 1 * a.val = a.val; rw [e0]; omega
  | ⟨1, _⟩ => show win1_5.index t (1 : Fin 2) * 128 + 1 * b.val = b.val; rw [e1]; omega

/-- Whole-array window 6 (the second-layer bias): its block at every point is the array. -/
theorem blk6 (c : Dev nD) (t : Fin cfg1.N) :
    (iblk1 (F := Ideal) V c 6 t : Mat 1 128) = (V c main_v26 : Mat 1 128) := by
  obtain ⟨-, -, -, -, ⟨e0, e1⟩, -⟩ := idx_whole t
  refine ext2 _ _ fun a b => ?_
  show V c main_v26 (((cfg1.win 6).blk t).view.emb (ix2 a b)) = V c main_v26 _
  congr 1
  funext d
  apply Fin.ext
  match d with
  | ⟨0, _⟩ => show win1_6.index t (0 : Fin 2) * 1 + 1 * a.val = a.val; rw [e0]; omega
  | ⟨1, _⟩ => show win1_6.index t (1 : Fin 2) * 128 + 1 * b.val = b.val; rw [e1]; omega

/-- Whole-array window 7 (the third-layer weight): its block at every point is the array. -/
theorem blk7 (c : Dev nD) (t : Fin cfg1.N) :
    (iblk1 (F := Ideal) V c 7 t : Mat 128 128) = (V c main_v24 : Mat 128 128) := by
  obtain ⟨-, -, -, -, -, ⟨e0, e1⟩, -⟩ := idx_whole t
  refine ext2 _ _ fun a b => ?_
  show V c main_v24 (((cfg1.win 7).blk t).view.emb (ix2 a b)) = V c main_v24 _
  congr 1
  funext d
  apply Fin.ext
  match d with
  | ⟨0, _⟩ => show win1_7.index t (0 : Fin 2) * 128 + 1 * a.val = a.val; rw [e0]; omega
  | ⟨1, _⟩ => show win1_7.index t (1 : Fin 2) * 128 + 1 * b.val = b.val; rw [e1]; omega

/-- Whole-array window 8 (the third-layer bias): its block at every point is the array. -/
theorem blk8 (c : Dev nD) (t : Fin cfg1.N) :
    (iblk1 (F := Ideal) V c 8 t : Mat 1 128) = (V c main_v27 : Mat 1 128) := by
  obtain ⟨-, -, -, -, -, -, ⟨e0, e1⟩, -⟩ := idx_whole t
  refine ext2 _ _ fun a b => ?_
  show V c main_v27 (((cfg1.win 8).blk t).view.emb (ix2 a b)) = V c main_v27 _
  congr 1
  funext d
  apply Fin.ext
  match d with
  | ⟨0, _⟩ => show win1_8.index t (0 : Fin 2) * 1 + 1 * a.val = a.val; rw [e0]; omega
  | ⟨1, _⟩ => show win1_8.index t (1 : Fin 2) * 128 + 1 * b.val = b.val; rw [e1]; omega

/-- Whole-array window 9 (the normalisation's scale): its block at every point is the array. -/
theorem blk9 (c : Dev nD) (t : Fin cfg1.N) :
    (iblk1 (F := Ideal) V c 9 t : Mat 1 128) = (V c main_v28 : Mat 1 128) := by
  obtain ⟨-, -, -, -, -, -, -, ⟨e0, e1⟩, -⟩ := idx_whole t
  refine ext2 _ _ fun a b => ?_
  show V c main_v28 (((cfg1.win 9).blk t).view.emb (ix2 a b)) = V c main_v28 _
  congr 1
  funext d
  apply Fin.ext
  match d with
  | ⟨0, _⟩ => show win1_9.index t (0 : Fin 2) * 1 + 1 * a.val = a.val; rw [e0]; omega
  | ⟨1, _⟩ => show win1_9.index t (1 : Fin 2) * 128 + 1 * b.val = b.val; rw [e1]; omega

/-- Whole-array window 10 (the normalisation's shift): its block at every point is the array. -/
theorem blk10 (c : Dev nD) (t : Fin cfg1.N) :
    (iblk1 (F := Ideal) V c 10 t : Mat 1 128) = (V c main_v29 : Mat 1 128) := by
  obtain ⟨-, -, -, -, -, -, -, -, ⟨e0, e1⟩⟩ := idx_whole t
  refine ext2 _ _ fun a b => ?_
  show V c main_v29 (((cfg1.win 10).blk t).view.emb (ix2 a b)) = V c main_v29 _
  congr 1
  funext d
  apply Fin.ext
  match d with
  | ⟨0, _⟩ => show win1_10.index t (0 : Fin 2) * 1 + 1 * a.val = a.val; rw [e0]; omega
  | ⟨1, _⟩ => show win1_10.index t (1 : Fin 2) * 128 + 1 * b.val = b.val; rw [e1]; omega

/-- The output array as one function of the arrays the region is entered with, row by row. -/
abbrev G (c : Dev nD) : Mat 50000 128 :=
  ofRows (fun e j => tailK (a0K2 (V c main_arg0) (V c main_v18) (V c main_v20) (V c main_v22))
      (V c main_v25) (V c main_v23) (V c main_v26) (V c main_v24) (V c main_v27) (V c main_v28) (V c main_v29) e j
    + (V c main_arg0 : Mat 50000 128) (ix2 e j))

/-- The first layer's product of row r of the blocks is that of row 5000·t + r of the arrays. -/
theorem a0_row (c : Dev nD) (t : Fin cfg1.N) (r : Fin 5000) :
    a0K2 (iblk1 (F := Ideal) V c 0 t : Mat 5000 128) (iblk1 (F := Ideal) V c 1 t : Mat 5000 128)
        (iblk1 (F := Ideal) V c 2 t : Mat 128 128) (iblk1 (F := Ideal) V c 3 t : Mat 128 128) r
      = a0K2 (V c main_arg0 : Mat 50000 128) (V c main_v18 : Mat 50000 128) (V c main_v20 : Mat 128 128) (V c main_v22 : Mat 128 128)
          ⟨t.val * 5000 + r.val, row_lt t r⟩ := by
  funext q
  rw [blk2, blk3]
  unfold a0K2
  congr 1
  · refine Finset.sum_congr rfl fun k _ => ?_
    rw [blk0 V c t r k]
  · refine Finset.sum_congr rfl fun k _ => ?_
    rw [blk1 V c t r k]

/-- The output block's entry (r, q) sits at (5000·t + r, q) of the output array. -/
theorem emb11 (t : Fin cfg1.N) (r : Fin 5000) (q : Fin 128) :
    ((cfg1.win 11).blk t).view.emb (ix2 r q) = (ix2 ⟨t.val * 5000 + r.val, row_lt t r⟩ q : S50000x128.Idx) := by
  obtain ⟨-, -, ⟨e0, e1⟩⟩ := idx_rows t
  funext a
  apply Fin.ext
  match a with
  | ⟨0, _⟩ => show win1_11.index t (0 : Fin 2) * 5000 + 1 * r.val = t.val * 5000 + r.val; rw [e0]; omega
  | ⟨1, _⟩ => show win1_11.index t (1 : Fin 2) * 128 + 1 * q.val = q.val; rw [e1]; omega

/-- What point t writes back is block t of G of the arrays as the region finds them. -/
theorem flushed_eq (c : Dev nD) (t : Fin cfg1.N) :
    (dat1 (F := Ideal) V c).flushed 11 t = ((cfg1.win 11).blk t).view.read (Elt Ideal) (G V c) := by
  funext j
  obtain ⟨r, q, rfl⟩ : ∃ (r : Fin 5000) (q : Fin 128), j = ix2 r q := ⟨j 0, j 1, eq_ix2 j⟩
  show (cfg1.win 11).cut (grid1.coords t) ((dat1 V c).after 11 t) (ix2 r q) = _
  rw [after1_11]
  refine (NodePayload.out1_11_apply (iblk1 V c 0 t) (iblk1 V c 1 t) (iblk1 V c 2 t) (iblk1 V c 3 t) (iblk1 V c 4 t)
    (iblk1 V c 5 t) (iblk1 V c 6 t) (iblk1 V c 7 t) (iblk1 V c 8 t) (iblk1 V c 9 t) (iblk1 V c 10 t) r q).trans ?_
  show _ = G V c (((cfg1.win 11).blk t).view.emb (ix2 r q))
  rw [emb11 t r q]
  show _ = ofRows _ (ix2 _ q)
  rw [ofRows_ix2]
  unfold tailK
  rw [a0_row V c t r, blk4, blk5, blk6, blk7, blk8, blk9, blk10, blk0 V c t r q]

/-- An index of the output array is in point t's block iff each coordinate is in the block's range on its axis. -/
theorem mem_blk (t : Fin cfg1.N) (i : S50000x128.Idx) :
    i ∈ ((cfg1.win 11).blk t).view.set ↔ ∀ a : Fin 2, win1_11.index t a * S5000x128.size a ≤ (i a).val ∧ (i a).val < win1_11.index t a * S5000x128.size a + S5000x128.size a := by
  show i ∈ ((View.whole main_v30).slice (win1_11.rect t)).set ↔ _
  rw [View.set_slice_whole, Rect.mem_set_unit]
  exact Iff.rfl

/-- Every row lies in some point's block: row e in point ⌊e / 5000⌋'s. -/
theorem cover (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  have hlt : (i 0).val / 5000 < cfg1.N := by rw [N_eq]; omega
  refine ⟨⟨(i 0).val / 5000, hlt⟩, flush1_11 _, ?_⟩
  rw [mem_blk]
  obtain ⟨-, -, ⟨e0, e1⟩⟩ := idx_rows ⟨(i 0).val / 5000, hlt⟩
  intro a
  match a with
  | ⟨0, _⟩ =>
    show win1_11.index ⟨(i 0).val / 5000, hlt⟩ (0 : Fin 2) * 5000 ≤ (i 0).val ∧ (i 0).val < win1_11.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_11.index ⟨(i 0).val / 5000, hlt⟩ (1 : Fin 2) * 128 ≤ (i 1).val ∧ (i 1).val < win1_11.index ⟨(i 0).val / 5000, hlt⟩ (1 : Fin 2) * 128 + 128
    rw [e1]
    omega

/-- The output array (the node result) after the region. -/
theorem arr11 (c : Dev nD) :
    (dat1 (F := Ideal) V c).arrAt 11 cfg1.N
      = ofRows (fun e j => tailK (a0K2 (V c main_arg0) (V c main_v18) (V c main_v20) (V c main_v22))
          (V c main_v25) (V c main_v23) (V c main_v26) (V c main_v24) (V c main_v27) (V c main_v28) (V c main_v29) e j
          + (V c main_arg0 : Mat 50000 128) (ix2 e j)) :=
  (dat1 (F := Ideal) V c).arrAt_eq_of_cover 11 (G V c) (fun t _ => flushed_eq V c t) cover

end Cert.KernelIdeal.NodeRegion

end
-- ==== Proof.KernelGlue.lean ====
/-
  The two data-dependent host operations of the kernel's @main, named: the row gather of the node table by an index
  array (one row of 128 per edge), and the scatter-add of edge rows into a zero table of node rows by the receiver
  indices (the segment sum). Both programs apply the same two operations; the certificate never opens them.
-/
import proofs.«425903_j37632503447812_1_alg».proof.KernelIdeal
import proofs.«425903_j37632503447812_1_alg».proof.Proof.Gen.KernelIdeal
import proofs.«425903_j37632503447812_1_alg».proof.Proof.Rows

noncomputable section

namespace Cert.KernelIdeal.Glue

open Idealize.ShloMosaic Cert.KernelIdeal Cert.KernelIdeal.Gen Cert.Rows

/-- The node table's rows gathered by an index array: entry (e, j) is the table's row at index `s e` (read signed and
    clamped into the table), column j. -/
def gat (nf : Mat 50000 128) (s : IVec S400000 32) : Mat 400000 128 :=
  Host.gather gather_S50000x128_S400000x1_S400000x128_1_0_n_n_0_1_1128 nf
    (broadcastInDim S400000x1 ![0] bcast_S400000_S400000x1_0 s)

/-- Edge rows summed into node rows by receiver index, from the zero table. -/
def scat (r : IVec S400000 32) (u : Mat 400000 128) : Mat 50000 128 :=
  Host.scatterAdd (F := Ideal) scatter_S50000x128_S400000x1_S400000x128_1_0_0_1
    (broadcastInDim S50000x128 ![] bcast_S_S50000x128 (constant (F := Ideal) S_ .f32 0x00000000#32))
    (broadcastInDim S400000x1 ![0] bcast_S400000_S400000x1_0 r) u

end Cert.KernelIdeal.Glue

end
-- ==== Proof.KernelHost0.lean ====
/-
  The arrays the edge region is entered with, in terms of the launch arguments. The host operations before the region
  gather the sender and receiver rows of the node table (an out-of-range index would be answered by a fill value; with
  every index in range the fill is never chosen and the result is the plain gather), cut the 384×128 first-layer weight
  into its three 128×128 row blocks, change the weights' float format (the identity on the extended reals) and give
  each bias vector a leading unit axis. So the region's row function of its entry arrays is the edge perceptron of
  the gathered rows and the arguments.
-/
import proofs.«425903_j37632503447812_1_alg».proof.Proof.Gen.KernelIdeal.Frame
import proofs.«425903_j37632503447812_1_alg».proof.Proof.Rows
import proofs.«425903_j37632503447812_1_alg».proof.Proof.KernelGlue
import proofs.«425903_j37632503447812_1_alg».proof.Proof.PreDecode
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Reduce

set_option maxRecDepth 16384

noncomputable section

namespace Cert.KernelIdeal.Host0

open Idealize.ShloMosaic Idealize.ShloMosaic.TcCoe Idealize.ShloMosaic.ValueIdx
open Idealize.SL.Sem
open Cert.KernelIdeal Cert.KernelIdeal.Gen Cert.Rows Cert.KernelIdeal.Glue
open scoped BigOperators

variable (m : (ℓ : Loc nD τ sig) → Buf (Elt Ideal) ℓ) (ρ : Dev nD → PrngReg)

/-- A buffer that no operation of a stretch writes holds after the stretch what it held before. -/
local macro "not_written" : tactic => `(tactic|
  (refine StableHlo.after_of_forall_not_mem _ _ (List.forall_iff_forall_mem.mp ?_)
   simp only [hostOps0, hostOps0_1, hostOps0_2, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))
/-! ### The arguments are as launched at every boundary before the region: no host operation writes one -/

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by not_written
    _ = m ((c : Thread nD τ).loc main_arg0) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by not_written
    _ = m ((c : Thread nD τ).loc main_arg3) := rfl

theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by not_written
    _ = W1 m ρ c (Proc.devRef .tc main_arg1) := by not_written
    _ = W0 m ρ c (Proc.devRef .tc main_arg1) := by not_written
    _ = m ((c : Thread nD τ).loc main_arg1) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := by not_written
    _ = W0 m ρ c (Proc.devRef .tc main_arg4) := by not_written
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := by not_written
    _ = W0 m ρ c (Proc.devRef .tc main_arg5) := by not_written
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := by not_written
    _ = W0 m ρ c (Proc.devRef .tc main_arg6) := by not_written
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := by not_written
    _ = W0 m ρ c (Proc.devRef .tc main_arg7) := by not_written
    _ = m ((c : Thread nD τ).loc main_arg7) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := by not_written
    _ = W0 m ρ c (Proc.devRef .tc main_arg8) := by not_written
    _ = m ((c : Thread nD τ).loc main_arg8) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := by not_written
    _ = W0 m ρ c (Proc.devRef .tc main_arg9) := by not_written
    _ = m ((c : Thread nD τ).loc main_arg9) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := by not_written
    _ = W0 m ρ c (Proc.devRef .tc main_arg10) := by not_written
    _ = m ((c : Thread nD τ).loc main_arg10) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := by not_written
    _ = W0 m ρ c (Proc.devRef .tc main_arg11) := by not_written
    _ = m ((c : Thread nD τ).loc main_arg11) := rfl

/-! ### The last stretch before the region, over any contents before it: each of its results in terms of the argument
    it reads (a row block of the first weight; a weight unchanged; a bias as a one-row array) -/

section Stretch2
variable (Vv : Valuation τ sig (Elt Ideal))

theorem s2_v3 : @Eq (S128x128.Idx → EReal) (StableHlo.after (hostOps0_2 (F := Ideal)) Vv (Proc.devRef .tc main_v3))
    (truncf (F := Ideal) .bf16 (extractStridedSlice S128x128 ![0, 0] (Vv (Proc.devRef .tc main_arg4) : S384x128.Idx → EReal) slices_S384x128_S128x128_0_0) bitsLt_bf16_f32) := by
  after_results
theorem s2_v5 : @Eq (S128x128.Idx → EReal) (StableHlo.after (hostOps0_2 (F := Ideal)) Vv (Proc.devRef .tc main_v5))
    (truncf (F := Ideal) .bf16 (extractStridedSlice S128x128 ![128, 0] (Vv (Proc.devRef .tc main_arg4) : S384x128.Idx → EReal) slices_S384x128_S128x128_128_0) bitsLt_bf16_f32) := by
  after_results
theorem s2_v7 : @Eq (S128x128.Idx → EReal) (StableHlo.after (hostOps0_2 (F := Ideal)) Vv (Proc.devRef .tc main_v7))
    (truncf (F := Ideal) .bf16 (extractStridedSlice S128x128 ![256, 0] (Vv (Proc.devRef .tc main_arg4) : S384x128.Idx → EReal) slices_S384x128_S128x128_256_0) bitsLt_bf16_f32) := by
  after_results
theorem s2_v8 : @Eq (S128x128.Idx → EReal) (StableHlo.after (hostOps0_2 (F := Ideal)) Vv (Proc.devRef .tc main_v8))
    (truncf (F := Ideal) (φ := .f32) .bf16 (Vv (Proc.devRef .tc main_arg6) : S128x128.Idx → EReal) bitsLt_bf16_f32) := by
  after_results
theorem s2_v9 : @Eq (S128x128.Idx → EReal) (StableHlo.after (hostOps0_2 (F := Ideal)) Vv (Proc.devRef .tc main_v9))
    (truncf (F := Ideal) (φ := .f32) .bf16 (Vv (Proc.devRef .tc main_arg8) : S128x128.Idx → EReal) bitsLt_bf16_f32) := by
  after_results
theorem s2_v10 (q : Fin 128) : (StableHlo.after (hostOps0_2 (F := Ideal)) Vv (Proc.devRef .tc main_v10) : S1x128.Idx → EReal) (ix2 (0 : Fin 1) q)
    = (Vv (Proc.devRef .tc main_arg5) : S128.Idx → EReal) (ix1 q) := by
  after_results
  show shapeCast S1x128 (Vv (Proc.devRef .tc main_arg5) : S128.Idx → EReal) shapeCasts_S128_S1x128 (ix2 (0 : Fin 1) q) = _
  refine shapeCast_apply _ _ _ (ix1 q) ?_
  rw [Shape.rowMajor_val_one, Shape.rowMajor_val_two]
  show q.val = 0 * 128 + q.val
  omega
theorem s2_v11 (q : Fin 128) : (StableHlo.after (hostOps0_2 (F := Ideal)) Vv (Proc.devRef .tc main_v11) : S1x128.Idx → EReal) (ix2 (0 : Fin 1) q)
    = (Vv (Proc.devRef .tc main_arg7) : S128.Idx → EReal) (ix1 q) := by
  after_results
  show shapeCast S1x128 (Vv (Proc.devRef .tc main_arg7) : S128.Idx → EReal) shapeCasts_S128_S1x128 (ix2 (0 : Fin 1) q) = _
  refine shapeCast_apply _ _ _ (ix1 q) ?_
  rw [Shape.rowMajor_val_one, Shape.rowMajor_val_two]
  show q.val = 0 * 128 + q.val
  omega
theorem s2_v12 (q : Fin 128) : (StableHlo.after (hostOps0_2 (F := Ideal)) Vv (Proc.devRef .tc main_v12) : S1x128.Idx → EReal) (ix2 (0 : Fin 1) q)
    = (Vv (Proc.devRef .tc main_arg9) : S128.Idx → EReal) (ix1 q) := by
  after_results
  show shapeCast S1x128 (Vv (Proc.devRef .tc main_arg9) : S128.Idx → EReal) shapeCasts_S128_S1x128 (ix2 (0 : Fin 1) q) = _
  refine shapeCast_apply _ _ _ (ix1 q) ?_
  rw [Shape.rowMajor_val_one, Shape.rowMajor_val_two]
  show q.val = 0 * 128 + q.val
  omega
theorem s2_v13 (q : Fin 128) : (StableHlo.after (hostOps0_2 (F := Ideal)) Vv (Proc.devRef .tc main_v13) : S1x128.Idx → EReal) (ix2 (0 : Fin 1) q)
    = (Vv (Proc.devRef .tc main_arg10) : S128.Idx → EReal) (ix1 q) := by
  after_results
  show shapeCast S1x128 (Vv (Proc.devRef .tc main_arg10) : S128.Idx → EReal) shapeCasts_S128_S1x128 (ix2 (0 : Fin 1) q) = _
  refine shapeCast_apply _ _ _ (ix1 q) ?_
  rw [Shape.rowMajor_val_one, Shape.rowMajor_val_two]
  show q.val = 0 * 128 + q.val
  omega
theorem s2_v14 (q : Fin 128) : (StableHlo.after (hostOps0_2 (F := Ideal)) Vv (Proc.devRef .tc main_v14) : S1x128.Idx → EReal) (ix2 (0 : Fin 1) q)
    = (Vv (Proc.devRef .tc main_arg11) : S128.Idx → EReal) (ix1 q) := by
  after_results
  show shapeCast S1x128 (Vv (Proc.devRef .tc main_arg11) : S128.Idx → EReal) shapeCasts_S128_S1x128 (ix2 (0 : Fin 1) q) = _
  refine shapeCast_apply _ _ _ (ix1 q) ?_
  rw [Shape.rowMajor_val_one, Shape.rowMajor_val_two]
  show q.val = 0 * 128 + q.val
  omega

end Stretch2

/-! ### The row lookup -/

/-- A left fold by `and` from 1 over words that are all 1 is 1. -/
theorem foldl_andi_one {ι : Type} (l : List ι) : l.foldl (fun r (_ : ι) => IntOp.andi r 1#1) 1#1 = 1#1 := by
  induction l with
  | nil => rfl
  | cons a l ih =>
    rw [List.foldl_cons, show IntOp.andi (1#1 : BitVec 1) 1#1 = 1#1 by decide]
    exact ih

/-- The row lookup as the program spells it. An index below 0 has the table's height added; the adjusted index, as a
    column, is marked usable when it lies between 0 and the last row, each edge's single mark is folded by `and`, and
    the guarded choice takes the gathered row where the mark is 1 and a fill value elsewhere. -/
def take (x : Mat 50000 128) (idx : IVec S400000 32) : Mat 400000 128 :=
  select
    (broadcastInDim S400000x128 ![0] bcast_S400000_S400000x128_0
      (Host.reduce IntOp.andi
        (andi
          (cmpi .sge
            (broadcastInDim S400000x1 ![0] bcast_S400000_S400000x1_0
              (select (cmpi .slt idx (broadcastInDim S400000 ![] bcast_S_S400000 (constantI S_ 32 0#32)))
            (addi idx (broadcastInDim S400000 ![] bcast_S_S400000 (constantI S_ 32 50000#32))) idx))
            (broadcastInDim S400000x1 ![] bcast_S_S400000x1 (constantI S_ 32 0#32)))
          (cmpi .sle
            (broadcastInDim S400000x1 ![0] bcast_S400000_S400000x1_0
              (select (cmpi .slt idx (broadcastInDim S400000 ![] bcast_S_S400000 (constantI S_ 32 0#32)))
            (addi idx (broadcastInDim S400000 ![] bcast_S_S400000 (constantI S_ 32 50000#32))) idx))
            (broadcastInDim S400000x1 ![0, 1] bcast_S1x1_S400000x1_0_1
              (broadcastInDim S1x1 ![1] bcast_S1_S1x1_1 (constantI S1 32 49999#32)))))
        (constantI S_ 1 1#1) reducesTo_S400000x1_S400000_d1 h_S_))
    (Host.gather gather_S50000x128_S400000x1_S400000x128_1_0_n_n_0_1_1128 x
      (broadcastInDim S400000x1 ![0] bcast_S400000_S400000x1_0
        (select (cmpi .slt idx (broadcastInDim S400000 ![] bcast_S_S400000 (constantI S_ 32 0#32)))
            (addi idx (broadcastInDim S400000 ![] bcast_S_S400000 (constantI S_ 32 50000#32))) idx)))
    (broadcastInDim S400000x128 ![] bcast_S_S400000x128 (constant (F := Ideal) S_ .f32 0x7FC00000#32))

/-- With every index in range the lookup is the plain gather. No index is negative, so the adjustment changes nothing;
    every index lies between 0 and the last row, so every mark is 1, the `and` of each edge's single mark is 1, and
    the guarded choice takes the gathered row everywhere. -/
theorem take_eq (x : Mat 50000 128) (idx : IVec S400000 32)
    (h0 : ∀ i, IntOp.cmpi .sge (idx i) 0#32 = 1#1) (h1 : ∀ i, IntOp.cmpi .slt (idx i) 50000#32 = 1#1) :
    take x idx = gat x idx := by
  unfold take
  -- no index is negative: the adjusted index is the index
  have hn : (select (cmpi .slt idx (broadcastInDim S400000 ![] bcast_S_S400000 (constantI S_ 32 0#32)))
            (addi idx (broadcastInDim S400000 ![] bcast_S_S400000 (constantI S_ 32 50000#32))) idx) = idx := by
    funext i
    show Scalar.select (IntOp.cmpi .slt (idx i) 0#32) _ (idx i) = idx i
    rw [Cert.PreDecode.not_neg (h0 i), select_zero]
  rw [hn]
  -- every index is between 0 and the last row: every mark is 1
  have hmask : andi
      (cmpi .sge (broadcastInDim S400000x1 ![0] bcast_S400000_S400000x1_0 idx)
        (broadcastInDim S400000x1 ![] bcast_S_S400000x1 (constantI S_ 32 0#32)))
      (cmpi .sle (broadcastInDim S400000x1 ![0] bcast_S400000_S400000x1_0 idx)
        (broadcastInDim S400000x1 ![0, 1] bcast_S1x1_S400000x1_0_1
          (broadcastInDim S1x1 ![1] bcast_S1_S1x1_1 (constantI S1 32 49999#32))))
      = fun _ => 1#1 := by
    funext j
    show IntOp.andi (IntOp.cmpi .sge (idx _) 0#32) (IntOp.cmpi .sle (idx _) 49999#32) = 1#1
    rw [h0, Cert.PreDecode.le_last (h1 _)]
    decide
  rw [hmask]
  -- the `and` of marks that are all 1, from 1, is 1
  have hred : Host.reduce IntOp.andi (fun _ : S400000x1.Idx => (1#1 : BitVec 1)) (constantI S_ 1 1#1)
      reducesTo_S400000x1_S400000_d1 h_S_ = fun _ => 1#1 := by
    funext j
    rw [Host.reduce_eq_foldl]
    exact foldl_andi_one _
  rw [hred]
  -- the guard is 1 everywhere: the choice is the gathered row
  funext y
  show Scalar.select 1#1 _ _ = _
  rw [select_one]
  rfl

/-- Each lookup stretch, over any contents before it, leaves the lookup of the table by its index array. -/
theorem s0_v0 (Vv : Valuation τ sig (Elt Ideal)) :
    @Eq (Mat 400000 128) (StableHlo.after (hostOps0 (F := Ideal)) Vv (Proc.devRef .tc main_v0))
      (take (Vv (Proc.devRef .tc main_arg0)) (Vv (Proc.devRef .tc main_arg2))) := by
  after_results_simp
  simp only [StableHlo.TRef.ofBuf, StableHlo.TRef.toBuf, cast_eq]
  rfl
theorem s1_v1 (Vv : Valuation τ sig (Elt Ideal)) :
    @Eq (Mat 400000 128) (StableHlo.after (hostOps0_1 (F := Ideal)) Vv (Proc.devRef .tc main_v1))
      (take (Vv (Proc.devRef .tc main_arg0)) (Vv (Proc.devRef .tc main_arg3))) := by
  after_results_simp
  simp only [StableHlo.TRef.ofBuf, StableHlo.TRef.toBuf, cast_eq]
  rfl

/-! ### The region's entry arrays in terms of the launch arguments -/

theorem W3_v0 (c : Dev nD) : W3 m ρ c (Proc.devRef .tc main_v0) = W1 m ρ c (Proc.devRef .tc main_v0) :=
  calc W3 m ρ c (Proc.devRef .tc main_v0)
    _ = W2 m ρ c (Proc.devRef .tc main_v0) := by not_written
    _ = W1 m ρ c (Proc.devRef .tc main_v0) := by not_written
theorem W3_v1 (c : Dev nD) : W3 m ρ c (Proc.devRef .tc main_v1) = W2 m ρ c (Proc.devRef .tc main_v1) := by not_written

/-- The sender rows: the first lookup, of the node table by the sender indices. -/
theorem rd_v0 (c : Dev nD)
    (hs0 : ∀ i, IntOp.cmpi .sge ((m ((c.tc : Thread nD τ).loc main_arg2)) i) 0#32 = 1#1) (hs1 : ∀ i, IntOp.cmpi .slt ((m ((c.tc : Thread nD τ).loc main_arg2)) i) 50000#32 = 1#1) :
    (V3 m ρ c main_v0 : Mat 400000 128) = gat (m ((c.tc : Thread nD τ).loc main_arg0)) (m ((c.tc : Thread nD τ).loc main_arg2)) := by
  have e : (V3 m ρ c main_v0 : Mat 400000 128) = W1 m ρ c (Proc.devRef .tc main_v0) := W3_v0 m ρ c
  rw [e]
  exact (s0_v0 (W0 m ρ c)).trans (take_eq _ _ hs0 hs1)

/-- The receiver rows: the second lookup, by the receiver indices. -/
theorem rd_v1 (c : Dev nD)
    (hr0 : ∀ i, IntOp.cmpi .sge ((m ((c.tc : Thread nD τ).loc main_arg3)) i) 0#32 = 1#1) (hr1 : ∀ i, IntOp.cmpi .slt ((m ((c.tc : Thread nD τ).loc main_arg3)) i) 50000#32 = 1#1) :
    (V3 m ρ c main_v1 : Mat 400000 128) = gat (m ((c.tc : Thread nD τ).loc main_arg0)) (m ((c.tc : Thread nD τ).loc main_arg3)) := by
  have e : (V3 m ρ c main_v1 : Mat 400000 128) = W2 m ρ c (Proc.devRef .tc main_v1) := W3_v1 m ρ c
  rw [e]
  refine (s1_v1 (W1 m ρ c)).trans ?_
  rw [W1_arg0, W1_arg3]
  exact take_eq _ _ hr0 hr1

/-- The edge rows are the argument itself. -/
theorem rd_arg1 (c : Dev nD) : (V3 m ρ c main_arg1 : Mat 400000 128) = m ((c : Thread nD τ).loc main_arg1) := W3_arg1 m ρ c

/-- The three row blocks of the first weight: row a of the block that starts at row 0, 128, 256 is row a, 128 + a, 256 + a. -/
theorem rd_v3 (c : Dev nD) (a b : Fin 128) :
    (V3 m ρ c main_v3 : Mat 128 128) (ix2 a b)
      = (m ((c : Thread nD τ).loc main_arg4) : Mat 384 128) (ix2 (⟨a.val, by omega⟩ : Fin 384) b) := by
  have e : (V3 m ρ c main_v3 : Mat 128 128) = _ := s2_v3 (W2 m ρ c)
  rw [e, W2_arg4, truncf_apply]
  refine extractStridedSlice_apply _ _ _ _ (ix2 (⟨a.val, by omega⟩ : Fin 384) b) fun d => ?_
  match d with
  | ⟨0, _⟩ => exact (Nat.zero_add _).symm
  | ⟨1, _⟩ => exact (Nat.zero_add _).symm
theorem rd_v5 (c : Dev nD) (a b : Fin 128) :
    (V3 m ρ c main_v5 : Mat 128 128) (ix2 a b)
      = (m ((c : Thread nD τ).loc main_arg4) : Mat 384 128) (ix2 (⟨128 + a.val, by omega⟩ : Fin 384) b) := by
  have e : (V3 m ρ c main_v5 : Mat 128 128) = _ := s2_v5 (W2 m ρ c)
  rw [e, W2_arg4, truncf_apply]
  refine extractStridedSlice_apply _ _ _ _ (ix2 (⟨128 + a.val, by omega⟩ : Fin 384) b) fun d => ?_
  match d with
  | ⟨0, _⟩ => rfl
  | ⟨1, _⟩ => exact (Nat.zero_add _).symm
theorem rd_v7 (c : Dev nD) (a b : Fin 128) :
    (V3 m ρ c main_v7 : Mat 128 128) (ix2 a b)
      = (m ((c : Thread nD τ).loc main_arg4) : Mat 384 128) (ix2 (⟨256 + a.val, by omega⟩ : Fin 384) b) := by
  have e : (V3 m ρ c main_v7 : Mat 128 128) = _ := s2_v7 (W2 m ρ c)
  rw [e, W2_arg4, truncf_apply]
  refine extractStridedSlice_apply _ _ _ _ (ix2 (⟨256 + a.val, by omega⟩ : Fin 384) b) fun d => ?_
  match d with
  | ⟨0, _⟩ => rfl
  | ⟨1, _⟩ => exact (Nat.zero_add _).symm

/-- The second and third weights are the arguments (the change of float format is the identity). -/
theorem rd_v8 (c : Dev nD) : (V3 m ρ c main_v8 : Mat 128 128) = m ((c : Thread nD τ).loc main_arg6) := by
  have e : (V3 m ρ c main_v8 : Mat 128 128) = _ := s2_v8 (W2 m ρ c)
  rw [e, W2_arg6]
  rfl
theorem rd_v9 (c : Dev nD) : (V3 m ρ c main_v9 : Mat 128 128) = m ((c : Thread nD τ).loc main_arg8) := by
  have e : (V3 m ρ c main_v9 : Mat 128 128) = _ := s2_v9 (W2 m ρ c)
  rw [e, W2_arg8]
  rfl

/-- The biases, the scale and the shift as one-row arrays: entry (0, q) is entry q. -/
theorem rd_v10 (c : Dev nD) (q : Fin 128) :
    (V3 m ρ c main_v10 : Mat 1 128) (ix2 (0 : Fin 1) q) = (m ((c : Thread nD τ).loc main_arg5) : Vec1 128) (ix1 q) := by
  have e := s2_v10 (W2 m ρ c) q
  rw [W2_arg5] at e
  exact e
theorem rd_v11 (c : Dev nD) (q : Fin 128) :
    (V3 m ρ c main_v11 : Mat 1 128) (ix2 (0 : Fin 1) q) = (m ((c : Thread nD τ).loc main_arg7) : Vec1 128) (ix1 q) := by
  have e := s2_v11 (W2 m ρ c) q
  rw [W2_arg7] at e
  exact e
theorem rd_v12 (c : Dev nD) (q : Fin 128) :
    (V3 m ρ c main_v12 : Mat 1 128) (ix2 (0 : Fin 1) q) = (m ((c : Thread nD τ).loc main_arg9) : Vec1 128) (ix1 q) := by
  have e := s2_v12 (W2 m ρ c) q
  rw [W2_arg9] at e
  exact e
theorem rd_v13 (c : Dev nD) (q : Fin 128) :
    (V3 m ρ c main_v13 : Mat 1 128) (ix2 (0 : Fin 1) q) = (m ((c : Thread nD τ).loc main_arg10) : Vec1 128) (ix1 q) := by
  have e := s2_v13 (W2 m ρ c) q
  rw [W2_arg10] at e
  exact e
theorem rd_v14 (c : Dev nD) (q : Fin 128) :
    (V3 m ρ c main_v14 : Mat 1 128) (ix2 (0 : Fin 1) q) = (m ((c : Thread nD τ).loc main_arg11) : Vec1 128) (ix1 q) := by
  have e := s2_v14 (W2 m ρ c) q
  rw [W2_arg11] at e
  exact e

/-! ### The region's row function of its entry arrays -/

/-- The first layer's product: summed part by part against the three entry blocks it is the sum against the matching
    row blocks of the whole weight. -/
theorem a0_eq (c : Dev nD) (sf rf ef : Mat 400000 128) (e : Fin 400000) :
    a0K3 sf rf ef (V3 m ρ c main_v3) (V3 m ρ c main_v5) (V3 m ρ c main_v7) e
      = edgeA0 sf rf ef (m ((c.tc : Thread nD τ).loc main_arg4)) e := by
  funext q
  simp only [a0K3, edgeA0, rd_v3 m ρ c, rd_v5 m ρ c, rd_v7 m ρ c]

/-- One row of the perceptron over the entry arrays is the edge perceptron's row over the arguments: entry by entry the
    arrays are the gathered rows, the edge rows, the weight's three row blocks, the two later weights and the
    one-row biases, scale and shift. -/
theorem row_eq (c : Dev nD)
    (hs0 : ∀ i, IntOp.cmpi .sge ((m ((c.tc : Thread nD τ).loc main_arg2)) i) 0#32 = 1#1) (hs1 : ∀ i, IntOp.cmpi .slt ((m ((c.tc : Thread nD τ).loc main_arg2)) i) 50000#32 = 1#1)
    (hr0 : ∀ i, IntOp.cmpi .sge ((m ((c.tc : Thread nD τ).loc main_arg3)) i) 0#32 = 1#1) (hr1 : ∀ i, IntOp.cmpi .slt ((m ((c.tc : Thread nD τ).loc main_arg3)) i) 50000#32 = 1#1)
    (e : Fin 400000) (j : Fin 128) :
    tailK (a0K3 (V3 m ρ c main_v0) (V3 m ρ c main_v1) (V3 m ρ c main_arg1) (V3 m ρ c main_v3) (V3 m ρ c main_v5) (V3 m ρ c main_v7))
        (V3 m ρ c main_v10) (V3 m ρ c main_v8) (V3 m ρ c main_v11) (V3 m ρ c main_v9) (V3 m ρ c main_v12) (V3 m ρ c main_v13) (V3 m ρ c main_v14) e j
      = tailV (edgeA0 (gat (m ((c.tc : Thread nD τ).loc main_arg0)) (m ((c.tc : Thread nD τ).loc main_arg2))) (gat (m ((c.tc : Thread nD τ).loc main_arg0)) (m ((c.tc : Thread nD τ).loc main_arg3))) (m ((c.tc : Thread nD τ).loc main_arg1)) (m ((c.tc : Thread nD τ).loc main_arg4)))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) e j := by
  rw [rd_v0 m ρ c hs0 hs1, rd_v1 m ρ c hr0 hr1, rd_arg1 m ρ c, rd_v8 m ρ c, rd_v9 m ρ c]
  simp only [tailK, tailV, a0_eq m ρ c, rd_v10 m ρ c, rd_v11 m ρ c, rd_v12 m ρ c, rd_v13 m ρ c, rd_v14 m ρ c]

/-- The updated edge features as a function of the launch arguments. -/
theorem newEdge_entry (c : Dev nD)
    (hs0 : ∀ i, IntOp.cmpi .sge ((m ((c.tc : Thread nD τ).loc main_arg2)) i) 0#32 = 1#1) (hs1 : ∀ i, IntOp.cmpi .slt ((m ((c.tc : Thread nD τ).loc main_arg2)) i) 50000#32 = 1#1)
    (hr0 : ∀ i, IntOp.cmpi .sge ((m ((c.tc : Thread nD τ).loc main_arg3)) i) 0#32 = 1#1) (hr1 : ∀ i, IntOp.cmpi .slt ((m ((c.tc : Thread nD τ).loc main_arg3)) i) 50000#32 = 1#1) :
    ofRows (tailK (a0K3 (V3 m ρ c main_v0) (V3 m ρ c main_v1) (V3 m ρ c main_arg1) (V3 m ρ c main_v3) (V3 m ρ c main_v5) (V3 m ρ c main_v7))
        (V3 m ρ c main_v10) (V3 m ρ c main_v8) (V3 m ρ c main_v11) (V3 m ρ c main_v9) (V3 m ρ c main_v12) (V3 m ρ c main_v13) (V3 m ρ c main_v14))
      = edgeNew (gat (m ((c.tc : Thread nD τ).loc main_arg0)) (m ((c.tc : Thread nD τ).loc main_arg2))) (gat (m ((c.tc : Thread nD τ).loc main_arg0)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine ext2 _ _ fun e j => ?_
  unfold edgeNew
  rw [ofRows_ix2, ofRows_ix2]
  exact row_eq m ρ c hs0 hs1 hr0 hr1 e j

/-- The edge result as a function of the launch arguments. -/
theorem outEdge_entry (c : Dev nD)
    (hs0 : ∀ i, IntOp.cmpi .sge ((m ((c.tc : Thread nD τ).loc main_arg2)) i) 0#32 = 1#1) (hs1 : ∀ i, IntOp.cmpi .slt ((m ((c.tc : Thread nD τ).loc main_arg2)) i) 50000#32 = 1#1)
    (hr0 : ∀ i, IntOp.cmpi .sge ((m ((c.tc : Thread nD τ).loc main_arg3)) i) 0#32 = 1#1) (hr1 : ∀ i, IntOp.cmpi .slt ((m ((c.tc : Thread nD τ).loc main_arg3)) i) 50000#32 = 1#1) :
    ofRows (fun e j => tailK (a0K3 (V3 m ρ c main_v0) (V3 m ρ c main_v1) (V3 m ρ c main_arg1) (V3 m ρ c main_v3) (V3 m ρ c main_v5) (V3 m ρ c main_v7))
        (V3 m ρ c main_v10) (V3 m ρ c main_v8) (V3 m ρ c main_v11) (V3 m ρ c main_v9) (V3 m ρ c main_v12) (V3 m ρ c main_v13) (V3 m ρ c main_v14) e j
        + (V3 m ρ c main_arg1 : Mat 400000 128) (ix2 e j))
      = edgeOut (gat (m ((c.tc : Thread nD τ).loc main_arg0)) (m ((c.tc : Thread nD τ).loc main_arg2))) (gat (m ((c.tc : Thread nD τ).loc main_arg0)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine ext2 _ _ fun e j => ?_
  unfold edgeOut
  rw [ofRows_ix2, ofRows_ix2, row_eq m ρ c hs0 hs1 hr0 hr1 e j, rd_arg1 m ρ c]

end Cert.KernelIdeal.Host0

end
-- ==== Proof.KernelHost1.lean ====
/-
  The arrays the node region is entered with, and where the two results end. Between the regions the host scatter-adds
  the updated edge rows (the edge region's first output) into a zero table by receiver index, cuts the 256×128
  first-layer weight into its two row blocks, changes the weights' float format (the identity on the extended reals)
  and gives each bias vector a leading unit axis; the node table is the launch argument still. So the node region's row
  function of its entry arrays is the node perceptron of the node table and the scattered sums. The node result is the
  node region's output array; the edge result is the edge region's second output, which nothing later writes.
-/
import proofs.«425903_j37632503447812_1_alg».proof.Proof.Gen.KernelIdeal.Frame
import proofs.«425903_j37632503447812_1_alg».proof.Proof.Rows
import proofs.«425903_j37632503447812_1_alg».proof.Proof.KernelGlue
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Host1

open Idealize.ShloMosaic Idealize.ShloMosaic.TcCoe Idealize.ShloMosaic.ValueIdx
open Idealize.SL.Sem
open Cert.KernelIdeal Cert.KernelIdeal.Gen Cert.Rows Cert.KernelIdeal.Glue
open scoped BigOperators

variable (m : (ℓ : Loc nD τ sig) → Buf (Elt Ideal) ℓ) (ρ : Dev nD → PrngReg)

/-! ## What the operations between the regions leave alone -/

/-- The buffers the operations between the two regions write. -/
abbrev written1 : List (Ref sig .tc) :=
  [main_cst, main_v16, main_v17, main_v18, main_v19, main_v20, main_v21, main_v22, main_v23, main_v24, main_v25, main_v26,
    main_v27, main_v28, main_v29]

/-- Each of those operations writes one buffer of that list. -/
theorem hostOps1_writes :
    (hostOps1 : List (HloOp τ sig (Elt Ideal))).Forall fun op => op.writes ⊆ (written1.map (Proc.devRef (τ := τ) .tc)).toFinset := by
  simp only [hostOps1, List.Forall, StableHlo.nullary_writes, StableHlo.unary_writes, StableHlo.ternary_writes,
    StableHlo.reshape_writes, Finset.singleton_subset_iff, List.mem_toFinset]
  repeat' apply And.intro
  all_goals exact List.mem_map_of_mem (by decide)

/-- A buffer outside the list holds at the node region's entry what the edge region left in it. -/
theorem W5_of_not_written (c : Dev nD) (r : Ref sig .tc) (hr : r ∉ written1) :
    W5 m ρ c (Proc.devRef .tc r) = W4 m ρ c (Proc.devRef .tc r) :=
  StableHlo.after_of_writes_sub hostOps1 (W4 m ρ c) hostOps1_writes hr

/-- If moreover it is none of the node region's arrays, that is also what the run ends with there. -/
theorem W4_eq_W6 (c : Dev nD) (r : Ref sig .tc) (hr : r ∉ written1) (h1 : ∀ w, Pipeline.arrRef spec1 w ≠ r) :
    W4 m ρ c (Proc.devRef .tc r) = W6 m ρ c (Proc.devRef .tc r) :=
  ((W6_of_ne m ρ c r h1).trans (W5_of_not_written m ρ c r hr)).symm

/-! ## The launch arguments the operations between the regions read: each still as launched -/

theorem W4_main_arg3 (c : Dev nD) : W4 m ρ c (Proc.devRef .tc main_arg3) = m ((c : Thread nD τ).loc main_arg3) :=
  (W4_eq_W6 m ρ c main_arg3 (by decide) (by decide)).trans (W6_main_arg3 m ρ c)
theorem W4_main_arg12 (c : Dev nD) : W4 m ρ c (Proc.devRef .tc main_arg12) = m ((c : Thread nD τ).loc main_arg12) :=
  (W4_eq_W6 m ρ c main_arg12 (by decide) (by decide)).trans (W6_main_arg12 m ρ c)
theorem W4_main_arg13 (c : Dev nD) : W4 m ρ c (Proc.devRef .tc main_arg13) = m ((c : Thread nD τ).loc main_arg13) :=
  (W4_eq_W6 m ρ c main_arg13 (by decide) (by decide)).trans (W6_main_arg13 m ρ c)
theorem W4_main_arg14 (c : Dev nD) : W4 m ρ c (Proc.devRef .tc main_arg14) = m ((c : Thread nD τ).loc main_arg14) :=
  (W4_eq_W6 m ρ c main_arg14 (by decide) (by decide)).trans (W6_main_arg14 m ρ c)
theorem W4_main_arg15 (c : Dev nD) : W4 m ρ c (Proc.devRef .tc main_arg15) = m ((c : Thread nD τ).loc main_arg15) :=
  (W4_eq_W6 m ρ c main_arg15 (by decide) (by decide)).trans (W6_main_arg15 m ρ c)
theorem W4_main_arg16 (c : Dev nD) : W4 m ρ c (Proc.devRef .tc main_arg16) = m ((c : Thread nD τ).loc main_arg16) :=
  (W4_eq_W6 m ρ c main_arg16 (by decide) (by decide)).trans (W6_main_arg16 m ρ c)
theorem W4_main_arg17 (c : Dev nD) : W4 m ρ c (Proc.devRef .tc main_arg17) = m ((c : Thread nD τ).loc main_arg17) :=
  (W4_eq_W6 m ρ c main_arg17 (by decide) (by decide)).trans (W6_main_arg17 m ρ c)
theorem W4_main_arg18 (c : Dev nD) : W4 m ρ c (Proc.devRef .tc main_arg18) = m ((c : Thread nD τ).loc main_arg18) :=
  (W4_eq_W6 m ρ c main_arg18 (by decide) (by decide)).trans (W6_main_arg18 m ρ c)
theorem W4_main_arg19 (c : Dev nD) : W4 m ρ c (Proc.devRef .tc main_arg19) = m ((c : Thread nD τ).loc main_arg19) :=
  (W4_eq_W6 m ρ c main_arg19 (by decide) (by decide)).trans (W6_main_arg19 m ρ c)

/-- The edge region's first output, where it left it. -/
theorem W4_main_v15_0 (c : Dev nD) : W4 m ρ c (Proc.devRef .tc main_v15_0) = (dat0 (F := Ideal) (V3 m ρ) c).arrAt 13 cfg0.N :=
  W4_arr m ρ c 13

/-! ## The node region's entry arrays -/

/-- The node table is the launch argument: the node region only reads it. -/
theorem V5_main_arg0 (c : Dev nD) : V5 m ρ c main_arg0 = m ((c : Thread nD τ).loc main_arg0) :=
  (((W6_arr m ρ c 0).trans (((dat1 (V5 m ρ) c).arrAt_in 0 rfl _).trans (A_eq1 (V5 m ρ) c 0))).symm).trans (W6_main_arg0 m ρ c)

/-- The aggregated rows: the edge region's first output summed into the zero table by the receivers. -/
theorem V5_main_v18 (c : Dev nD) :
    (V5 m ρ c main_v18 : S50000x128.Idx → EReal)
      = scat (m ((c : Thread nD τ).loc main_arg3)) ((dat0 (F := Ideal) (V3 m ρ) c).arrAt 13 cfg0.N) := by
  show StableHlo.after hostOps1 (W4 m ρ c) (Proc.devRef .tc main_v18) = _
  after_results_simp
  rw [W4_main_arg3, W4_main_v15_0]
  rfl

/-- The first-layer weight's two row blocks, format-changed. -/
theorem V5_main_v20 (c : Dev nD) :
    (V5 m ρ c main_v20 : S128x128.Idx → EReal)
      = (truncf (F := Ideal) .bf16 (extractStridedSlice S128x128 ![0, 0] (m ((c : Thread nD τ).loc main_arg12) : FVec Ideal S256x128 .f32) slices_S256x128_S128x128_0_0) bitsLt_bf16_f32 : FVec Ideal S128x128 .bf16) := by
  show StableHlo.after hostOps1 (W4 m ρ c) (Proc.devRef .tc main_v20) = _
  after_results_simp
  rw [W4_main_arg12]
theorem V5_main_v22 (c : Dev nD) :
    (V5 m ρ c main_v22 : S128x128.Idx → EReal)
      = (truncf (F := Ideal) .bf16 (extractStridedSlice S128x128 ![128, 0] (m ((c : Thread nD τ).loc main_arg12) : FVec Ideal S256x128 .f32) slices_S256x128_S128x128_128_0) bitsLt_bf16_f32 : FVec Ideal S128x128 .bf16) := by
  show StableHlo.after hostOps1 (W4 m ρ c) (Proc.devRef .tc main_v22) = _
  after_results_simp
  rw [W4_main_arg12]

/-- The later layers' weights, format-changed. -/
theorem V5_main_v23 (c : Dev nD) :
    (V5 m ρ c main_v23 : S128x128.Idx → EReal)
      = (truncf (F := Ideal) .bf16 (m ((c : Thread nD τ).loc main_arg14) : FVec Ideal S128x128 .f32) bitsLt_bf16_f32 : FVec Ideal S128x128 .bf16) := by
  show StableHlo.after hostOps1 (W4 m ρ c) (Proc.devRef .tc main_v23) = _
  after_results_simp
  rw [W4_main_arg14]
theorem V5_main_v24 (c : Dev nD) :
    (V5 m ρ c main_v24 : S128x128.Idx → EReal)
      = (truncf (F := Ideal) .bf16 (m ((c : Thread nD τ).loc main_arg16) : FVec Ideal S128x128 .f32) bitsLt_bf16_f32 : FVec Ideal S128x128 .bf16) := by
  show StableHlo.after hostOps1 (W4 m ρ c) (Proc.devRef .tc main_v24) = _
  after_results_simp
  rw [W4_main_arg16]

/-- The biases and the normalisation's scale and shift, each given a leading unit axis. -/
theorem V5_main_v25 (c : Dev nD) :
    (V5 m ρ c main_v25 : S1x128.Idx → EReal) = shapeCast S1x128 (m ((c : Thread nD τ).loc main_arg13) : S128.Idx → EReal) shapeCasts_S128_S1x128 := by
  show StableHlo.after hostOps1 (W4 m ρ c) (Proc.devRef .tc main_v25) = _
  after_results_simp
  rw [W4_main_arg13]
  rfl
theorem V5_main_v26 (c : Dev nD) :
    (V5 m ρ c main_v26 : S1x128.Idx → EReal) = shapeCast S1x128 (m ((c : Thread nD τ).loc main_arg15) : S128.Idx → EReal) shapeCasts_S128_S1x128 := by
  show StableHlo.after hostOps1 (W4 m ρ c) (Proc.devRef .tc main_v26) = _
  after_results_simp
  rw [W4_main_arg15]
  rfl
theorem V5_main_v27 (c : Dev nD) :
    (V5 m ρ c main_v27 : S1x128.Idx → EReal) = shapeCast S1x128 (m ((c : Thread nD τ).loc main_arg17) : S128.Idx → EReal) shapeCasts_S128_S1x128 := by
  show StableHlo.after hostOps1 (W4 m ρ c) (Proc.devRef .tc main_v27) = _
  after_results_simp
  rw [W4_main_arg17]
  rfl
theorem V5_main_v28 (c : Dev nD) :
    (V5 m ρ c main_v28 : S1x128.Idx → EReal) = shapeCast S1x128 (m ((c : Thread nD τ).loc main_arg18) : S128.Idx → EReal) shapeCasts_S128_S1x128 := by
  show StableHlo.after hostOps1 (W4 m ρ c) (Proc.devRef .tc main_v28) = _
  after_results_simp
  rw [W4_main_arg18]
  rfl
theorem V5_main_v29 (c : Dev nD) :
    (V5 m ρ c main_v29 : S1x128.Idx → EReal) = shapeCast S1x128 (m ((c : Thread nD τ).loc main_arg19) : S128.Idx → EReal) shapeCasts_S128_S1x128 := by
  show StableHlo.after hostOps1 (W4 m ρ c) (Proc.devRef .tc main_v29) = _
  after_results_simp
  rw [W4_main_arg19]
  rfl

/-! ## The layout operations at an index -/

/-- Row `a` of the weight's first block of 128 rows is its row `a`. -/
theorem block0_apply (x : FVec Ideal S256x128 .f32) (a b : Fin 128) :
    (truncf (F := Ideal) .bf16 (extractStridedSlice S128x128 ![0, 0] x slices_S256x128_S128x128_0_0) bitsLt_bf16_f32 : FVec Ideal S128x128 .bf16) (ix2 a b)
      = x (ix2 (⟨a.val, by omega⟩ : Fin 256) b) :=
  (truncf_apply (ψ := .bf16) (extractStridedSlice S128x128 ![0, 0] x slices_S256x128_S128x128_0_0) bitsLt_bf16_f32 (ix2 a b)).trans
    (extractStridedSlice_apply _ x _ (ix2 a b) (ix2 (⟨a.val, by omega⟩ : Fin 256) b) fun d =>
    match d with
    | ⟨0, _⟩ => by show a.val = 0 + a.val; omega
    | ⟨1, _⟩ => by show b.val = 0 + b.val; omega)

/-- Row `a` of the weight's second block of 128 rows is its row `128 + a`. -/
theorem block1_apply (x : FVec Ideal S256x128 .f32) (a b : Fin 128) :
    (truncf (F := Ideal) .bf16 (extractStridedSlice S128x128 ![128, 0] x slices_S256x128_S128x128_128_0) bitsLt_bf16_f32 : FVec Ideal S128x128 .bf16) (ix2 a b)
      = x (ix2 (⟨128 + a.val, by omega⟩ : Fin 256) b) :=
  (truncf_apply (ψ := .bf16) (extractStridedSlice S128x128 ![128, 0] x slices_S256x128_S128x128_128_0) bitsLt_bf16_f32 (ix2 a b)).trans
    (extractStridedSlice_apply _ x _ (ix2 a b) (ix2 (⟨128 + a.val, by omega⟩ : Fin 256) b) fun d =>
    match d with
    | ⟨0, _⟩ => by show 128 + a.val = 128 + a.val; rfl
    | ⟨1, _⟩ => by show b.val = 0 + b.val; omega)

/-- A format-changed square weight has the weight's entries. -/
theorem conv_apply (x : FVec Ideal S128x128 .f32) (a b : Fin 128) :
    (truncf (F := Ideal) .bf16 x bitsLt_bf16_f32 : FVec Ideal S128x128 .bf16) (ix2 a b) = x (ix2 a b) :=
  truncf_apply (ψ := .bf16) x bitsLt_bf16_f32 (ix2 a b)

/-- Entry (0, q) of a vector given a leading unit axis is the vector's entry q. -/
theorem row_apply (x : S128.Idx → EReal) (q : Fin 128) :
    shapeCast S1x128 x shapeCasts_S128_S1x128 (ix2 (0 : Fin 1) q) = x (ix1 q) :=
  shapeCast_a_1a_apply x shapeCasts_S128_S1x128 0 q

/-! ## The node region's row function of such arrays is the node perceptron -/

/-- With the two weight blocks read as rows of the 256×128 weight and the one-row arrays read as vectors, the row
    function the node region computes is the node result of the specification, entry by entry the same expression. -/
theorem node_rows (nf ss : Mat 50000 128) (W0 : Mat 256 128) (w0a w0b W1' W1 W2' W2 : Mat 128 128)
    (b0' b1' b2' g' β' : Mat 1 128) (b0 b1 b2 g β : Vec1 128)
    (h0a : ∀ a b, w0a (ix2 a b) = W0 (ix2 (⟨a.val, by omega⟩ : Fin 256) b))
    (h0b : ∀ a b, w0b (ix2 a b) = W0 (ix2 (⟨128 + a.val, by omega⟩ : Fin 256) b))
    (h1 : ∀ a b, W1' (ix2 a b) = W1 (ix2 a b)) (h2 : ∀ a b, W2' (ix2 a b) = W2 (ix2 a b))
    (hb0 : ∀ q, b0' (ix2 0 q) = b0 (ix1 q)) (hb1 : ∀ q, b1' (ix2 0 q) = b1 (ix1 q)) (hb2 : ∀ q, b2' (ix2 0 q) = b2 (ix1 q))
    (hg : ∀ q, g' (ix2 0 q) = g (ix1 q)) (hβ : ∀ q, β' (ix2 0 q) = β (ix1 q)) :
    ofRows (fun e j => tailK (a0K2 nf ss w0a w0b) b0' W1' b1' W2' b2' g' β' e j + nf (ix2 e j))
      = nodeOut nf ss W0 b0 W1 b1 W2 b2 g β := by
  refine ext2 _ _ fun e j => ?_
  unfold nodeOut
  rw [ofRows_ix2, ofRows_ix2]
  unfold tailK tailV a0K2 nodeA0
  simp only [h0a, h0b, h1, h2, hb0, hb1, hb2, hg, hβ]

/-- The node result's row function of the node region's entry arrays, in terms of the launch arguments and the edge
    region's first output `NE`. -/
theorem outNode_entry (c : Dev nD) (NE : Mat 400000 128) (hNE : (dat0 (F := Ideal) (V3 m ρ) c).arrAt 13 cfg0.N = NE) :
    ofRows (fun e j => tailK (a0K2 (V5 m ρ c main_arg0) (V5 m ρ c main_v18) (V5 m ρ c main_v20) (V5 m ρ c main_v22))
        (V5 m ρ c main_v25) (V5 m ρ c main_v23) (V5 m ρ c main_v26) (V5 m ρ c main_v24) (V5 m ρ c main_v27) (V5 m ρ c main_v28) (V5 m ρ c main_v29) e j
        + (V5 m ρ c main_arg0 : Mat 50000 128) (ix2 e j))
      = nodeOut (m ((c.tc : Thread nD τ).loc main_arg0)) (scat (m ((c.tc : Thread nD τ).loc main_arg3)) NE) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  have e18 : (V5 m ρ c main_v18 : Mat 50000 128) = scat (m ((c.tc : Thread nD τ).loc main_arg3)) NE :=
    (V5_main_v18 m ρ c).trans (congrArg (scat (m ((c.tc : Thread nD τ).loc main_arg3))) hNE)
  rw [V5_main_arg0 m ρ c, e18]
  exact node_rows _ _ _ _ _ _ _ _ _ _ _ _ _ _ _ _ _ _ _
    (fun a b => (congrFun (V5_main_v20 m ρ c) (ix2 a b)).trans (block0_apply _ a b))
    (fun a b => (congrFun (V5_main_v22 m ρ c) (ix2 a b)).trans (block1_apply _ a b))
    (fun a b => (congrFun (V5_main_v23 m ρ c) (ix2 a b)).trans (conv_apply _ a b))
    (fun a b => (congrFun (V5_main_v24 m ρ c) (ix2 a b)).trans (conv_apply _ a b))
    (fun q => (congrFun (V5_main_v25 m ρ c) (ix2 0 q)).trans (row_apply _ q))
    (fun q => (congrFun (V5_main_v26 m ρ c) (ix2 0 q)).trans (row_apply _ q))
    (fun q => (congrFun (V5_main_v27 m ρ c) (ix2 0 q)).trans (row_apply _ q))
    (fun q => (congrFun (V5_main_v28 m ρ c) (ix2 0 q)).trans (row_apply _ q))
    (fun q => (congrFun (V5_main_v29 m ρ c) (ix2 0 q)).trans (row_apply _ q))

/-- The node result ends at the node region's output array. -/
theorem exit_node (c : Dev nD) : W6 m ρ c (Proc.devRef .tc main_v30) = (dat1 (F := Ideal) (V5 m ρ) c).arrAt 11 cfg1.N := by
  exact W6_arr m ρ c 11

/-- The edge result ends at the edge region's second output array. -/
theorem exit_edge (c : Dev nD) : W6 m ρ c (Proc.devRef .tc main_v15_1) = (dat0 (F := Ideal) (V3 m ρ) c).arrAt 14 cfg0.N := by
  calc W6 m ρ c (Proc.devRef .tc main_v15_1)
    _ = W5 m ρ c (Proc.devRef .tc main_v15_1) := W6_of_ne m ρ c main_v15_1 (by decide)
    _ = W4 m ρ c (Proc.devRef .tc main_v15_1) := W5_of_not_written m ρ c main_v15_1 (by decide)
    _ = (dat0 (F := Ideal) (V3 m ρ) c).arrAt 14 cfg0.N := W4_arr m ρ c 14

end Cert.KernelIdeal.Host1

end
-- ==== Proof.KernelValue.lean ====
/-
  What the idealized kernel's @main returns, as functions of its arguments. With every sender and receiver index in
  range, the edge result is the edge perceptron and normalisation of the gathered sender and receiver rows and the edge
  row, plus the edge row; the node result is the node perceptron and normalisation of the node row and the sum of the
  updated edge rows scattered to it, plus the node row. The run's last boundary gives each result buffer its region's
  output array; each region's output array is the row function of the arrays the region is entered with; and those
  arrays are the host operations' values of the arguments.
-/
import proofs.«425903_j37632503447812_1_alg».proof.Proof.RunNamed
import proofs.«425903_j37632503447812_1_alg».proof.Proof.EdgeRegion
import proofs.«425903_j37632503447812_1_alg».proof.Proof.NodeRegion
import proofs.«425903_j37632503447812_1_alg».proof.Proof.KernelHost0
import proofs.«425903_j37632503447812_1_alg».proof.Proof.KernelHost1

set_option maxRecDepth 16384

noncomputable section

namespace Cert.KernelIdeal.Result

open Idealize.ShloMosaic Idealize.ShloMosaic.TcCoe Idealize.ShloMosaic.ValueIdx
open Idealize.SL.Sem
open Cert.KernelIdeal Cert.KernelIdeal.Gen Cert.Rows Cert.KernelIdeal.Glue

variable (m : (ℓ : Loc nD τ sig) → Buf (Elt Ideal) ℓ) (ρ : Dev nD → PrngReg)

/-- The updated edge features, of the arguments. -/
def newEdge (c : Dev nD) : Mat 400000 128 :=
  edgeNew (gat (m ((c.tc : Thread nD τ).loc main_arg0)) (m ((c.tc : Thread nD τ).loc main_arg2))) (gat (m ((c.tc : Thread nD τ).loc main_arg0)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
/-- The edge result, of the arguments. -/
def edgeRes (c : Dev nD) : Mat 400000 128 :=
  edgeOut (gat (m ((c.tc : Thread nD τ).loc main_arg0)) (m ((c.tc : Thread nD τ).loc main_arg2))) (gat (m ((c.tc : Thread nD τ).loc main_arg0)) (m ((c.tc : Thread nD τ).loc main_arg3))) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
/-- The node result, of the arguments. -/
def nodeRes (c : Dev nD) : Mat 50000 128 :=
  nodeOut (m ((c.tc : Thread nD τ).loc main_arg0)) (scat (m ((c.tc : Thread nD τ).loc main_arg3)) (newEdge m c)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

section
variable (c : Dev nD)
  (hs0 : ∀ i, IntOp.cmpi .sge ((m ((c.tc : Thread nD τ).loc main_arg2)) i) 0#32 = 1#1) (hs1 : ∀ i, IntOp.cmpi .slt ((m ((c.tc : Thread nD τ).loc main_arg2)) i) 50000#32 = 1#1)
  (hr0 : ∀ i, IntOp.cmpi .sge ((m ((c.tc : Thread nD τ).loc main_arg3)) i) 0#32 = 1#1) (hr1 : ∀ i, IntOp.cmpi .slt ((m ((c.tc : Thread nD τ).loc main_arg3)) i) 50000#32 = 1#1)
include hs0 hs1 hr0 hr1

/-- The edge region's first output array is the updated edge features. -/
theorem newEdge_eq : (dat0 (F := Ideal) (V3 m ρ) c).arrAt 13 cfg0.N = newEdge m c :=
  (EdgeRegion.arr13 (V3 m ρ) c).trans (Host0.newEdge_entry m ρ c hs0 hs1 hr0 hr1)

/-- The edge result buffer ends at the edge result. -/
theorem edge_eq : W6 m ρ c (Proc.devRef .tc main_v15_1) = edgeRes m c :=
  (Host1.exit_edge m ρ c).trans ((EdgeRegion.arr14 (V3 m ρ) c).trans (Host0.outEdge_entry m ρ c hs0 hs1 hr0 hr1))

/-- The node result buffer ends at the node result. -/
theorem node_eq : W6 m ρ c (Proc.devRef .tc main_v30) = nodeRes m c :=
  (Host1.exit_node m ρ c).trans ((NodeRegion.arr11 (V5 m ρ) c).trans
    (Host1.outNode_entry m ρ c (newEdge m c) (newEdge_eq m ρ c hs0 hs1 hr0 hr1)))

end

/-- The run of the idealized kernel with its results named: with every index in range, every weakly fair execution
    terminates, nothing faults, the two results end at the row formulas of the arguments, and the arguments end as
    launched. -/
theorem run
    (hs0 : ∀ (c : Dev nD) i, IntOp.cmpi .sge ((m ((c.tc : Thread nD τ).loc main_arg2)) i) 0#32 = 1#1) (hs1 : ∀ (c : Dev nD) i, IntOp.cmpi .slt ((m ((c.tc : Thread nD τ).loc main_arg2)) i) 50000#32 = 1#1)
    (hr0 : ∀ (c : Dev nD) i, IntOp.cmpi .sge ((m ((c.tc : Thread nD τ).loc main_arg3)) i) 0#32 = 1#1) (hr1 : ∀ (c : Dev nD) i, IntOp.cmpi .slt ((m ((c.tc : Thread nD τ).loc main_arg3)) i) 50000#32 = 1#1) :
    θ_run defs (onTc (τ := τ) (main (F := Ideal))) ⟨m, fun _ => 0, ρ⟩ (fun r => ∀ c : Dev nD,
      r.2.mem ((c.tc : Thread nD τ).loc main_v30) = nodeRes m c
      ∧ r.2.mem ((c.tc : Thread nD τ).loc main_v15_1) = edgeRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
      ⟨(h c).1.trans (node_eq m ρ c (hs0 c) (hs1 c) (hr0 c) (hr1 c)),
       (h c).2.1.trans (edge_eq m ρ c (hs0 c) (hs1 c) (hr0 c) (hr1 c)),
       (h c).2.2⟩)
    (RunNamed.run_named (F := Ideal) m ρ)

end Cert.KernelIdeal.Result

end
-- ==== Proof.RefEdge.lean ====
/-
  The reference's edge side read row by row. Its gather of sender and receiver rows first wraps negative indices
  (index + 50000 where the index is negative), which changes nothing when every index is at least 0; it joins the
  sender row, the receiver row and the edge row into one row of 384 and multiplies by the 384×128 weight, a sum over
  384 indices that splits into the three sums over 128 against the weight's three row blocks; the later layers, the
  normalisation and the residual are the shared row formula.
-/
import proofs.«425903_j37632503447812_1_alg».proof.Proof.Gen.ReferenceIdeal.Read
import proofs.«425903_j37632503447812_1_alg».proof.Proof.Rows
import proofs.«425903_j37632503447812_1_alg».proof.Proof.LibColumn
import proofs.«425903_j37632503447812_1_alg».proof.Proof.PreDecode
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefEdge

open Idealize.ShloMosaic Idealize.ShloMosaic.TcCoe Idealize.ShloMosaic.ValueIdx
open Cert.ReferenceIdeal Cert.ReferenceIdeal.Gen Cert.ReferenceIdeal.Read Cert.Rows
open scoped BigOperators

/-- The node table's rows gathered by an index array (the reference's own gather, over the un-wrapped index column). -/
def gatR (nf : Mat 50000 128) (s : IVec S400000 32) : Mat 400000 128 :=
  Host.gather gather_S50000x128_S400000x1_S400000x128_1_0_n_n_0_1_1128 nf
    (broadcastInDim S400000x1 ![0] bcast_S400000_S400000x1_0 s)

/-- The sender index wrap changes nothing on indices that are at least 0. -/
theorem wrap_s (x2 : IVec S400000 32) (hs0 : ∀ i, IntOp.cmpi .sge (x2 i) 0#32 = 1#1) :
    val_main_v4 (F := Ideal) x2 = x2 := by
  funext i
  rw [val_main_v4_apply, val_main_v1_apply, val_main_v0_apply, val_main_c_apply, Cert.PreDecode.not_neg (hs0 i)]
  exact select_zero _ _

/-- The receiver index wrap changes nothing on indices that are at least 0. -/
theorem wrap_r (x3 : IVec S400000 32) (hr0 : ∀ i, IntOp.cmpi .sge (x3 i) 0#32 = 1#1) :
    val_main_v11 (F := Ideal) x3 = x3 := by
  funext i
  rw [val_main_v11_apply, val_main_v8_apply, val_main_v7_apply, val_main_c_1_apply, Cert.PreDecode.not_neg (hr0 i)]
  exact select_zero _ _

/-- The sender gather reads the node table at the index column itself. -/
theorem v6_eq (x0 : Mat 50000 128) (x2 : IVec S400000 32) (hs0 : ∀ i, IntOp.cmpi .sge (x2 i) 0#32 = 1#1) :
    val_main_v6 (F := Ideal) x0 x2 = gatR x0 x2 := by
  unfold val_main_v6 val_main_v5 gatR
  rw [wrap_s x2 hs0]

/-- The receiver gather reads the node table at the index column itself. -/
theorem v13_eq (x0 : Mat 50000 128) (x3 : IVec S400000 32) (hr0 : ∀ i, IntOp.cmpi .sge (x3 i) 0#32 = 1#1) :
    val_main_v13 (F := Ideal) x0 x3 = gatR x0 x3 := by
  unfold val_main_v13 val_main_v12 gatR
  rw [wrap_r x3 hr0]

/-- Three row blocks of 128 joined along the columns, read in the first block. -/
theorem cat3_0 (A B C : Mat 400000 128) (e : Fin 400000) (k : Fin 128) :
    concatenate S400000x384 1 [⟨S400000x128, A⟩, ⟨S400000x128, B⟩, ⟨S400000x128, C⟩]
      concatenates_S400000x128_S400000x128_S400000x128_S400000x384_d1 (ix2 e (⟨k.val, by omega⟩ : Fin 384)) = A (ix2 e k) := by
  refine concatenate_apply_piece (1 : Fin S400000x384.rank) _ _ _ 0 (by show (0 : Nat) < 3; omega) S400000x128 A rfl rfl 0 rfl (ix2 e k) ?_ ?_
  · intro b hb
    match b with
    | ⟨0, _⟩ => rfl
    | ⟨1, _⟩ => exact absurd rfl hb
  · show 0 + k.val = k.val
    omega

/-- The same join read in the second block. -/
theorem cat3_1 (A B C : Mat 400000 128) (e : Fin 400000) (k : Fin 128) :
    concatenate S400000x384 1 [⟨S400000x128, A⟩, ⟨S400000x128, B⟩, ⟨S400000x128, C⟩]
      concatenates_S400000x128_S400000x128_S400000x128_S400000x384_d1 (ix2 e (⟨128 + k.val, by omega⟩ : Fin 384)) = B (ix2 e k) := by
  refine concatenate_apply_piece (1 : Fin S400000x384.rank) _ _ _ 1 (by show (1 : Nat) < 3; omega) S400000x128 B rfl rfl 128 rfl (ix2 e k) ?_ ?_
  · intro b hb
    match b with
    | ⟨0, _⟩ => rfl
    | ⟨1, _⟩ => exact absurd rfl hb
  · rfl

/-- The same join read in the third block. -/
theorem cat3_2 (A B C : Mat 400000 128) (e : Fin 400000) (k : Fin 128) :
    concatenate S400000x384 1 [⟨S400000x128, A⟩, ⟨S400000x128, B⟩, ⟨S400000x128, C⟩]
      concatenates_S400000x128_S400000x128_S400000x128_S400000x384_d1 (ix2 e (⟨256 + k.val, by omega⟩ : Fin 384)) = C (ix2 e k) := by
  refine concatenate_apply_piece (1 : Fin S400000x384.rank) _ _ _ 2 (by show (2 : Nat) < 3; omega) S400000x128 C rfl rfl 256 rfl (ix2 e k) ?_ ?_
  · intro b hb
    match b with
    | ⟨0, _⟩ => rfl
    | ⟨1, _⟩ => exact absurd rfl hb
  · rfl

/-- The joined row at a column of its first block is the sender's row. -/
theorem s14_0 (x0 : Mat 50000 128) (x1 : Mat 400000 128) (x2 x3 : IVec S400000 32)
    (hs0 : ∀ i, IntOp.cmpi .sge (x2 i) 0#32 = 1#1) (e : Fin 400000) (k : Fin 128) :
    val_main_v14 (F := Ideal) x0 x1 x2 x3 (ix2 e (⟨k.val, by omega⟩ : Fin 384)) = gatR x0 x2 (ix2 e k) := by
  unfold val_main_v14
  rw [cat3_0, v6_eq x0 x2 hs0]

/-- The joined row at a column of its second block is the receiver's row. -/
theorem s14_1 (x0 : Mat 50000 128) (x1 : Mat 400000 128) (x2 x3 : IVec S400000 32)
    (hr0 : ∀ i, IntOp.cmpi .sge (x3 i) 0#32 = 1#1) (e : Fin 400000) (k : Fin 128) :
    val_main_v14 (F := Ideal) x0 x1 x2 x3 (ix2 e (⟨128 + k.val, by omega⟩ : Fin 384)) = gatR x0 x3 (ix2 e k) := by
  unfold val_main_v14
  rw [cat3_1, v13_eq x0 x3 hr0]

/-- The joined row at a column of its third block is the edge's row. -/
theorem s14_2 (x0 : Mat 50000 128) (x1 : Mat 400000 128) (x2 x3 : IVec S400000 32) (e : Fin 400000) (k : Fin 128) :
    val_main_v14 (F := Ideal) x0 x1 x2 x3 (ix2 e (⟨256 + k.val, by omega⟩ : Fin 384)) = x1 (ix2 e k) := by
  unfold val_main_v14
  rw [cat3_2]

section Stages

variable (x0 : Mat 50000 128) (x1 : Mat 400000 128) (x2 x3 : IVec S400000 32) (x4 : Mat 384 128) (x5 : Vec1 128)
  (x6 : Mat 128 128) (x7 : Vec1 128) (x8 : Mat 128 128) (x9 x10 x11 : Vec1 128)
  (hs0 : ∀ i, IntOp.cmpi .sge (x2 i) 0#32 = 1#1) (hr0 : ∀ i, IntOp.cmpi .sge (x3 i) 0#32 = 1#1)

include hs0 hr0

/-- The first layer's product: the sum over 384 is the three sums over 128. -/
theorem s15 (e : Fin 400000) (j : Fin 128) :
    val_main_v15 (F := Ideal) x0 x1 x2 x3 x4 (ix2 e j) = edgeA0 (gatR x0 x2) (gatR x0 x3) x1 x4 e j := by
  have el : ∀ kk : Fin 384, lidx_main_v15 (ix2 e j) kk = ix2 e kk := fun kk =>
    funext fun a => by match a with | ⟨0, _⟩ => rfl | ⟨1, _⟩ => rfl
  have er : ∀ kk : Fin 384, ridx_main_v15 (ix2 e j) kk = ix2 kk j := fun kk =>
    funext fun a => by match a with | ⟨0, _⟩ => rfl | ⟨1, _⟩ => rfl
  rw [val_main_v15_apply, sum_384]
  unfold edgeA0
  refine congrArg₂ (· + ·) (congrArg₂ (· + ·) (Finset.sum_congr rfl fun k _ => ?_) (Finset.sum_congr rfl fun k _ => ?_))
    (Finset.sum_congr rfl fun k _ => ?_)
  · rw [el, er, s14_0 x0 x1 x2 x3 hs0]
  · rw [el, er, s14_1 x0 x1 x2 x3 hr0]
  · rw [el, er, s14_2 x0 x1 x2 x3]

end Stages

/-- A bias broadcast over the rows, read at (e, j): the bias at j. -/
theorem bias17 (x5 : Vec1 128) (e : Fin 400000) (j : Fin 128) : val_main_v17 (F := Ideal) x5 (ix2 e j) = x5 (ix1 j) := by
  rw [val_main_v17_apply, val_main_v16_apply]
  exact congrArg x5 (funext fun a => by match a with | ⟨0, _⟩ => rfl)

/-- The second layer's bias at (e, j). -/
theorem bias22 (x7 : Vec1 128) (e : Fin 400000) (j : Fin 128) : val_main_v22 (F := Ideal) x7 (ix2 e j) = x7 (ix1 j) := by
  rw [val_main_v22_apply, val_main_v21_apply]
  exact congrArg x7 (funext fun a => by match a with | ⟨0, _⟩ => rfl)

/-- The third layer's bias at (e, j). -/
theorem bias27 (x9 : Vec1 128) (e : Fin 400000) (j : Fin 128) : val_main_v27 (F := Ideal) x9 (ix2 e j) = x9 (ix1 j) := by
  rw [val_main_v27_apply, val_main_v26_apply]
  exact congrArg x9 (funext fun a => by match a with | ⟨0, _⟩ => rfl)

/-- The normalisation's scale at (e, j). -/
theorem scale43 (x10 : Vec1 128) (e : Fin 400000) (j : Fin 128) : val_main_v43 (F := Ideal) x10 (ix2 e j) = x10 (ix1 j) := by
  rw [val_main_v43_apply, val_main_v42_apply]
  exact congrArg x10 (funext fun a => by match a with | ⟨0, _⟩ => rfl)

/-- The normalisation's shift at (e, j). -/
theorem shift51 (x11 : Vec1 128) (e : Fin 400000) (j : Fin 128) : val_main_v51 (F := Ideal) x11 (ix2 e j) = x11 (ix1 j) := by
  rw [val_main_v51_apply, val_main_v50_apply]
  exact congrArg x11 (funext fun a => by match a with | ⟨0, _⟩ => rfl)

/-- The rectifier's zero, broadcast everywhere. -/
theorem relu0_0 (i : S400000x128.Idx) : val_main_call0_v0 (F := Ideal) i = c0 := by
  rw [val_main_call0_v0_apply, val_main_call0_cst_apply]; rfl

/-- The second rectifier's zero. -/
theorem relu0_1 (i : S400000x128.Idx) : val_main_call1_v0 (F := Ideal) i = c0 := by
  rw [val_main_call1_v0_apply, val_main_call1_cst_apply]; rfl

/-- Layer one of a row. -/
def l1 (a0 : Fin 128 → EReal) (b0 : Vec1 128) (k1 : Fin 128) : EReal := max (a0 k1 + b0 (ix1 k1)) c0
/-- Layer two of a row. -/
def l2 (a0 : Fin 128 → EReal) (b0 : Vec1 128) (W1 : Mat 128 128) (b1 : Vec1 128) (k : Fin 128) : EReal :=
  max ((∑ k1, l1 a0 b0 k1 * W1 (ix2 k1 k)) + b1 (ix1 k)) c0
/-- Layer three of a row: the row the normalisation reads. -/
def l3 (a0 : Fin 128 → EReal) (b0 : Vec1 128) (W1 : Mat 128 128) (b1 : Vec1 128) (W2 : Mat 128 128) (b2 : Vec1 128)
    (j2 : Fin 128) : EReal :=
  (∑ k, l2 a0 b0 W1 b1 k * W2 (ix2 k j2)) + b2 (ix1 j2)

section Stages2

variable (x0 : Mat 50000 128) (x1 : Mat 400000 128) (x2 x3 : IVec S400000 32) (x4 : Mat 384 128) (x5 : Vec1 128)
  (x6 : Mat 128 128) (x7 : Vec1 128) (x8 : Mat 128 128) (x9 x10 x11 : Vec1 128)
  (hs0 : ∀ i, IntOp.cmpi .sge (x2 i) 0#32 = 1#1) (hr0 : ∀ i, IntOp.cmpi .sge (x3 i) 0#32 = 1#1)

include hs0 hr0

/-- The first layer's product of row e. -/
abbrev A0 (e : Fin 400000) : Fin 128 → EReal := edgeA0 (gatR x0 x2) (gatR x0 x3) x1 x4 e

/-- Layer one at (e, k). -/
theorem s19 (e : Fin 400000) (k : Fin 128) :
    val_main_v19 (F := Ideal) x0 x1 x2 x3 x4 x5 (ix2 e k) = l1 (A0 x0 x1 x2 x3 x4 e) x5 k := by
  rw [val_main_v19_apply, val_main_v18_apply, s15 x0 x1 x2 x3 x4 hs0 hr0, bias17, relu0_0]
  rfl

/-- Layer two at (e, k): a sum over layer one's row. -/
theorem s24 (e : Fin 400000) (k : Fin 128) :
    val_main_v24 (F := Ideal) x0 x1 x2 x3 x4 x5 x6 x7 (ix2 e k) = l2 (A0 x0 x1 x2 x3 x4 e) x5 x6 x7 k := by
  have el : ∀ kk : Fin 128, lidx_main_v20 (ix2 e k) kk = ix2 e kk := fun kk =>
    funext fun a => by match a with | ⟨0, _⟩ => rfl | ⟨1, _⟩ => rfl
  have er : ∀ kk : Fin 128, ridx_main_v20 (ix2 e k) kk = ix2 kk k := fun kk =>
    funext fun a => by match a with | ⟨0, _⟩ => rfl | ⟨1, _⟩ => rfl
  rw [val_main_v24_apply, val_main_v23_apply, val_main_v20_apply, bias22, relu0_1]
  unfold l2
  refine congrArg (fun t => max (t + x7 (ix1 k)) c0) (Finset.sum_congr rfl fun k1 _ => ?_)
  rw [el, er, s19 x0 x1 x2 x3 x4 x5 hs0 hr0]

/-- Layer three at (e, j): a sum over layer two's row. -/
theorem s28 (e : Fin 400000) (j : Fin 128) :
    val_main_v28 (F := Ideal) x0 x1 x2 x3 x4 x5 x6 x7 x8 x9 (ix2 e j) = l3 (A0 x0 x1 x2 x3 x4 e) x5 x6 x7 x8 x9 j := by
  have el : ∀ kk : Fin 128, lidx_main_v25 (ix2 e j) kk = ix2 e kk := fun kk =>
    funext fun a => by match a with | ⟨0, _⟩ => rfl | ⟨1, _⟩ => rfl
  have er : ∀ kk : Fin 128, ridx_main_v25 (ix2 e j) kk = ix2 kk j := fun kk =>
    funext fun a => by match a with | ⟨0, _⟩ => rfl | ⟨1, _⟩ => rfl
  rw [val_main_v28_apply, val_main_v25_apply, bias27]
  unfold l3
  refine congrArg (fun t => t + x9 (ix1 j)) (Finset.sum_congr rfl fun k _ => ?_)
  rw [el, er, s24 x0 x1 x2 x3 x4 x5 x6 x7 hs0 hr0]

end Stages2

section Stages3

variable (x0 : Mat 50000 128) (x1 : Mat 400000 128) (x2 x3 : IVec S400000 32) (x4 : Mat 384 128) (x5 : Vec1 128)
  (x6 : Mat 128 128) (x7 : Vec1 128) (x8 : Mat 128 128) (x9 x10 x11 : Vec1 128)
  (hs0 : ∀ i, IntOp.cmpi .sge (x2 i) 0#32 = 1#1) (hr0 : ∀ i, IntOp.cmpi .sge (x3 i) 0#32 = 1#1)

include hs0 hr0

/-- Row e after the three layers. -/
abbrev H2 (e : Fin 400000) : Fin 128 → EReal := l3 (A0 x0 x1 x2 x3 x4 e) x5 x6 x7 x8 x9

/-- The row's mean: the sum from the zero word, over 128. -/
theorem s32 (e : Fin 400000) :
    val_main_v32 (F := Ideal) x0 x1 x2 x3 x4 x5 x6 x7 x8 x9 (ix2 e (0 : Fin 1)) = mean (H2 x0 x1 x2 x3 x4 x5 x6 x7 x8 x9 e) := by
  have e30 : idx_main_v30 (ix2 e (0 : Fin 1)) = ix1 e := funext fun a => by match a with | ⟨0, _⟩ => rfl
  have e29 : ∀ k : Fin 128, idx_main_v29 (ix1 e) k = ix2 e k := fun k =>
    funext fun a => by match a with | ⟨0, _⟩ => rfl | ⟨1, _⟩ => rfl
  rw [val_main_v32_apply, val_main_v30_apply, e30, val_main_v29_apply, val_main_cst_apply, val_main_v31_apply,
    val_main_cst_3_apply, Ideal.ofBits_def, Ideal.ofBits_def, Ideal.ofBits_zero_f32, zero_add, Ideal.hostDivf_def]
  unfold mean
  refine congrArg (fun t => Ideal.div t c128) (Finset.sum_congr rfl fun k _ => ?_)
  rw [e29, s28 x0 x1 x2 x3 x4 x5 x6 x7 x8 x9 hs0 hr0]

/-- The row's entry less its mean (the form the variance squares). -/
theorem s34 (e : Fin 400000) (j : Fin 128) :
    val_main_v34 (F := Ideal) x0 x1 x2 x3 x4 x5 x6 x7 x8 x9 (ix2 e j)
      = H2 x0 x1 x2 x3 x4 x5 x6 x7 x8 x9 e j - mean (H2 x0 x1 x2 x3 x4 x5 x6 x7 x8 x9 e) := by
  have e33 : idx_main_v33 (ix2 e j) = ix2 e (0 : Fin 1) := funext fun a => by match a with | ⟨0, _⟩ => rfl | ⟨1, _⟩ => rfl
  rw [val_main_v34_apply, val_main_v33_apply, e33, s32 x0 x1 x2 x3 x4 x5 x6 x7 x8 x9 hs0 hr0,
    s28 x0 x1 x2 x3 x4 x5 x6 x7 x8 x9 hs0 hr0]
  rfl

/-- The row's entry less its mean (the form the result scales). -/
theorem s41 (e : Fin 400000) (j : Fin 128) :
    val_main_v41 (F := Ideal) x0 x1 x2 x3 x4 x5 x6 x7 x8 x9 (ix2 e j)
      = H2 x0 x1 x2 x3 x4 x5 x6 x7 x8 x9 e j - mean (H2 x0 x1 x2 x3 x4 x5 x6 x7 x8 x9 e) := by
  have e40 : idx_main_v40 (ix2 e j) = ix2 e (0 : Fin 1) := funext fun a => by match a with | ⟨0, _⟩ => rfl | ⟨1, _⟩ => rfl
  rw [val_main_v41_apply, val_main_v40_apply, e40, s32 x0 x1 x2 x3 x4 x5 x6 x7 x8 x9 hs0 hr0,
    s28 x0 x1 x2 x3 x4 x5 x6 x7 x8 x9 hs0 hr0]
  rfl

/-- The row's variance. -/
theorem s39 (e : Fin 400000) :
    val_main_v39 (F := Ideal) x0 x1 x2 x3 x4 x5 x6 x7 x8 x9 (ix2 e (0 : Fin 1)) = var (H2 x0 x1 x2 x3 x4 x5 x6 x7 x8 x9 e) := by
  have e37 : idx_main_v37 (ix2 e (0 : Fin 1)) = ix1 e := funext fun a => by match a with | ⟨0, _⟩ => rfl
  have e36 : ∀ k : Fin 128, idx_main_v36 (ix1 e) k = ix2 e k := fun k =>
    funext fun a => by match a with | ⟨0, _⟩ => rfl | ⟨1, _⟩ => rfl
  rw [val_main_v39_apply, val_main_v37_apply, e37, val_main_v36_apply, val_main_cst_4_apply, val_main_v38_apply,
    val_main_cst_5_apply, Ideal.ofBits_def, Ideal.ofBits_def, Ideal.ofBits_zero_f32, zero_add, Ideal.hostDivf_def]
  unfold var
  refine congrArg (fun t => Ideal.div t c128) (Finset.sum_congr rfl fun k _ => ?_)
  rw [e36, val_main_v35_apply, s34 x0 x1 x2 x3 x4 x5 x6 x7 x8 x9 hs0 hr0]
  rfl

/-- The reciprocal root of the guarded variance, spread along the row. -/
theorem s48 (e : Fin 400000) (j : Fin 128) :
    val_main_v48 (F := Ideal) x0 x1 x2 x3 x4 x5 x6 x7 x8 x9 (ix2 e j)
      = Ideal.rsqrt (var (H2 x0 x1 x2 x3 x4 x5 x6 x7 x8 x9 e) + ceps) := by
  have e48 : idx_main_v48 (ix2 e j) = ix2 e (0 : Fin 1) := funext fun a => by match a with | ⟨0, _⟩ => rfl | ⟨1, _⟩ => rfl
  rw [val_main_v48_apply, e48, val_main_v47_apply, val_main_v46_apply, s39 x0 x1 x2 x3 x4 x5 x6 x7 x8 x9 hs0 hr0,
    val_main_v45_apply, val_main_cst_6_apply, Ideal.hostUnary_rsqrt_def]
  rfl

/-- The normalised row. -/
theorem s52 (e : Fin 400000) (j : Fin 128) :
    val_main_v52 (F := Ideal) x0 x1 x2 x3 x4 x5 x6 x7 x8 x9 x10 x11 (ix2 e j)
      = lnRow (H2 x0 x1 x2 x3 x4 x5 x6 x7 x8 x9 e) (fun q => x10 (ix1 q)) (fun q => x11 (ix1 q)) j := by
  rw [val_main_v52_apply, val_main_v49_apply, val_main_v44_apply, scale43, shift51,
    s41 x0 x1 x2 x3 x4 x5 x6 x7 x8 x9 hs0 hr0, s48 x0 x1 x2 x3 x4 x5 x6 x7 x8 x9 hs0 hr0]
  rfl

end Stages3

variable (x0 : Mat 50000 128) (x1 : Mat 400000 128) (x2 x3 : IVec S400000 32) (x4 : Mat 384 128) (x5 : Vec1 128)
  (x6 : Mat 128 128) (x7 : Vec1 128) (x8 : Mat 128 128) (x9 x10 x11 : Vec1 128)

/-- The updated edge features: the stage before the residual. -/
theorem newEdge_ref (hs0 : ∀ i, IntOp.cmpi .sge (x2 i) 0#32 = 1#1) (hr0 : ∀ i, IntOp.cmpi .sge (x3 i) 0#32 = 1#1) :
    val_main_v52 (F := Ideal) x0 x1 x2 x3 x4 x5 x6 x7 x8 x9 x10 x11
      = edgeNew (gatR x0 x2) (gatR x0 x3) x1 x4 x5 x6 x7 x8 x9 x10 x11 := by
  refine ext2 _ _ fun e j => ?_
  rw [s52 x0 x1 x2 x3 x4 x5 x6 x7 x8 x9 x10 x11 hs0 hr0]
  rfl

/-- The edge result. -/
theorem outEdge_ref (hs0 : ∀ i, IntOp.cmpi .sge (x2 i) 0#32 = 1#1) (hr0 : ∀ i, IntOp.cmpi .sge (x3 i) 0#32 = 1#1) :
    val_main_v96 (F := Ideal) x0 x1 x2 x3 x4 x5 x6 x7 x8 x9 x10 x11
      = edgeOut (gatR x0 x2) (gatR x0 x3) x1 x4 x5 x6 x7 x8 x9 x10 x11 := by
  refine ext2 _ _ fun e j => ?_
  rw [val_main_v96_apply, newEdge_ref x0 x1 x2 x3 x4 x5 x6 x7 x8 x9 x10 x11 hs0 hr0]
  rfl

end Cert.ReferenceIdeal.RefEdge

end
-- ==== Proof.RefNode.lean ====
/-
  The reference's node side read row by row. It scatter-adds the updated edge rows into a zero table by receiver index,
  joins each node row with its aggregated row into one row of 256 and multiplies by the 256×128 weight, a sum over 256
  indices that splits into the two sums over 128 against the weight's two row blocks; the later layers, the normalisation
  and the residual are the shared row formula. The scatter-add is carried as one term and never opened.
-/
import proofs.«425903_j37632503447812_1_alg».proof.Proof.Gen.ReferenceIdeal.Read
import proofs.«425903_j37632503447812_1_alg».proof.Proof.Rows
import proofs.«425903_j37632503447812_1_alg».proof.Proof.LibColumn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.RefNode

open Idealize.ShloMosaic Idealize.ShloMosaic.TcCoe Idealize.ShloMosaic.ValueIdx
open Cert.ReferenceIdeal Cert.ReferenceIdeal.Gen Cert.ReferenceIdeal.Read Cert.Rows
open scoped BigOperators

/-- Edge rows summed into node rows by receiver index, from the zero table (the reference's own scatter-add). -/
def scatR (r : IVec S400000 32) (u : Mat 400000 128) : Mat 50000 128 :=
  Host.scatterAdd (F := Ideal) scatter_S50000x128_S400000x1_S400000x128_1_0_0_1
    (broadcastInDim S50000x128 ![] bcast_S_S50000x128 (constant (F := Ideal) S_ .f32 0x00000000#32))
    (broadcastInDim S400000x1 ![0] bcast_S400000_S400000x1_0 r) u

variable (x0 : Mat 50000 128) (x1 : Mat 400000 128) (x2 x3 : IVec S400000 32) (x4 : Mat 384 128) (x5 : Vec1 128)
  (x6 : Mat 128 128) (x7 : Vec1 128) (x8 : Mat 128 128) (x9 x10 x11 : Vec1 128)
  (x12 : Mat 256 128) (x13 : Vec1 128) (x14 : Mat 128 128) (x15 : Vec1 128) (x16 : Mat 128 128) (x17 x18 x19 : Vec1 128)

/-- The aggregated rows are the scatter-add of the updated edge features. -/
theorem seg_ref :
    val_main_v55 (F := Ideal) x0 x1 x2 x3 x4 x5 x6 x7 x8 x9 x10 x11
      = scatR x3 (val_main_v52 (F := Ideal) x0 x1 x2 x3 x4 x5 x6 x7 x8 x9 x10 x11) := by
  unfold val_main_v55 val_main_v53 val_main_v54 val_main_cst_7 scatR
  rfl

/-- The joined row at a column of its first half is the node row. -/
private theorem cat_left (ss : Mat 50000 128) (e : Fin 50000) (k : Fin 128) :
    concatenate S50000x256 1 [⟨S50000x128, x0⟩, ⟨S50000x128, ss⟩] concatenates_S50000x128_S50000x128_S50000x256_d1
      (ix2 e (⟨k.val, by omega⟩ : Fin 256)) = x0 (ix2 e k) :=
  concatenate_pair_apply_left (t := S50000x256) (s₁ := S50000x128) (s₂ := S50000x128) 1 x0 ss
    concatenates_S50000x128_S50000x128_S50000x256_d1 (ix2 e (⟨k.val, by omega⟩ : Fin 256)) rfl (ix2 e k)
    (fun b => by match b with | ⟨0, _⟩ => rfl | ⟨1, _⟩ => rfl)

/-- The joined row at a column of its second half is the aggregated row, 128 columns back. -/
private theorem cat_right (ss : Mat 50000 128) (e : Fin 50000) (k : Fin 128) :
    concatenate S50000x256 1 [⟨S50000x128, x0⟩, ⟨S50000x128, ss⟩] concatenates_S50000x128_S50000x128_S50000x256_d1
      (ix2 e (⟨128 + k.val, by omega⟩ : Fin 256)) = ss (ix2 e k) :=
  concatenate_pair_apply_right (t := S50000x256) (s₁ := S50000x128) (s₂ := S50000x128) 1 x0 ss
    concatenates_S50000x128_S50000x128_S50000x256_d1 (ix2 e (⟨128 + k.val, by omega⟩ : Fin 256)) rfl rfl (ix2 e k)
    (fun b hb => by match b with | ⟨0, _⟩ => rfl | ⟨1, _⟩ => exact absurd rfl hb)
    (by show k.val + 128 = 128 + k.val; omega)

/-- The joined array at a first-half column is the node array. -/
private theorem v56_left (e : Fin 50000) (k : Fin 128) :
    val_main_v56 (F := Ideal) x0 x1 x2 x3 x4 x5 x6 x7 x8 x9 x10 x11 (ix2 e (⟨k.val, by omega⟩ : Fin 256)) = x0 (ix2 e k) := by
  unfold val_main_v56
  generalize val_main_v55 (F := Ideal) x0 x1 x2 x3 x4 x5 x6 x7 x8 x9 x10 x11 = ss
  exact cat_left x0 ss e k

/-- The joined array at a second-half column is the aggregated array. -/
private theorem v56_right (e : Fin 50000) (k : Fin 128) :
    val_main_v56 (F := Ideal) x0 x1 x2 x3 x4 x5 x6 x7 x8 x9 x10 x11 (ix2 e (⟨128 + k.val, by omega⟩ : Fin 256))
      = val_main_v55 (F := Ideal) x0 x1 x2 x3 x4 x5 x6 x7 x8 x9 x10 x11 (ix2 e k) := by
  unfold val_main_v56
  generalize val_main_v55 (F := Ideal) x0 x1 x2 x3 x4 x5 x6 x7 x8 x9 x10 x11 = ss
  exact cat_right x0 ss e k

/-- The first layer's product at row e, column j: the sum over 256 split into its two blocks of 128. -/
private theorem v57_at (e : Fin 50000) (j : Fin 128) :
    val_main_v57 (F := Ideal) x0 x1 x2 x3 x4 x5 x6 x7 x8 x9 x10 x11 x12 (ix2 e j) = nodeA0 x0 (val_main_v55 (F := Ideal) x0 x1 x2 x3 x4 x5 x6 x7 x8 x9 x10 x11) x12 e j := by
  rw [val_main_v57_apply]
  refine (sum_256 _).trans ?_
  unfold nodeA0
  refine congrArg₂ (· + ·) (Finset.sum_congr rfl fun k _ => ?_) (Finset.sum_congr rfl fun k _ => ?_)
  · have hl : lidx_main_v57 (ix2 e j) (⟨k.val, by omega⟩ : Fin 256) = ix2 e (⟨k.val, by omega⟩ : Fin 256) :=
      funext fun a => Fin.ext (by match a with | ⟨0, _⟩ => rfl | ⟨1, _⟩ => rfl)
    have hr : ridx_main_v57 (ix2 e j) (⟨k.val, by omega⟩ : Fin 256) = ix2 (⟨k.val, by omega⟩ : Fin 256) j :=
      funext fun a => Fin.ext (by match a with | ⟨0, _⟩ => rfl | ⟨1, _⟩ => rfl)
    show val_main_v56 (F := Ideal) x0 x1 x2 x3 x4 x5 x6 x7 x8 x9 x10 x11 (lidx_main_v57 (ix2 e j) (⟨k.val, by omega⟩ : Fin 256))
        * x12 (ridx_main_v57 (ix2 e j) (⟨k.val, by omega⟩ : Fin 256)) = _
    rw [hl, hr, v56_left]
  · have hl : lidx_main_v57 (ix2 e j) (⟨128 + k.val, by omega⟩ : Fin 256) = ix2 e (⟨128 + k.val, by omega⟩ : Fin 256) :=
      funext fun a => Fin.ext (by match a with | ⟨0, _⟩ => rfl | ⟨1, _⟩ => rfl)
    have hr : ridx_main_v57 (ix2 e j) (⟨128 + k.val, by omega⟩ : Fin 256) = ix2 (⟨128 + k.val, by omega⟩ : Fin 256) j :=
      funext fun a => Fin.ext (by match a with | ⟨0, _⟩ => rfl | ⟨1, _⟩ => rfl)
    show val_main_v56 (F := Ideal) x0 x1 x2 x3 x4 x5 x6 x7 x8 x9 x10 x11 (lidx_main_v57 (ix2 e j) (⟨128 + k.val, by omega⟩ : Fin 256))
        * x12 (ridx_main_v57 (ix2 e j) (⟨128 + k.val, by omega⟩ : Fin 256)) = _
    rw [hl, hr, v56_right]

/-- The perceptron's third-layer row from the first layer's product. -/
private def h2 (a0 b0 : Fin 128 → EReal) (W1 : Fin 128 → Fin 128 → EReal) (b1 : Fin 128 → EReal)
    (W2 : Fin 128 → Fin 128 → EReal) (b2 : Fin 128 → EReal) (j2 : Fin 128) : EReal :=
  (∑ k, max ((∑ k1, max (a0 k1 + b0 k1) c0 * W1 k1 k) + b1 k) c0 * W2 k j2) + b2 j2

/-- The shared row formula is the normalisation of the third-layer row. -/
private theorem tail_eq (a0 b0 : Fin 128 → EReal) (W1 : Fin 128 → Fin 128 → EReal) (b1 : Fin 128 → EReal)
    (W2 : Fin 128 → Fin 128 → EReal) (b2 g β : Fin 128 → EReal) (j : Fin 128) :
    tail a0 b0 W1 b1 W2 b2 g β j = lnRow (h2 a0 b0 W1 b1 W2 b2) g β j := rfl

/-- The first bias, broadcast down the rows, at column j. -/
private theorem v59_at (e : Fin 50000) (j : Fin 128) : val_main_v59 (F := Ideal) x13 (ix2 e j) = x13 (ix1 j) := by
  rw [val_main_v59_apply, val_main_v58_apply]
  exact congrArg x13 (funext fun a => Fin.ext (by match a with | ⟨0, _⟩ => rfl))

/-- The second bias, broadcast down the rows, at column j. -/
private theorem v64_at (e : Fin 50000) (j : Fin 128) : val_main_v64 (F := Ideal) x15 (ix2 e j) = x15 (ix1 j) := by
  rw [val_main_v64_apply, val_main_v63_apply]
  exact congrArg x15 (funext fun a => Fin.ext (by match a with | ⟨0, _⟩ => rfl))

/-- The third bias, broadcast down the rows, at column j. -/
private theorem v69_at (e : Fin 50000) (j : Fin 128) : val_main_v69 (F := Ideal) x17 (ix2 e j) = x17 (ix1 j) := by
  rw [val_main_v69_apply, val_main_v68_apply]
  exact congrArg x17 (funext fun a => Fin.ext (by match a with | ⟨0, _⟩ => rfl))

/-- The normalisation's scale, broadcast down the rows, at column j. -/
private theorem v85_at (e : Fin 50000) (j : Fin 128) : val_main_v85 (F := Ideal) x18 (ix2 e j) = x18 (ix1 j) := by
  rw [val_main_v85_apply, val_main_v84_apply]
  exact congrArg x18 (funext fun a => Fin.ext (by match a with | ⟨0, _⟩ => rfl))

/-- The normalisation's shift, broadcast down the rows, at column j. -/
private theorem v93_at (e : Fin 50000) (j : Fin 128) : val_main_v93 (F := Ideal) x19 (ix2 e j) = x19 (ix1 j) := by
  rw [val_main_v93_apply, val_main_v92_apply]
  exact congrArg x19 (funext fun a => Fin.ext (by match a with | ⟨0, _⟩ => rfl))

/-- The first rectifier's floor is the zero word everywhere. -/
private theorem call2_at (i : S50000x128.Idx) : val_main_call2_v0 (F := Ideal) i = c0 := by
  rw [val_main_call2_v0_apply, val_main_call2_cst_apply]; rfl

/-- The second rectifier's floor is the zero word everywhere. -/
private theorem call3_at (i : S50000x128.Idx) : val_main_call3_v0 (F := Ideal) i = c0 := by
  rw [val_main_call3_v0_apply, val_main_call3_cst_apply]; rfl

/-- The mean's divisor is the word of 128 everywhere. -/
private theorem v73_at (i : S50000x1.Idx) : val_main_v73 (F := Ideal) i = c128 := by
  rw [val_main_v73_apply, val_main_cst_9_apply]; rfl

/-- The variance's divisor is the word of 128 everywhere. -/
private theorem v80_at (i : S50000x1.Idx) : val_main_v80 (F := Ideal) i = c128 := by
  rw [val_main_v80_apply, val_main_cst_11_apply]; rfl

/-- The variance's guard is its word everywhere. -/
private theorem v87_at (i : S50000x1.Idx) : val_main_v87 (F := Ideal) i = ceps := by
  rw [val_main_v87_apply, val_main_cst_12_apply]; rfl

/-- Layer one at row e, column k. -/
private theorem v61_at (e : Fin 50000) (k : Fin 128) :
    val_main_v61 (F := Ideal) x0 x1 x2 x3 x4 x5 x6 x7 x8 x9 x10 x11 x12 x13 (ix2 e k) = max (nodeA0 x0 (val_main_v55 (F := Ideal) x0 x1 x2 x3 x4 x5 x6 x7 x8 x9 x10 x11) x12 e k + x13 (ix1 k)) c0 := by
  rw [val_main_v61_apply, val_main_v60_apply, v57_at, v59_at, call2_at]; rfl

/-- Layer two's product at row e, column j. -/
private theorem v62_at (e : Fin 50000) (j : Fin 128) :
    val_main_v62 (F := Ideal) x0 x1 x2 x3 x4 x5 x6 x7 x8 x9 x10 x11 x12 x13 x14 (ix2 e j) = ∑ k1, max (nodeA0 x0 (val_main_v55 (F := Ideal) x0 x1 x2 x3 x4 x5 x6 x7 x8 x9 x10 x11) x12 e k1 + x13 (ix1 k1)) c0 * x14 (ix2 k1 j) := by
  rw [val_main_v62_apply]
  refine Finset.sum_congr rfl fun k _ => ?_
  have hl : lidx_main_v62 (ix2 e j) k = ix2 e k := funext fun a => Fin.ext (by match a with | ⟨0, _⟩ => rfl | ⟨1, _⟩ => rfl)
  have hr : ridx_main_v62 (ix2 e j) k = ix2 k j := funext fun a => Fin.ext (by match a with | ⟨0, _⟩ => rfl | ⟨1, _⟩ => rfl)
  rw [hl, hr, v61_at]

/-- Layer two at row e, column k. -/
private theorem v66_at (e : Fin 50000) (k : Fin 128) :
    val_main_v66 (F := Ideal) x0 x1 x2 x3 x4 x5 x6 x7 x8 x9 x10 x11 x12 x13 x14 x15 (ix2 e k) = max ((∑ k1, max (nodeA0 x0 (val_main_v55 (F := Ideal) x0 x1 x2 x3 x4 x5 x6 x7 x8 x9 x10 x11) x12 e k1 + x13 (ix1 k1)) c0 * x14 (ix2 k1 k)) + x15 (ix1 k)) c0 := by
  rw [val_main_v66_apply, val_main_v65_apply, v62_at, v64_at, call3_at]; rfl

/-- Layer three's product at row e, column j. -/
private theorem v67_at (e : Fin 50000) (j : Fin 128) :
    val_main_v67 (F := Ideal) x0 x1 x2 x3 x4 x5 x6 x7 x8 x9 x10 x11 x12 x13 x14 x15 x16 (ix2 e j) = ∑ k, max ((∑ k1, max (nodeA0 x0 (val_main_v55 (F := Ideal) x0 x1 x2 x3 x4 x5 x6 x7 x8 x9 x10 x11) x12 e k1 + x13 (ix1 k1)) c0 * x14 (ix2 k1 k)) + x15 (ix1 k)) c0 * x16 (ix2 k j) := by
  rw [val_main_v67_apply]
  refine Finset.sum_congr rfl fun k _ => ?_
  have hl : lidx_main_v67 (ix2 e j) k = ix2 e k := funext fun a => Fin.ext (by match a with | ⟨0, _⟩ => rfl | ⟨1, _⟩ => rfl)
  have hr : ridx_main_v67 (ix2 e j) k = ix2 k j := funext fun a => Fin.ext (by match a with | ⟨0, _⟩ => rfl | ⟨1, _⟩ => rfl)
  rw [hl, hr, v66_at]

/-- Layer three at row e, column j. -/
private theorem v70_at (e : Fin 50000) (j : Fin 128) :
    val_main_v70 (F := Ideal) x0 x1 x2 x3 x4 x5 x6 x7 x8 x9 x10 x11 x12 x13 x14 x15 x16 x17 (ix2 e j) = (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) j := by
  rw [val_main_v70_apply, v67_at, v69_at]; rfl

/-- The row's sum: the initial value is the zero word. -/
private theorem v71_at (e : Fin 50000) :
    val_main_v71 (F := Ideal) x0 x1 x2 x3 x4 x5 x6 x7 x8 x9 x10 x11 x12 x13 x14 x15 x16 x17 (ix1 e) = ∑ k, (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) k := by
  rw [val_main_v71_apply, val_main_cst_8_apply, Ideal.ofBits_def, Ideal.ofBits_zero_f32, zero_add]
  refine Finset.sum_congr rfl fun k _ => ?_
  have h : idx_main_v71 (ix1 e) k = ix2 e k := funext fun a => Fin.ext (by match a with | ⟨0, _⟩ => rfl | ⟨1, _⟩ => rfl)
  rw [h, v70_at]

/-- The row's mean. -/
private theorem v74_at (e : Fin 50000) :
    val_main_v74 (F := Ideal) x0 x1 x2 x3 x4 x5 x6 x7 x8 x9 x10 x11 x12 x13 x14 x15 x16 x17 (ix2 e (0 : Fin 1)) = mean (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) := by
  rw [val_main_v74_apply, val_main_v72_apply, v73_at]
  have h : idx_main_v72 (ix2 e (0 : Fin 1)) = ix1 e := funext fun a => Fin.ext (by match a with | ⟨0, _⟩ => rfl)
  rw [h, v71_at]; rfl

/-- The mean, broadcast along the row. -/
private theorem v75_at (e : Fin 50000) (j : Fin 128) : val_main_v75 (F := Ideal) x0 x1 x2 x3 x4 x5 x6 x7 x8 x9 x10 x11 x12 x13 x14 x15 x16 x17 (ix2 e j) = mean (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) := by
  rw [val_main_v75_apply]
  have h : idx_main_v75 (ix2 e j) = ix2 e (0 : Fin 1) := funext fun a => Fin.ext (by match a with | ⟨0, _⟩ => rfl | ⟨1, _⟩ => rfl)
  rw [h, v74_at]

/-- The mean again, broadcast along the row. -/
private theorem v82_at (e : Fin 50000) (j : Fin 128) : val_main_v82 (F := Ideal) x0 x1 x2 x3 x4 x5 x6 x7 x8 x9 x10 x11 x12 x13 x14 x15 x16 x17 (ix2 e j) = mean (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) := by
  rw [val_main_v82_apply]
  have h : idx_main_v82 (ix2 e j) = ix2 e (0 : Fin 1) := funext fun a => Fin.ext (by match a with | ⟨0, _⟩ => rfl | ⟨1, _⟩ => rfl)
  rw [h, v74_at]

/-- The squared deviation at row e, column j. -/
private theorem v77_at (e : Fin 50000) (j : Fin 128) :
    val_main_v77 (F := Ideal) x0 x1 x2 x3 x4 x5 x6 x7 x8 x9 x10 x11 x12 x13 x14 x15 x16 x17 (ix2 e j) = ((h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) j - mean (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q)))) * ((h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) j - mean (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q)))) := by
  rw [val_main_v77_apply, val_main_v76_apply, v70_at, v75_at]; rfl

/-- The row's sum of squared deviations: the initial value is the zero word. -/
private theorem v78_at (e : Fin 50000) :
    val_main_v78 (F := Ideal) x0 x1 x2 x3 x4 x5 x6 x7 x8 x9 x10 x11 x12 x13 x14 x15 x16 x17 (ix1 e) = ∑ k, ((h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) k - mean (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q)))) * ((h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) k - mean (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q)))) := by
  rw [val_main_v78_apply, val_main_cst_10_apply, Ideal.ofBits_def, Ideal.ofBits_zero_f32, zero_add]
  refine Finset.sum_congr rfl fun k _ => ?_
  have h : idx_main_v78 (ix1 e) k = ix2 e k := funext fun a => Fin.ext (by match a with | ⟨0, _⟩ => rfl | ⟨1, _⟩ => rfl)
  rw [h, v77_at]

/-- The row's variance. -/
private theorem v81_at (e : Fin 50000) :
    val_main_v81 (F := Ideal) x0 x1 x2 x3 x4 x5 x6 x7 x8 x9 x10 x11 x12 x13 x14 x15 x16 x17 (ix2 e (0 : Fin 1)) = var (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) := by
  rw [val_main_v81_apply, val_main_v79_apply, v80_at]
  have h : idx_main_v79 (ix2 e (0 : Fin 1)) = ix1 e := funext fun a => Fin.ext (by match a with | ⟨0, _⟩ => rfl)
  rw [h, v78_at]; rfl

/-- The reciprocal square root of the guarded variance. -/
private theorem v89_at (e : Fin 50000) :
    val_main_v89 (F := Ideal) x0 x1 x2 x3 x4 x5 x6 x7 x8 x9 x10 x11 x12 x13 x14 x15 x16 x17 (ix2 e (0 : Fin 1)) = Ideal.rsqrt (var (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) + ceps) := by
  rw [val_main_v89_apply, val_main_v88_apply, v81_at, v87_at]; rfl

/-- The same, broadcast along the row. -/
private theorem v90_at (e : Fin 50000) (j : Fin 128) : val_main_v90 (F := Ideal) x0 x1 x2 x3 x4 x5 x6 x7 x8 x9 x10 x11 x12 x13 x14 x15 x16 x17 (ix2 e j) = Ideal.rsqrt (var (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) + ceps) := by
  rw [val_main_v90_apply]
  have h : idx_main_v90 (ix2 e j) = ix2 e (0 : Fin 1) := funext fun a => Fin.ext (by match a with | ⟨0, _⟩ => rfl | ⟨1, _⟩ => rfl)
  rw [h, v89_at]

/-- The normalised row. -/
private theorem v94_at (e : Fin 50000) (j : Fin 128) :
    val_main_v94 (F := Ideal) x0 x1 x2 x3 x4 x5 x6 x7 x8 x9 x10 x11 x12 x13 x14 x15 x16 x17 x18 x19 (ix2 e j) = lnRow (h2 (nodeA0 x0 (val_main_v55 (F := Ideal) x0 x1 x2 x3 x4 x5 x6 x7 x8 x9 x10 x11) x12 e) (fun q => x13 (ix1 q)) (fun a b => x14 (ix2 a b)) (fun q => x15 (ix1 q)) (fun a b => x16 (ix2 a b)) (fun q => x17 (ix1 q))) (fun q => x18 (ix1 q)) (fun q => x19 (ix1 q)) j := by
  rw [val_main_v94_apply, val_main_v91_apply, val_main_v86_apply, val_main_v83_apply, v85_at, v70_at, v82_at, v90_at, v93_at]; rfl

/-- The node result, over whatever the aggregated rows are. -/
theorem outNode_ref :
    val_main_v95 (F := Ideal) x0 x1 x2 x3 x4 x5 x6 x7 x8 x9 x10 x11 x12 x13 x14 x15 x16 x17 x18 x19
      = nodeOut x0 (val_main_v55 (F := Ideal) x0 x1 x2 x3 x4 x5 x6 x7 x8 x9 x10 x11) x12 x13 x14 x15 x16 x17 x18 x19 := by
  refine ext2 _ _ fun e j => ?_
  rw [val_main_v95_apply, v94_at]; rfl

end Cert.ReferenceIdeal.RefNode

end
-- ==== Proof.RefValue.lean ====
/-
  What the idealized reference's @main returns, as the same row formulas of its arguments: the node result over the
  scatter-add of the updated edge features, and the edge result; with every index at least 0, so that the reference's
  wrap of negative indices changes nothing.
-/
import proofs.«425903_j37632503447812_1_alg».proof.Proof.RefEdge
import proofs.«425903_j37632503447812_1_alg».proof.Proof.RefNode

noncomputable section

namespace Cert.ReferenceIdeal.RefResult

open Idealize.ShloMosaic Idealize.ShloMosaic.ValueIdx
open Cert.ReferenceIdeal Cert.ReferenceIdeal.Gen Cert.ReferenceIdeal.Read Cert.Rows
open Cert.ReferenceIdeal.RefEdge Cert.ReferenceIdeal.RefNode

variable (x0 : Mat 50000 128) (x1 : Mat 400000 128) (x2 x3 : IVec S400000 32) (x4 : Mat 384 128) (x5 : Vec1 128)
  (x6 : Mat 128 128) (x7 : Vec1 128) (x8 : Mat 128 128) (x9 x10 x11 : Vec1 128)
  (x12 : Mat 256 128) (x13 : Vec1 128) (x14 : Mat 128 128) (x15 : Vec1 128) (x16 : Mat 128 128) (x17 x18 x19 : Vec1 128)

/-- The node result: the node perceptron over the node rows and the scattered sums of the updated edge features. -/
theorem node_ref (hs0 : ∀ i, IntOp.cmpi .sge (x2 i) 0#32 = 1#1) (hr0 : ∀ i, IntOp.cmpi .sge (x3 i) 0#32 = 1#1) :
    val_main_v95 (F := Ideal) x0 x1 x2 x3 x4 x5 x6 x7 x8 x9 x10 x11 x12 x13 x14 x15 x16 x17 x18 x19
      = nodeOut x0 (scatR x3 (edgeNew (gatR x0 x2) (gatR x0 x3) x1 x4 x5 x6 x7 x8 x9 x10 x11)) x12 x13 x14 x15 x16 x17 x18 x19 :=
  (outNode_ref x0 x1 x2 x3 x4 x5 x6 x7 x8 x9 x10 x11 x12 x13 x14 x15 x16 x17 x18 x19).trans
    (congrArg (fun ss => nodeOut x0 ss x12 x13 x14 x15 x16 x17 x18 x19)
      ((seg_ref x0 x1 x2 x3 x4 x5 x6 x7 x8 x9 x10 x11).trans
        (congrArg (scatR x3) (newEdge_ref x0 x1 x2 x3 x4 x5 x6 x7 x8 x9 x10 x11 hs0 hr0))))

end Cert.ReferenceIdeal.RefResult

end
-- ==== Proof.lean ====
/-
  The certificate: the message-passing block computed by two tiled kernels (an edge perceptron and a node perceptron,
  each three layers and a layer normalisation) with the row gathers and the receiver scatter-sum left to the host, against
  the plain reference that concatenates the gathered rows and applies one perceptron per side.

  On the extended reals, with every sender and receiver index in [0, 50000): both programs gather the same rows (the
  kernel's gather answers an out-of-range index by a fill value, the reference's clamps it; in range neither happens,
  and the reference's wrap of negative indices changes nothing); the kernel multiplies the sender, receiver and edge rows
  by the three row blocks of the first weight and adds the three products, the reference multiplies their
  concatenation by the whole weight: a sum over 384 indices against three sums over 128, equal because addition of
  extended reals is commutative and associative (no finiteness is used); the later layers, the normalisation (a mean and a
  variance over 128, a reciprocal square root with the same guard word) and the residuals are the same row formula in the
  same order on both sides; the scatter-sum is the same operation applied to equal arrays. The node side is the same with
  two row blocks of 128.
  The three frames: the two kernel programs run by their launch theorems over the generated region proofs; the reference
  by its run with the results dropped. The idealization rewrote nothing, so `preserves` is trivial.
-/
import proofs.«425903_j37632503447812_1_alg».proof.Defs
import proofs.«425903_j37632503447812_1_alg».proof.Proof.Gen.Kernel
import proofs.«425903_j37632503447812_1_alg».proof.Proof.Gen.Kernel.Skeleton
import proofs.«425903_j37632503447812_1_alg».proof.Proof.Gen.Kernel.Launch
import proofs.«425903_j37632503447812_1_alg».proof.Proof.Gen.Kernel.Points
import proofs.«425903_j37632503447812_1_alg».proof.Proof.Gen.Kernel.Frame
import proofs.«425903_j37632503447812_1_alg».proof.Proof.Gen.KernelIdeal
import proofs.«425903_j37632503447812_1_alg».proof.Proof.Gen.KernelIdeal.Skeleton
import proofs.«425903_j37632503447812_1_alg».proof.Proof.Gen.KernelIdeal.Launch
import proofs.«425903_j37632503447812_1_alg».proof.Proof.Gen.KernelIdeal.Points
import proofs.«425903_j37632503447812_1_alg».proof.Proof.Gen.KernelIdeal.Frame
import proofs.«425903_j37632503447812_1_alg».proof.Proof.Gen.ReferenceIdeal
import proofs.«425903_j37632503447812_1_alg».proof.Proof.Gen.ReferenceIdeal.Run
import proofs.«425903_j37632503447812_1_alg».proof.Proof.Gen.ReferenceIdeal.Read
import proofs.«425903_j37632503447812_1_alg».proof.Proof.Gen.Pre_finite_inputs
import proofs.«425903_j37632503447812_1_alg».proof.Proof.PreDecode
import proofs.«425903_j37632503447812_1_alg».proof.Proof.KernelValue
import proofs.«425903_j37632503447812_1_alg».proof.Proof.RefValue
import Idealize.ShloMosaic.Adequacy
import Idealize.ShloMosaic.Init

noncomputable section

namespace Cert.Proof

open Idealize.ShloMosaic Idealize.SL.Sem

/-- The two programs' row gathers are one function: their dimension records have the same entries. -/
theorem gat_eq (nf : Cert.Rows.Mat 50000 128) (s : IVec Cert.KernelIdeal.S400000 32) :
    Cert.ReferenceIdeal.RefEdge.gatR nf s = Cert.KernelIdeal.Glue.gat nf s := rfl

/-- The two programs' scatter-sums are one function: their dimension records have the same entries. -/
theorem scat_eq (r : IVec Cert.KernelIdeal.S400000 32) (u : Cert.Rows.Mat 400000 128) :
    Cert.ReferenceIdeal.RefNode.scatR r u = Cert.KernelIdeal.Glue.scat r u := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- With every index in range the two idealized programs end with the same node result and the same edge result. -/
theorem algebraic : Cert.algebraic_KernelIdeal_ReferenceIdeal := by
  intro m ρ m' ρ' hpre hagree
  have hrg := fun c => Cert.PreDecode.index_ranges _ _ _ _ _ _ _ _ _ _ _ _ _ _ _ _ _ _ _ _ (hpre c)
  refine ⟨fun c => Cert.KernelIdeal.Result.nodeRes m c, fun c => Cert.KernelIdeal.Result.edgeRes m c,
    Cert.KernelIdeal.Result.run m ρ (fun c => (hrg c).1) (fun c => (hrg c).2.1) (fun c => (hrg c).2.2.1) (fun c => (hrg c).2.2.2), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9, e10, e11, e12, e13, e14, e15, e16, e17, e18, e19⟩ := hagree c
    rw [Cert.ReferenceIdeal.Read.val_main_v95_eq, e0, e1, e2, e3, e4, e5, e6, e7, e8, e9, e10, e11, e12, e13, e14, e15, e16, e17, e18, e19]
    refine (Cert.ReferenceIdeal.RefResult.node_ref _ _ _ _ _ _ _ _ _ _ _ _ _ _ _ _ _ _ _ _ (hrg c).1 (hrg c).2.2.1).trans ?_
    unfold Cert.KernelIdeal.Result.nodeRes Cert.KernelIdeal.Result.newEdge
    rw [scat_eq, gat_eq, gat_eq]
  · obtain ⟨e0, e1, e2, e3, e4, e5, e6, e7, e8, e9, e10, e11, -⟩ := hagree c
    rw [Cert.ReferenceIdeal.Read.val_main_v96_eq, e0, e1, e2, e3, e4, e5, e6, e7, e8, e9, e10, e11]
    refine (Cert.ReferenceIdeal.RefEdge.outEdge_ref _ _ _ _ _ _ _ _ _ _ _ _ (hrg c).1 (hrg c).2.2.1).trans ?_
    unfold Cert.KernelIdeal.Result.edgeRes
    rw [gat_eq, gat_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
